-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 256#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x2048 : Shape := ⟨2, ![8192, 2048]⟩
abbrev S8192 : Shape := ⟨1, ![8192]⟩
abbrev S8192x1 : Shape := ⟨2, ![8192, 1]⟩
abbrev S256x2048 : Shape := ⟨2, ![256, 2048]⟩
abbrev S1x256 : Shape := ⟨2, ![1, 256]⟩
abbrev S1024x2048 : Shape := ⟨2, ![1024, 2048]⟩
abbrev S1024x1 : Shape := ⟨2, ![1024, 1]⟩
abbrev S1024x256 : Shape := ⟨2, ![1024, 256]⟩
abbrev S256 : Shape := ⟨1, ![256]⟩
abbrev S256x1 : Shape := ⟨2, ![256, 1]⟩
abbrev S1x1 : Shape := ⟨2, ![1, 1]⟩
abbrev S1024 : Shape := ⟨1, ![1024]⟩
abbrev S1 : Shape := ⟨1, ![1]⟩
abbrev S_ : Shape := ⟨0, ![]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192x1, .i32⟩
  | .hbm, ⟨3, _⟩ => ⟨S256x2048, .bf16⟩
  | .hbm, ⟨4, _⟩ => ⟨S1x256, .f32⟩
  | .hbm, ⟨5, _⟩ => ⟨S1x1, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S256x2048, .bf16⟩
  | .local _ .vmem, ⟨5, _⟩ => ⟨S1x256, .f32⟩
  | .local _ .vmem, ⟨6, _⟩ => ⟨S256x2048, .f32⟩
  | .local _ .vmem, ⟨7, _⟩ => ⟨S1x256, .f32⟩
  | .local _ .vmem, ⟨8, _⟩ => ⟨S1024x2048, .f32⟩
  | .local _ .vmem, ⟨9, _⟩ => ⟨S1024x2048, .f32⟩
  | .local _ .vmem, ⟨10, _⟩ => ⟨S1024x1, .i32⟩
  | .local _ .vmem, ⟨11, _⟩ => ⟨S1024x1, .i32⟩
  | .local _ .vmem, ⟨12, _⟩ => ⟨S256x2048, .bf16⟩
  | .local _ .vmem, ⟨13, _⟩ => ⟨S1x256, .f32⟩
  | .local _ .vmem, ⟨14, _⟩ => ⟨S1x1, .f32⟩
  | .local _ .vmem, ⟨15, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_21 : BitVec 32 := 0#32
  let v50 : BitVec 1 := Scalar.cmpi .ne v49 c0_i32_21
  v50

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S8192_S8192x1 : S8192.ShapeCasts S8192x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x256_d1_w32 : S1024x256.Iotas .tc 32 [1]
  broadcasts_S1024x1_S1024x256 : S1024x1.Broadcasts S1024x256
  natLt_1_32 : 1 < 32
  reduces_S1024x256_S256 : S1024x256.Reduces [0] S256
  shapeCasts_S256_S1x256 : S256.ShapeCasts S1x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  transposes_S1x256_p1_0_S256x1 : S1x256.Transposes [1, 0] S256x1
  broadcasts_S256x1_S256x2048 : S256x1.Broadcasts S256x2048
  reduces_S256x2048_S256 : S256x2048.Reduces [1] S256
  shapeCasts_S256_S256x1 : S256.ShapeCasts S256x1
  packedbf16_S256x2048_S256x2048_0_0 : (Rect.unit (s := S256x2048) ![0, 0] S256x2048.size inb_S256x2048_S256x2048_0_0).PackedRows (EltTy.packing .bf16)
  transposes_S256x1_p1_0_S1x256 : S256x1.Transposes [1, 0] S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x2048_S1024 : S1024x2048.Reduces [1] S1024
  shapeCasts_S1024_S1024x1 : S1024.ShapeCasts S1024x1
  broadcasts_S1x256_S1024x256 : S1x256.Broadcasts S1024x256
  reduces_S1024x256_S1024 : S1024x256.Reduces [1] S1024
  reduces_S1024x1_S1 : S1024x1.Reduces [0] S1
  shapeCasts_S1_S1x1 : S1.ShapeCasts S1x1
  shapeCasts_S1x1_S_ : S1x1.ShapeCasts S_
  dot_S1024x256_S1024x2048_S256x2048_0_0_1_1_n_n_wf : DotDims.WF S1024x256 S1024x2048 S256x2048 [0] [0] [1] [1] [] []
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .i32 = 32 ∨ (Rect.block (s := S8192x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S256x2048.size a
  hwx1_2 : ∀ i : grid1.Coords, EltTy.bits .bf16 = 32 ∨ (Rect.block (s := S256x2048) S256x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x256_S1024x2048_S256x2048_0_0_1_1_n_n : DotDims S1024x256 S1024x2048 S256x2048 where
  lhsContracting := [0]
  rhsContracting := [0]
  lhsNonContracting := [1]
  rhsNonContracting := [1]
  lhsBatch := []
  rhsBatch := []
  wf := dot_S1024x256_S1024x2048_S256x2048_0_0_1_1_n_n_wf
def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S256x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192 : Shape := ⟨1, ![8192]⟩
abbrev S_ : Shape := ⟨0, ![]⟩
abbrev S256x2048 : Shape := ⟨2, ![256, 2048]⟩
abbrev S8192x1 : Shape := ⟨2, ![8192, 1]⟩
abbrev S256 : Shape := ⟨1, ![256]⟩
abbrev S256x1 : Shape := ⟨2, ![256, 1]⟩
abbrev S1x256 : Shape := ⟨2, ![1, 256]⟩
abbrev S8192x256 : Shape := ⟨2, ![8192, 256]⟩
abbrev S2048x256 : Shape := ⟨2, ![2048, 256]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S_, .f32⟩
  | .hbm, ⟨3, _⟩ => ⟨S256x2048, .f32⟩
  | .hbm, ⟨4, _⟩ => ⟨S8192x1, .i32⟩
  | .hbm, ⟨5, _⟩ => ⟨S256x2048, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S256, .f32⟩
  | .hbm, ⟨10, _⟩ => ⟨S8192x1, .i32⟩
  | .hbm, ⟨11, _⟩ => ⟨S256, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S256x2048, .f32⟩
  | .hbm, ⟨20, _⟩ => ⟨S_, .f32⟩
  | .hbm, ⟨21, _⟩ => ⟨S256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S2048x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x1, .i32⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S_, .i32⟩
  | .hbm, ⟨41, _⟩ => ⟨S8192x1, .i32⟩
  | .hbm, ⟨42, _⟩ => ⟨S8192x1, .i32⟩
  | .hbm, ⟨43, _⟩ => ⟨S8192x1, .i32⟩
  | .hbm, ⟨44, _⟩ => ⟨S8192x1x1, .i32⟩
  | .hbm, ⟨45, _⟩ => ⟨S1, .i32⟩
  | .hbm, ⟨46, _⟩ => ⟨S_, .i32⟩
  | .hbm, ⟨47, _⟩ => ⟨S8192x1x1, .i32⟩
  | .hbm, ⟨48, _⟩ => ⟨S8192x1x1, .i1⟩
  | .hbm, ⟨49, _⟩ => ⟨S1x1x1, .i32⟩
  | .hbm, ⟨50, _⟩ => ⟨S8192x1x1, .i32⟩
  | .hbm, ⟨51, _⟩ => ⟨S8192x1x1, .i1⟩
  | .hbm, ⟨52, _⟩ => ⟨S8192x1x1, .i1⟩
  | .hbm, ⟨53, _⟩ => ⟨S_, .i1⟩
  | .hbm, ⟨54, _⟩ => ⟨S8192x1, .i1⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192, .f32⟩
  | .hbm, ⟨60, _⟩ => ⟨S256, .i32⟩
  | .hbm, ⟨61, _⟩ => ⟨S1x256, .i32⟩
  | .hbm, ⟨62, _⟩ => ⟨S8192x1, .i32⟩
  | .hbm, ⟨63, _⟩ => ⟨S8192x256, .i32⟩
  | .hbm, ⟨64, _⟩ => ⟨S8192x256, .i32⟩
  | .hbm, ⟨65, _⟩ => ⟨S8192x256, .i1⟩
  | .hbm, ⟨66, _⟩ => ⟨S_, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_cst : Ref sig .tc := ⟨.hbm, 56, rfl⟩
abbrev main_call0_v14 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_cst_8 : Ref sig .tc := ⟨.hbm, 73, rfl⟩
abbrev main_v39 : Ref sig .tc := ⟨.hbm, 74, rfl⟩
abbrev main_v40 : Ref sig .tc := ⟨.hbm, 75, rfl⟩
abbrev main_call2_cst : Ref sig .tc := ⟨.hbm, 76, rfl⟩
abbrev main_call2_v0 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_cst_10 : Ref sig .tc := ⟨.hbm, 81, rfl⟩
abbrev main_v43 : Ref sig .tc := ⟨.hbm, 82, rfl⟩

abbrev nD : Nat := 1
abbrev τ : Topo := Topo.v7x

variable {F : FTy → Type} [FloatOps F]

class Facts₀ : Prop where
  bcast_S_S256x2048 : S_.BroadcastsInDim S256x2048 (![] : Fin 0 → Fin S256x2048.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S256 : S_.BroadcastsInDim S256 (![] : Fin 0 → Fin S256.rank)
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  reducesTo_S8192x2048_S8192_d1 : S8192x2048.ReducesTo [1] S8192
  h_S_ : 0 < S_.numel
  reducesTo_S256x2048_S256_d1 : S256x2048.ReducesTo [1] S256
  bcast_S256_S1x256_1 : S256.BroadcastsInDim S1x256 (![1] : Fin 1 → Fin S1x256.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  transposes_S256x2048_S2048x256_1_0 : S256x2048.Transposes [1, 0] S2048x256
  bcast_S_S8192x256 : S_.BroadcastsInDim S8192x256 (![] : Fin 0 → Fin S8192x256.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192x256_S8192_d1 : S8192x256.ReducesTo [1] S8192
  reducesTo_S8192_S_d0 : S8192.ReducesTo [0] S_
  scatter_S256x2048_S8192x1_S8192x2048_1_0_0_1_wf : ScatterDims.WF S256x2048 S8192x1 S8192x2048 [1] [0] [0] 1
  scatter_S256_S8192x1_S8192_n_0_0_1_wf : ScatterDims.WF S256 S8192x1 S8192 [] [0] [0] 1
  dot_S8192x2048_S2048x256_S8192x256_1_0_0_1_n_n_wf : DotDims.WF S8192x2048 S2048x256 S8192x256 [1] [0] [0] [1] [] []
  gather_S8192x256_S8192x1x1_S8192x1_n_1_0_0_1_2_11_wf : GatherDims.WF S8192x256 S8192x1x1 S8192x1 [] [1] [0] [1] [0] 2 ![1, 1]

variable [Facts₀]

def scatter_S256x2048_S8192x1_S8192x2048_1_0_0_1 : ScatterDims S256x2048 S8192x1 S8192x2048 where
  updateWindowDims := [1]
  insertedWindowDims := [0]
  scatterDimsToOperandDims := [0]
  indexVectorDim := 1
  wf := scatter_S256x2048_S8192x1_S8192x2048_1_0_0_1_wf
def scatter_S256_S8192x1_S8192_n_0_0_1 : ScatterDims S256 S8192x1 S8192 where
  updateWindowDims := []
  insertedWindowDims := [0]
  scatterDimsToOperandDims := [0]
  indexVectorDim := 1
  wf := scatter_S256_S8192x1_S8192_n_0_0_1_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def gather_S8192x256_S8192x1x1_S8192x1_n_1_0_0_1_2_11 : GatherDims S8192x256 S8192x1x1 S8192x1 where
  offsetDims := []
  collapsedSliceDims := [1]
  operandBatchingDims := [0]
  startIndicesBatchingDims := [0]
  startIndexMap := [1]
  indexVectorDim := 2
  sliceSizes := ![1, 1]
  wf := gather_S8192x256_S8192x1x1_S8192x1_n_1_0_0_1_2_11_wf

class Facts : Prop extends Facts₀ where

variable [Facts]
-- ==== Proof.R0Base.lean ====
/-
  THE FIRST KERNEL (class sums and counts, then centroids): what its runs are stated over.

  The kernel is called at 8 grid points, one per tile of 1024 rows.  Its windows: the row tile (window 0) and the
  label tile (window 1), fetched at every point; the centroids (window 2) and their squared norms (window 3), stored
  and written back at the last point only.  Between points it keeps two scratch buffers, the class sums and the class
  counts.  Two conditions on the point decide its control: "this is the first point" (the accumulators are reset) and
  "this is the last point" (the outputs are computed and stored).  Here: each window's block at a point read off the
  arrays as the region finds them, the two conditions in closed form over the grid, where the output windows are
  idle, the memrefs the body is called with, and the region's resting invariant with the two scratch buffers named.
-/
import proofs.«421815_j46883863003641_1_alg».proof.Proof.Gen.KernelIdeal.Launch
import proofs.«421815_j46883863003641_1_alg».proof.Proof.Gen.KernelIdeal.Skeleton
import proofs.«421815_j46883863003641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds the tile at every point, for any proof data over these arrays whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the label tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions on the grid point -/

/-- "This is the first point": the body's first conditional, as its scalar chain computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the body's second conditional. -/
abbrev cond0_1 (i : grid0.Coords) : Prop := k0_cond2 i = 1#1
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- The class sums' scratch buffer. -/
abbrev scM0_0 : Memref sig .tc .vmem S256x2048 .f32 := Memref.whole cc0_scratch0
/-- The class counts' scratch buffer. -/
abbrev scM0_1 : Memref sig .tc .vmem S1x256 .f32 := Memref.whole cc0_scratch1

/-! ## The resting invariant -/

/-- The core's scoped buffers that belong to the other kernel, each at some contents: they ride through this region
    untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The region's resting invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.Hand

end
-- ==== Proof.R0RunA.lean ====
/-
  THE FIRST KERNEL'S BODY AT THE FIRST GRID POINT: both accumulators are reset to zero and then take the first tile's
  contribution; the two output windows are left as they were.
-/
import proofs.«421815_j46883863003641_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At the first point (the reset taken, the finalisation not): on whole memrefs, the two input tiles at their
    contents, the two idle outputs at contents handed back untouched, the two scratch buffers at anything, the body runs
    to the continuation with each scratch buffer holding its stores' pieces (the witness the run finds). -/
noncomputable def kernelRun0_A (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : cond0_0 i) (hc1 : ¬cond0_1 i)
    (x0 : Vec F S1024x2048 .f32) (x1 : Vec F S1024x1 .i32) :
    Σ' (LS0 : List (View.Piece (Elt F) S256x2048 .f32)), { LS1 : List (View.Piece (Elt F) S1x256 .f32) //
      ∀ (xi2 : Vec F S256x2048 .bf16) (xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.R0RunB.lean ====
/-
  THE FIRST KERNEL'S BODY AT A MIDDLE GRID POINT: both accumulators take the tile's contribution on top of what the
  point before left; the two output windows are left as they were.
-/
import proofs.«421815_j46883863003641_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At a middle point (neither conditional taken): the scratch buffers at what the point before left. -/
noncomputable def kernelRun0_B (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : ¬cond0_0 i) (hc1 : ¬cond0_1 i)
    (x0 : Vec F S1024x2048 .f32) (x1 : Vec F S1024x1 .i32) (xs0 : Vec F S256x2048 .f32) (xs1 : Vec F S1x256 .f32) :
    Σ' (LS0 : List (View.Piece (Elt F) S256x2048 .f32)), { LS1 : List (View.Piece (Elt F) S1x256 .f32) //
      ∀ (xi2 : Vec F S256x2048 .bf16) (xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.R0RunC.lean ====
/-
  THE FIRST KERNEL'S BODY AT THE LAST GRID POINT: both accumulators take the last tile's contribution, then the
  centroids (sums over counts) and their squared norms are stored into the two output windows.
-/
import proofs.«421815_j46883863003641_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At the last point (the reset not taken, the finalisation taken): the scratch buffers at what the point before
    left, the two outputs at anything; each output and each scratch buffer ends holding its stores' pieces. -/
noncomputable def kernelRun0_C (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : ¬cond0_0 i) (hc1 : cond0_1 i)
    (x0 : Vec F S1024x2048 .f32) (x1 : Vec F S1024x1 .i32) (xs0 : Vec F S256x2048 .f32) (xs1 : Vec F S1x256 .f32) :
    Σ' (L2 : List (View.Piece (Elt F) S256x2048 .bf16)) (L3 : List (View.Piece (Elt F) S1x256 .f32)) (LS0 : List (View.Piece (Elt F) S256x2048 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, ?_, ?_, fun E K => ?run⟩
  case run =>
    simp only [cc0__centroid_kernel_eq_skeleton]; unfold cc0__centroid_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.R0Pieces.lean ====
/-
  WHAT THE FIRST KERNEL'S STORES LEAVE, AS VALUES.  In each control case every buffer the body stores into is stored
  whole, so what it holds afterwards is the last store's value: for the two accumulators the tile's update of what
  they held (of zero, at the first point, where the reset comes first and is read back by the update), and at the last
  point for the two outputs the centroids and their squared norms computed from the accumulators just updated.
-/
import proofs.«421815_j46883863003641_1_alg».proof.Proof.R0RunA
import proofs.«421815_j46883863003641_1_alg».proof.Proof.R0RunB
import proofs.«421815_j46883863003641_1_alg».proof.Proof.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole)

/-! ## A middle point -/

theorem piece0_B_0 (hc0 : ¬cond0_0 i) (hc1 : ¬cond0_1 i) (x0 : Vec F S1024x2048 .f32) (x1 : Vec F S1024x1 .i32) (xs0 : Vec F S256x2048 .f32) (xs1 : Vec F S1x256 .f32) (f : arg5.view.ty.Contents (Elt F)) :
    arg5.view.read (Elt F) (arg5.view.writes (Elt F) f (kernelRun0_B c i arg1 harg1 arg2 harg2 arg3 harg3 arg4 harg4 arg5 harg5 arg6 harg6 hc0 hc1 x0 x1 xs0 xs1).1) = k0_pay5 x1 x0 xs0 := by
  rw [View.read_writes_eq_canon _ _ _ (fun y => View.cover_of_tiledL _ S256x2048.size (by sl_kernel_rfl) y)]
  unfold kernelRun0_B; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_B_1 (hc0 : ¬cond0_0 i) (hc1 : ¬cond0_1 i) (x0 : Vec F S1024x2048 .f32) (x1 : Vec F S1024x1 .i32) (xs0 : Vec F S256x2048 .f32) (xs1 : Vec F S1x256 .f32) (f : arg6.view.ty.Contents (Elt F)) :
    arg6.view.read (Elt F) (arg6.view.writes (Elt F) f (kernelRun0_B c i arg1 harg1 arg2 harg2 arg3 harg3 arg4 harg4 arg5 harg5 arg6 harg6 hc0 hc1 x0 x1 xs0 xs1).2.1) = k0_pay4 x1 xs1 := by
  rw [View.read_writes_eq_canon _ _ _ (fun y => View.cover_of_tiledL _ S1x256.size (by sl_kernel_rfl) y)]
  unfold kernelRun0_B; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

/-! ## The first point -/

theorem piece0_A_0 (hc0 : cond0_0 i) (hc1 : ¬cond0_1 i) (x0 : Vec F S1024x2048 .f32) (x1 : Vec F S1024x1 .i32) (f : arg5.view.ty.Contents (Elt F)) :
    arg5.view.read (Elt F) (arg5.view.writes (Elt F) f (kernelRun0_A c i arg1 harg1 arg2 harg2 arg3 harg3 arg4 harg4 arg5 harg5 arg6 harg6 hc0 hc1 x0 x1).1) = k0_pay5 x1 x0 k0_pay1 := by
  rw [View.read_writes_eq_canon _ _ _ (fun y => View.cover_of_tiledL _ S256x2048.size (by sl_kernel_rfl) y)]
  unfold kernelRun0_A; dsimp only; sl_unfold_words
  rw [View.canon_cons_unit_zero (S := S256x2048) hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

theorem piece0_A_1 (hc0 : cond0_0 i) (hc1 : ¬cond0_1 i) (x0 : Vec F S1024x2048 .f32) (x1 : Vec F S1024x1 .i32) (f : arg6.view.ty.Contents (Elt F)) :
    arg6.view.read (Elt F) (arg6.view.writes (Elt F) f (kernelRun0_A c i arg1 harg1 arg2 harg2 arg3 harg3 arg4 harg4 arg5 harg5 arg6 harg6 hc0 hc1 x0 x1).2.1) = k0_pay4 x1 k0_pay2 := by
  rw [View.read_writes_eq_canon _ _ _ (fun y => View.cover_of_tiledL _ S1x256.size (by sl_kernel_rfl) y)]
  unfold kernelRun0_A; dsimp only; sl_unfold_words
  rw [View.canon_cons_unit_zero (S := S1x256) hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

/-! ## The last point -/

theorem piece0_C_0 (hc0 : ¬cond0_0 i) (hc1 : cond0_1 i) (x0 : Vec F S1024x2048 .f32) (x1 : Vec F S1024x1 .i32) (xs0 : Vec F S256x2048 .f32) (xs1 : Vec F S1x256 .f32) (f : arg5.view.ty.Contents (Elt F)) :
    arg5.view.read (Elt F) (arg5.view.writes (Elt F) f (kernelRun0_C c i arg1 harg1 arg2 harg2 arg3 harg3 arg4 harg4 arg5 harg5 arg6 harg6 hc0 hc1 x0 x1 xs0 xs1).2.2.1) = k0_pay5 x1 x0 xs0 := by
  rw [View.read_writes_eq_canon _ _ _ (fun y => View.cover_of_tiledL _ S256x2048.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_C_1 (hc0 : ¬cond0_0 i) (hc1 : cond0_1 i) (x0 : Vec F S1024x2048 .f32) (x1 : Vec F S1024x1 .i32) (xs0 : Vec F S256x2048 .f32) (xs1 : Vec F S1x256 .f32) (f : arg6.view.ty.Contents (Elt F)) :
    arg6.view.read (Elt F) (arg6.view.writes (Elt F) f (kernelRun0_C c i arg1 harg1 arg2 harg2 arg3 harg3 arg4 harg4 arg5 harg5 arg6 harg6 hc0 hc1 x0 x1 xs0 xs1).2.2.2.1) = k0_pay4 x1 xs1 := by
  rw [View.read_writes_eq_canon _ _ _ (fun y => View.cover_of_tiledL _ S1x256.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_C_2 (hc0 : ¬cond0_0 i) (hc1 : cond0_1 i) (x0 : Vec F S1024x2048 .f32) (x1 : Vec F S1024x1 .i32) (xs0 : Vec F S256x2048 .f32) (xs1 : Vec F S1x256 .f32) (f : arg3.view.ty.Contents (Elt F)) :
    arg3.view.read (Elt F) (arg3.view.writes (Elt F) f (kernelRun0_C c i arg1 harg1 arg2 harg2 arg3 harg3 arg4 harg4 arg5 harg5 arg6 harg6 hc0 hc1 x0 x1 xs0 xs1).1) = k0_pay7 (k0_pay4 x1 xs1) (k0_pay5 x1 x0 xs0) := by
  rw [View.read_writes_eq_canon _ _ _ (fun y => View.cover_of_tiledL _ S256x2048.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

theorem piece0_C_3 (hc0 : ¬cond0_0 i) (hc1 : cond0_1 i) (x0 : Vec F S1024x2048 .f32) (x1 : Vec F S1024x1 .i32) (xs0 : Vec F S256x2048 .f32) (xs1 : Vec F S1x256 .f32) (f : arg4.view.ty.Contents (Elt F)) :
    arg4.view.read (Elt F) (arg4.view.writes (Elt F) f (kernelRun0_C c i arg1 harg1 arg2 harg2 arg3 harg3 arg4 harg4 arg5 harg5 arg6 harg6 hc0 hc1 x0 x1 xs0 xs1).2.1) = k0_pay8 (k0_pay4 x1 xs1) (k0_pay5 x1 x0 xs0) := by
  rw [View.read_writes_eq_canon _ _ _ (fun y => View.cover_of_tiledL _ S1x256.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

end

end Cert.KernelIdeal.Hand

end
-- ==== Proof.Fold.lean ====
/-
  WHAT THE TWO KERNELS ACCUMULATE, POINT BY POINT, AT ANY FLOAT INSTANCE.

  The first kernel walks the rows in 8 tiles of 1024.  It keeps two accumulators between tiles: the per-class sums of
  the rows seen so far (`[256, 2048]`) and the per-class counts (`[1, 256]`); both start from zero at the first tile, and
  after the last tile the centroids (sums over counts) and the centroids' squared norms are written out.
  The second kernel walks the same tiles with the centroids and their squared norms held fixed and keeps one
  accumulator, the sum of the rows' losses so far (`[1, 1]`), starting from zero; after the last tile it writes the
  accumulated sum times the reciprocal of the number of rows.
  The arithmetic of one tile is the body's own (its named values): here only the recursion over the tiles is stated,
  over any family of row tiles `Eb n` and label tiles `Lb n`.
-/
import proofs.«421815_j46883863003641_1_alg».proof.Proof.Gen.KernelIdeal.Skeleton

noncomputable section

namespace Cert.KernelIdeal.Fold

open Idealize.ShloMosaic Idealize.SL.Sem Cert.KernelIdeal.Gen

variable {F : FTy → Type} [FloatOps F]

/-- The first kernel's two accumulators after tile `n`: the class sums, then the class counts. -/
def acc0 (Eb : ℕ → Vec F S1024x2048 .f32) (Lb : ℕ → Vec F S1024x1 .i32) :
    ℕ → Vec F S256x2048 .f32 × Vec F S1x256 .f32
  | 0 => (k0_pay5 (Lb 0) (Eb 0) k0_pay1, k0_pay4 (Lb 0) k0_pay2)
  | n + 1 => (k0_pay5 (Lb (n + 1)) (Eb (n + 1)) (acc0 Eb Lb n).1, k0_pay4 (Lb (n + 1)) (acc0 Eb Lb n).2)

/-- The centroids the first kernel writes after the last tile. -/
def cen0 (Eb : ℕ → Vec F S1024x2048 .f32) (Lb : ℕ → Vec F S1024x1 .i32) : Vec F S256x2048 .bf16 :=
  k0_pay7 (acc0 Eb Lb 7).2 (acc0 Eb Lb 7).1

/-- The centroids' squared norms it writes after the last tile. -/
def csq0 (Eb : ℕ → Vec F S1024x2048 .f32) (Lb : ℕ → Vec F S1024x1 .i32) : Vec F S1x256 .f32 :=
  k0_pay8 (acc0 Eb Lb 7).2 (acc0 Eb Lb 7).1

/-- The second kernel's accumulator after tile `n`: the sum of the losses of the rows seen so far. -/
def acc1 (Eb : ℕ → Vec F S1024x2048 .f32) (Lb : ℕ → Vec F S1024x1 .i32) (cen : Vec F S256x2048 .bf16)
    (csq : Vec F S1x256 .f32) : ℕ → Vec F S1x1 .f32
  | 0 => k1_pay1 (k1_pay4 (Eb 0) (Lb 0) cen csq) (Scalar.ofBits .f32 0x00000000#32) k1_pay3
  | n + 1 => k1_pay1 (k1_pay4 (Eb (n + 1)) (Lb (n + 1)) cen csq) (Scalar.ofBits .f32 0x00000000#32)
      (acc1 Eb Lb cen csq n)

/-- What the second kernel writes after the last tile: the accumulated sum, scaled. -/
def out1 (Eb : ℕ → Vec F S1024x2048 .f32) (Lb : ℕ → Vec F S1024x1 .i32) (cen : Vec F S256x2048 .bf16)
    (csq : Vec F S1x256 .f32) : Vec F S1x1 .f32 :=
  k1_pay2 (acc1 Eb Lb cen csq 7)

end Cert.KernelIdeal.Fold

end
-- ==== Proof.Tiles.lean ====
/-
  THE ROW TILES OF A TABLE OF 8192 ROWS.

  Both kernels walk the rows in 8 tiles of 1024: tile `n` of a table `X : [8192, D]` is its rows
  `1024 · n … 1024 · n + 1023` (the tile number taken modulo 8, so that the function is total).  Stated for any
  element type: the embeddings' tiles are float tiles, the labels' integer ones.
-/
import Idealize.ShloMosaic.Lib.ValueIdx

namespace Cert.Tiles

open Idealize.ShloMosaic Idealize.ShloMosaic.ValueIdx

/-- Tile `n` of a table of 8192 rows and `D` columns. -/
def tile {α : Type} {D : Nat} (X : (⟨2, ![8192, D]⟩ : Shape).Idx → α) (n : ℕ) : (⟨2, ![1024, D]⟩ : Shape).Idx → α :=
  fun y => X (ix2 ⟨(n % 8) * 1024 + (y 0).val, by
      have h0 := idx2_lt0 y
      have h8 := Nat.mod_lt n (by decide : 0 < 8)
      omega⟩ ⟨(y 1).val, idx2_lt1 y⟩)

/-- Its element `(r, d)` is the table's element `(1024 · n + r, d)`. -/
theorem tile_apply {α : Type} {D : Nat} (X : (⟨2, ![8192, D]⟩ : Shape).Idx → α) (n : ℕ) (r : Fin 1024) (d : Fin D) :
    tile X n (ix2 r d) = X (ix2 ⟨(n % 8) * 1024 + r.val, by
      have h8 := Nat.mod_lt n (by decide : 0 < 8)
      omega⟩ d) := rfl

end Cert.Tiles
-- ==== Proof.R0Frame.lean ====
/-
  THE FIRST KERNEL'S REGION: its proof data and its body obligation, at any float instance.

  The proof data say, for the arrays as the region finds them: each input window's staging buffer holds its tile;
  before grid point `n + 1` the two scratch buffers hold the class sums and counts accumulated over tiles `0 … n`
  (the fold `acc0` over the tiles of the embeddings and of the labels); and what the last point stores into the two
  output windows are the centroids and squared norms computed from the accumulators after the last tile.  The body
  obligation is then the body's run in the point's control case, the values its stores leave read as the fold's next
  step.
-/
import proofs.«421815_j46883863003641_1_alg».proof.Proof.R0Pieces
import proofs.«421815_j46883863003641_1_alg».proof.Proof.Fold
import proofs.«421815_j46883863003641_1_alg».proof.Proof.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fold Cert.Tiles

section Region
variable (V : (c : Dev nD) → (b : Ref sig .tc) → Buf (Elt F) ((c : Thread nD τ).loc b))

/-- The embeddings and the labels (as a column) as the region finds them. -/
abbrev Earr0 (c : Dev nD) : Vec F S8192x2048 .f32 := V c main_arg0
abbrev Larr0 (c : Dev nD) : Vec F S8192x1 .i32 := V c main_v0

/-- The two input windows' block indices: tile `t`, column block 0. -/
theorem idx0_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Window 0's block at point `t` is tile `t` of the embeddings. -/
theorem iblk0_0_eq (c : Dev nD) (t : Fin cfg0.N) : iblk0 V c 0 t = tile (Earr0 V c) t.val := by
  obtain ⟨e0, e1, -, -⟩ := idx0_in t
  have hN : t.val < 8 := lt_of_lt_of_eq t.isLt (show cfg0.N = 8 from N_0)
  funext j
  show V c main_arg0 (((cfg0.win 0).blk t).view.emb j) = V c main_arg0 _
  refine congrArg (V c main_arg0) (funext fun a => Fin.ext ?_)
  match a with
  | ⟨0, _⟩ => show win0_0.index t (0 : Fin 2) * 1024 + 1 * (j 0).val = (t.val % 8) * 1024 + (j 0).val; rw [e0, Nat.mod_eq_of_lt hN]; omega
  | ⟨1, _⟩ => show win0_0.index t (1 : Fin 2) * 2048 + 1 * (j 1).val = (j 1).val; rw [e1]; omega

/-- Window 1's block at point `t` is tile `t` of the labels. -/
theorem iblk0_1_eq (c : Dev nD) (t : Fin cfg0.N) : iblk0 V c 1 t = tile (Larr0 V c) t.val := by
  obtain ⟨-, -, e0, e1⟩ := idx0_in t
  have hN : t.val < 8 := lt_of_lt_of_eq t.isLt (show cfg0.N = 8 from N_0)
  funext j
  show V c main_v0 (((cfg0.win 1).blk t).view.emb j) = V c main_v0 _
  refine congrArg (V c main_v0) (funext fun a => Fin.ext ?_)
  match a with
  | ⟨0, _⟩ => show win0_1.index t (0 : Fin 2) * 1024 + 1 * (j 0).val = (t.val % 8) * 1024 + (j 0).val; rw [e0, Nat.mod_eq_of_lt hN]; omega
  | ⟨1, _⟩ => show win0_1.index t (1 : Fin 2) * 1 + 1 * (j 1).val = (j 1).val; rw [e1]; omega

/-- The two accumulators after tile `n`. -/
abbrev sc0 (c : Dev nD) (n : ℕ) : Vec F S256x2048 .f32 × Vec F S1x256 .f32 :=
  acc0 (tile (Earr0 V c)) (tile (Larr0 V c)) n

/-- After a tile that is not the first: the tile's update of what the tile before left. -/
theorem sc0_pos (c : Dev nD) (n : ℕ) (hz : n ≠ 0) :
    sc0 V c n = (k0_pay5 (tile (Larr0 V c) n) (tile (Earr0 V c) n) (sc0 V c (n - 1)).1, k0_pay4 (tile (Larr0 V c) n) (sc0 V c (n - 1)).2) := by
  cases n with
  | zero => exact absurd rfl hz
  | succ n => rfl

/-- The region's invariant before point `n`: before the first point the resting one (the scratch buffers at anything);
    afterwards the two scratch buffers at the accumulators after the tile before, the other kernel's buffers at
    anything, the generator register at some state. -/
def PhiS0 (c : Dev nD) : ℕ → sProp 𝕄
  | 0 => Pipeline.ΦA spec0 c
  | n + 1 => iprop(iprop(owns (c : Thread nD τ) scM0_0 fullShare (sc0 V c n).1 ∗ owns (c : Thread nD τ) scM0_1 fullShare (sc0 V c n).2 ∗ others0 c) ∗ (∃ r, prngReg c r))

theorem PhiS0_zero (c : Dev nD) (n : ℕ) (hz : n = 0) : PhiS0 V c n = Pipeline.ΦA spec0 c := by subst hz; rfl
theorem PhiS0_succ (c : Dev nD) (n : ℕ) :
    PhiS0 V c (n + 1) = iprop(iprop(owns (c : Thread nD τ) scM0_0 fullShare (sc0 V c n).1 ∗ owns (c : Thread nD τ) scM0_1 fullShare (sc0 V c n).2 ∗ others0 c) ∗ (∃ r, prngReg c r)) := rfl
theorem PhiS0_pos (c : Dev nD) (n : ℕ) (hz : n ≠ 0) :
    PhiS0 V c n = iprop(iprop(owns (c : Thread nD τ) scM0_0 fullShare (sc0 V c (n - 1)).1 ∗ owns (c : Thread nD τ) scM0_1 fullShare (sc0 V c (n - 1)).2 ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => cen0 (tile (Earr0 V c)) (tile (Larr0 V c))
    | ⟨3, _⟩ => csq0 (tile (Earr0 V c)) (tile (Larr0 V c))
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = cen0 (tile (Earr0 V c)) (tile (Larr0 V c)) := by dsimp only [dat0]
theorem after0_3 (c : Dev nD) (t : Fin cfg0.N) : (dat0 V c).after 3 t = csq0 (tile (Earr0 V c)) (tile (Larr0 V c)) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: by the point's control case, that case's run; the invariant hands it the scratch buffers at
    what the point before left (at anything at the first point) and takes them back at this point's accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h0 : t.val = 0
  · -- the first point
    have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1),
      Dat.leavesExact_idle (dat0 V c) 3 t (idleAt0_3 t hc1) (noFlush0_3 t hc1)]
    rw [PhiS0_zero V c _ h0, PhiA0_eq]
    iintro ⟨⟨⟨HS0, HS1, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro
          exact (piece0_A_0 _ _ _ _ _ _ _ _ _ _ _ _ _ _ hc0 hc1 _ _ _).trans (by rw [iblk0_0_eq, iblk0_1_eq, h0]; rfl)
        isplitl [HS1]
        · unfold owns; iexists _; isplitr
          swap; · iexact HS1
          ipureintro
          exact (piece0_A_1 _ _ _ _ _ _ _ _ _ _ _ _ _ _ hc0 hc1 _ _ _).trans (by rw [iblk0_1_eq, h0]; rfl)
        iexact Hoth
      iexact Hg
    isplitl [Ho]; · iexact Ho
    isplitl [H0]; · iexact H0
    isplitl [H1]; · iexact H1
    isplitl [H2]; · iexists _; iexact H2
    iexists _; iexact H3
  · have hc0 : ¬cond0_0 (grid0.coords t) := fun h => h0 ((hcond0_0 t).mp h)
    rw [PhiS0_pos V c _ h0]
    by_cases h7 : t.val = 7
    · -- the last point
      have hc1 : cond0_1 (grid0.coords t) := (hcond0_1 t).mpr h7
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) (sc0 V c (t.val - 1)).1 (sc0 V c (t.val - 1)).2).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro
            exact (piece0_C_0 _ _ _ _ _ _ _ _ _ _ _ _ _ _ hc0 hc1 _ _ _ _ _).trans (by rw [sc0_pos V c _ h0, iblk0_0_eq, iblk0_1_eq])
          isplitl [HS1]
          · unfold owns; iexists _; isplitr
            swap; · iexact HS1
            ipureintro
            exact (piece0_C_1 _ _ _ _ _ _ _ _ _ _ _ _ _ _ hc0 hc1 _ _ _ _ _).trans (by rw [sc0_pos V c _ h0, iblk0_1_eq])
          iexact Hoth
        iexact Hg
      isplitl [Ho]; · iexact Ho
      isplitl [H0]; · iexact H0
      isplitl [H1]; · iexact H1
      isplitl [H2]
      · unfold owns; iexists _; isplitr
        swap; · iexact H2
        ipureintro
        exact (piece0_C_2 _ _ _ _ _ _ _ _ _ _ _ _ _ _ hc0 hc1 _ _ _ _ _).trans (by
          rw [iblk0_0_eq, iblk0_1_eq, h7]; rfl)
      unfold owns; iexists _; isplitr
      swap; · iexact H3
      ipureintro
      exact (piece0_C_3 _ _ _ _ _ _ _ _ _ _ _ _ _ _ hc0 hc1 _ _ _ _ _).trans (by
        rw [iblk0_0_eq, iblk0_1_eq, h7]; rfl)
    · -- a middle point
      have hc1 : ¬cond0_1 (grid0.coords t) := fun h => h7 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) (sc0 V c (t.val - 1)).1 (sc0 V c (t.val - 1)).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro
            exact (piece0_B_0 _ _ _ _ _ _ _ _ _ _ _ _ _ _ hc0 hc1 _ _ _ _ _).trans (by rw [sc0_pos V c _ h0, iblk0_0_eq, iblk0_1_eq])
          isplitl [HS1]
          · unfold owns; iexists _; isplitr
            swap; · iexact HS1
            ipureintro
            exact (piece0_B_1 _ _ _ _ _ _ _ _ _ _ _ _ _ _ hc0 hc1 _ _ _ _ _).trans (by rw [sc0_pos V c _ h0, iblk0_1_eq])
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the resting one back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 8 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region

end Cert.KernelIdeal.Hand

end
-- ==== Proof.R1Base.lean ====
/-
  THE SECOND KERNEL (distances to the centroids, the rows' losses, their sum): what its runs are stated over.

  The kernel is called at 8 grid points, one per tile of 1024 rows.  Its windows: the row tile (window 0) and the
  label tile (window 1), fetched at every point; the centroids (window 2) and their squared norms (window 3), whole
  arrays fetched once at the first point and resident afterwards; the result (window 4, one element), stored and
  written back at the last point only.  Between points it keeps one scratch buffer, the sum of the losses so far.
  Two conditions on the point decide its control: "this is the first point" (the accumulator is reset) and "this is
  the last point" (the scaled sum is stored).  Here: each window's block at a point read off the arrays as the region
  finds them, the two conditions in closed form over the grid, where the output window is idle, the memrefs the body
  is called with, and the region's resting invariant with the scratch buffer named.
-/
import proofs.«421815_j46883863003641_1_alg».proof.Proof.Gen.KernelIdeal.Launch
import proofs.«421815_j46883863003641_1_alg».proof.Proof.Gen.KernelIdeal.Skeleton
import proofs.«421815_j46883863003641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds the tile at every point, for any proof data over these arrays whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The centroids' staging buffer holds the whole table at every point: fetched at the first, the block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the squared norms. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions on the grid point -/

/-- "This is the first point": the body's first conditional, as its scalar chain computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the body's second conditional. -/
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the output is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The loss accumulator's scratch buffer. -/
abbrev scM1_0 : Memref sig .tc .vmem S1x1 .f32 := Memref.whole cc1_scratch0

/-! ## The resting invariant -/

/-- The core's scoped buffers that belong to the other kernel, each at some contents, beside the state `S` of this
    kernel's own scratch buffer: the former ride through this region untouched. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

/-- The region's resting invariant with the scratch buffer as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Cert.KernelIdeal.Hand

end
-- ==== Proof.R1RunA.lean ====
/-
  THE SECOND KERNEL'S BODY AT THE FIRST GRID POINT: the loss accumulator is reset to zero and then takes the first
  tile's losses; the output window is left as it was.
-/
import proofs.«421815_j46883863003641_1_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At the first point (the reset taken, the final store not): the four inputs at their contents, the idle output at
    contents handed back untouched, the scratch buffer at anything; it ends holding its stores' pieces. -/
noncomputable def kernelRun1_A (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1024x2048 .f32) (x1 : Vec F S1024x1 .i32) (x2 : Vec F S256x2048 .bf16) (x3 : Vec F S1x256 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, fun xi4 E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.R1RunB.lean ====
/-
  THE SECOND KERNEL'S BODY AT A MIDDLE GRID POINT: the loss accumulator takes the tile's losses on top of what the
  point before left; the output window is left as it was.
-/
import proofs.«421815_j46883863003641_1_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At a middle point (neither conditional taken): the scratch buffer at what the point before left. -/
noncomputable def kernelRun1_B (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1024x2048 .f32) (x1 : Vec F S1024x1 .i32) (x2 : Vec F S256x2048 .bf16) (x3 : Vec F S1x256 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, fun xi4 E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.R1RunC.lean ====
/-
  THE SECOND KERNEL'S BODY AT THE LAST GRID POINT: the loss accumulator takes the last tile's losses, then the
  accumulated sum times the word of 1/8192 is stored into the output window.
-/
import proofs.«421815_j46883863003641_1_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At the last point (the reset not taken, the final store taken): the scratch buffer at what the point before left,
    the output at anything; both end holding their stores' pieces. -/
noncomputable def kernelRun1_C (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1024x2048 .f32) (x1 : Vec F S1024x1 .i32) (x2 : Vec F S256x2048 .bf16) (x3 : Vec F S1x256 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, ?_, fun E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.R1Pieces.lean ====
/-
  WHAT THE SECOND KERNEL'S STORES LEAVE, AS VALUES.  The accumulator is stored whole at every point: the tile's losses
  added to what it held (to zero at the first point, where the reset comes first and is read back); at the last point
  the output is the accumulator just updated, scaled.
-/
import proofs.«421815_j46883863003641_1_alg».proof.Proof.R1RunA
import proofs.«421815_j46883863003641_1_alg».proof.Proof.R1RunB
import proofs.«421815_j46883863003641_1_alg».proof.Proof.R1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

section
variable (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole)

theorem piece1_B (hc0 : ¬cond1_0 i) (hc1 : ¬cond1_1 i) (x0 : Vec F S1024x2048 .f32) (x1 : Vec F S1024x1 .i32) (x2 : Vec F S256x2048 .bf16) (x3 : Vec F S1x256 .f32) (xs0 : Vec F S1x1 .f32) (f : arg6.view.ty.Contents (Elt F)) :
    arg6.view.read (Elt F) (arg6.view.writes (Elt F) f (kernelRun1_B c i arg1 harg1 arg2 harg2 arg3 harg3 arg4 harg4 arg5 harg5 arg6 harg6 hc0 hc1 x0 x1 x2 x3 xs0).1) = k1_pay1 (k1_pay4 x0 x1 x2 x3) (Scalar.ofBits .f32 0x00000000#32) xs0 := by
  rw [View.read_writes_eq_canon _ _ _ (fun y => View.cover_of_tiledL _ S1x1.size (by sl_kernel_rfl) y)]
  unfold kernelRun1_B; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_A (hc0 : cond1_0 i) (hc1 : ¬cond1_1 i) (x0 : Vec F S1024x2048 .f32) (x1 : Vec F S1024x1 .i32) (x2 : Vec F S256x2048 .bf16) (x3 : Vec F S1x256 .f32) (f : arg6.view.ty.Contents (Elt F)) :
    arg6.view.read (Elt F) (arg6.view.writes (Elt F) f (kernelRun1_A c i arg1 harg1 arg2 harg2 arg3 harg3 arg4 harg4 arg5 harg5 arg6 harg6 hc0 hc1 x0 x1 x2 x3).1) = k1_pay1 (k1_pay4 x0 x1 x2 x3) (Scalar.ofBits .f32 0x00000000#32) k1_pay3 := by
  rw [View.read_writes_eq_canon _ _ _ (fun y => View.cover_of_tiledL _ S1x1.size (by sl_kernel_rfl) y)]
  unfold kernelRun1_A; dsimp only; sl_unfold_words
  rw [View.canon_cons_unit_zero (S := S1x1) hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_C_s (hc0 : ¬cond1_0 i) (hc1 : cond1_1 i) (x0 : Vec F S1024x2048 .f32) (x1 : Vec F S1024x1 .i32) (x2 : Vec F S256x2048 .bf16) (x3 : Vec F S1x256 .f32) (xs0 : Vec F S1x1 .f32) (f : arg6.view.ty.Contents (Elt F)) :
    arg6.view.read (Elt F) (arg6.view.writes (Elt F) f (kernelRun1_C c i arg1 harg1 arg2 harg2 arg3 harg3 arg4 harg4 arg5 harg5 arg6 harg6 hc0 hc1 x0 x1 x2 x3 xs0).2.1) = k1_pay1 (k1_pay4 x0 x1 x2 x3) (Scalar.ofBits .f32 0x00000000#32) xs0 := by
  rw [View.read_writes_eq_canon _ _ _ (fun y => View.cover_of_tiledL _ S1x1.size (by sl_kernel_rfl) y)]
  unfold kernelRun1_C; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_C_4 (hc0 : ¬cond1_0 i) (hc1 : cond1_1 i) (x0 : Vec F S1024x2048 .f32) (x1 : Vec F S1024x1 .i32) (x2 : Vec F S256x2048 .bf16) (x3 : Vec F S1x256 .f32) (xs0 : Vec F S1x1 .f32) (f : arg5.view.ty.Contents (Elt F)) :
    arg5.view.read (Elt F) (arg5.view.writes (Elt F) f (kernelRun1_C c i arg1 harg1 arg2 harg2 arg3 harg3 arg4 harg4 arg5 harg5 arg6 harg6 hc0 hc1 x0 x1 x2 x3 xs0).1) = k1_pay2 (k1_pay1 (k1_pay4 x0 x1 x2 x3) (Scalar.ofBits .f32 0x00000000#32) xs0) := by
  rw [View.read_writes_eq_canon _ _ _ (fun y => View.cover_of_tiledL _ S1x1.size (by sl_kernel_rfl) y)]
  unfold kernelRun1_C; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

end

end Cert.KernelIdeal.Hand

end
-- ==== Proof.R1Frame.lean ====
/-
  THE SECOND KERNEL'S REGION: its proof data and its body obligation, at any float instance.

  The proof data say, for the arrays as the region finds them: the row and label windows' staging buffers hold their
  tiles, the centroid and squared-norm windows' the whole arrays; before grid point `n + 1` the scratch buffer holds
  the losses summed over tiles `0 … n` (the fold `acc1`); and what the last point stores into the output window is
  the sum after the last tile, scaled.  The body obligation is the body's run in the point's control case, the value
  its store leaves read as the fold's next step.
-/
import proofs.«421815_j46883863003641_1_alg».proof.Proof.R1Pieces
import proofs.«421815_j46883863003641_1_alg».proof.Proof.Fold
import proofs.«421815_j46883863003641_1_alg».proof.Proof.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fold Cert.Tiles

section Region
variable (V : (c : Dev nD) → (b : Ref sig .tc) → Buf (Elt F) ((c : Thread nD τ).loc b))

/-- The embeddings, the labels (as a column), the centroids and their squared norms as the region finds them. -/
abbrev Earr1 (c : Dev nD) : Vec F S8192x2048 .f32 := V c main_arg0
abbrev Larr1 (c : Dev nD) : Vec F S8192x1 .i32 := V c main_v0
abbrev Carr1 (c : Dev nD) : Vec F S256x2048 .bf16 := V c main_v1_0
abbrev Qarr1 (c : Dev nD) : Vec F S1x256 .f32 := V c main_v1_1

/-- The input windows' block indices: tile `t` for the rows and labels, block 0 for the resident arrays. -/
theorem idx1_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)

theorem iblk1_0_eq (c : Dev nD) (t : Fin cfg1.N) : iblk1 V c 0 t = tile (Earr1 V c) t.val := by
  obtain ⟨e0, e1, -⟩ := idx1_in t
  have hN : t.val < 8 := lt_of_lt_of_eq t.isLt (show cfg1.N = 8 from N_1)
  funext j
  show V c main_arg0 (((cfg1.win 0).blk t).view.emb j) = V c main_arg0 _
  refine congrArg (V c main_arg0) (funext fun a => Fin.ext ?_)
  match a with
  | ⟨0, _⟩ => show win1_0.index t (0 : Fin 2) * 1024 + 1 * (j 0).val = (t.val % 8) * 1024 + (j 0).val; rw [e0, Nat.mod_eq_of_lt hN]; omega
  | ⟨1, _⟩ => show win1_0.index t (1 : Fin 2) * 2048 + 1 * (j 1).val = (j 1).val; rw [e1]; omega

theorem iblk1_1_eq (c : Dev nD) (t : Fin cfg1.N) : iblk1 V c 1 t = tile (Larr1 V c) t.val := by
  obtain ⟨-, -, e0, e1, -⟩ := idx1_in t
  have hN : t.val < 8 := lt_of_lt_of_eq t.isLt (show cfg1.N = 8 from N_1)
  funext j
  show V c main_v0 (((cfg1.win 1).blk t).view.emb j) = V c main_v0 _
  refine congrArg (V c main_v0) (funext fun a => Fin.ext ?_)
  match a with
  | ⟨0, _⟩ => show win1_1.index t (0 : Fin 2) * 1024 + 1 * (j 0).val = (t.val % 8) * 1024 + (j 0).val; rw [e0, Nat.mod_eq_of_lt hN]; omega
  | ⟨1, _⟩ => show win1_1.index t (1 : Fin 2) * 1 + 1 * (j 1).val = (j 1).val; rw [e1]; omega

theorem iblk1_2_eq (c : Dev nD) (t : Fin cfg1.N) : iblk1 V c 2 t = Carr1 V c := by
  obtain ⟨-, -, -, -, e0, e1, -⟩ := idx1_in t
  funext j
  show V c main_v1_0 (((cfg1.win 2).blk t).view.emb j) = V c main_v1_0 j
  refine congrArg (V c main_v1_0) (funext fun a => Fin.ext ?_)
  match a with
  | ⟨0, _⟩ => show win1_2.index t (0 : Fin 2) * 256 + 1 * (j 0).val = (j 0).val; rw [e0]; omega
  | ⟨1, _⟩ => show win1_2.index t (1 : Fin 2) * 2048 + 1 * (j 1).val = (j 1).val; rw [e1]; omega

theorem iblk1_3_eq (c : Dev nD) (t : Fin cfg1.N) : iblk1 V c 3 t = Qarr1 V c := by
  obtain ⟨-, -, -, -, -, -, e0, e1⟩ := idx1_in t
  funext j
  show V c main_v1_1 (((cfg1.win 3).blk t).view.emb j) = V c main_v1_1 j
  refine congrArg (V c main_v1_1) (funext fun a => Fin.ext ?_)
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- The loss accumulator after tile `n`. -/
abbrev sc1 (c : Dev nD) (n : ℕ) : Vec F S1x1 .f32 :=
  acc1 (tile (Earr1 V c)) (tile (Larr1 V c)) (Carr1 V c) (Qarr1 V c) n

theorem sc1_pos (c : Dev nD) (n : ℕ) (hz : n ≠ 0) :
    sc1 V c n = k1_pay1 (k1_pay4 (tile (Earr1 V c) n) (tile (Larr1 V c) n) (Carr1 V c) (Qarr1 V c)) (Scalar.ofBits .f32 0x00000000#32) (sc1 V c (n - 1)) := by
  cases n with
  | zero => exact absurd rfl hz
  | succ n => rfl

/-- The region's invariant before point `n`: before the first point the resting one; afterwards the scratch buffer at
    the accumulator after the tile before, the other kernel's buffers at anything, the generator register at some state. -/
def PhiS1 (c : Dev nD) : ℕ → sProp 𝕄
  | 0 => Pipeline.ΦA spec1 c
  | n + 1 => iprop(others1 c (owns (c : Thread nD τ) scM1_0 fullShare (sc1 V c n)) ∗ (∃ r, prngReg c r))

theorem PhiS1_zero (c : Dev nD) (n : ℕ) (hz : n = 0) : PhiS1 V c n = Pipeline.ΦA spec1 c := by subst hz; rfl
theorem PhiS1_succ (c : Dev nD) (n : ℕ) :
    PhiS1 V c (n + 1) = iprop(others1 c (owns (c : Thread nD τ) scM1_0 fullShare (sc1 V c n)) ∗ (∃ r, prngReg c r)) := rfl
theorem PhiS1_pos (c : Dev nD) (n : ℕ) (hz : n ≠ 0) :
    PhiS1 V c n = iprop(others1 c (owns (c : Thread nD τ) scM1_0 fullShare (sc1 V c (n - 1))) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (tile (Earr1 V c)) (tile (Larr1 V c)) (Carr1 V c) (Qarr1 V c)
  Φ t := PhiS1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (tile (Earr1 V c)) (tile (Larr1 V c)) (Carr1 V c) (Qarr1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by the point's control case, that case's run; the invariant hands it the scratch buffer at
    what the point before left (at anything at the first point) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 8 := lt_of_lt_of_eq t.isLt (show cfg1.N = 8 from N_1)
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [PhiS1_zero V c _ h0, PhiA1_eq]
    unfold others1
    iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ hc0 hc1 (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [A1 A2 A3 A4 A5 A6 A7 A8 HS0 Hg]
    · isplitl [A1 A2 A3 A4 A5 A6 A7 A8 HS0]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro
        exact (piece1_A _ _ _ _ _ _ _ _ _ _ _ _ _ _ hc0 hc1 _ _ _ _ _).trans (by rw [iblk1_0_eq, iblk1_1_eq, iblk1_2_eq, iblk1_3_eq, h0]; rfl)
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    rw [PhiS1_pos V c _ h0]
    unfold others1
    by_cases h7 : t.val = 7
    · -- the last point
      have hc1 : cond1_1 (grid1.coords t) := (hcond1_1 t).mpr h7
      rw [show (dat1 V c).leavesExact 4 t = owns (c : Thread nD τ) (ms1_4 t) fullShare ((dat1 V c).after 4 t) from by
        unfold Dat.leavesExact; rw [liveAt1_4 t hc1], after1_4]
      iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) (sc1 V c (t.val - 1))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro
          exact (piece1_C_s _ _ _ _ _ _ _ _ _ _ _ _ _ _ hc0 hc1 _ _ _ _ _ _).trans (by rw [sc1_pos V c _ h0, iblk1_0_eq, iblk1_1_eq, iblk1_2_eq, iblk1_3_eq])
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (piece1_C_4 _ _ _ _ _ _ _ _ _ _ _ _ _ _ hc0 hc1 _ _ _ _ _ _).trans (by
        rw [iblk1_0_eq, iblk1_1_eq, iblk1_2_eq, iblk1_3_eq, h7]; rfl)
    · -- a middle point
      have hc1 : ¬cond1_1 (grid1.coords t) := fun h => h7 ((hcond1_1 t).mp h)
      rw [Dat.leavesExact_idle (dat1 V c) 4 t (idleAt1_4 t hc1) (noFlush1_4 t hc1)]
      iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) (sc1 V c (t.val - 1))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro
          exact (piece1_B _ _ _ _ _ _ _ _ _ _ _ _ _ _ hc0 hc1 _ _ _ _ _ _).trans (by rw [sc1_pos V c _ h0, iblk1_0_eq, iblk1_1_eq, iblk1_2_eq, iblk1_3_eq])
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After the last point the invariant gives the resting one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 8 := N_1; omega), PhiA1_eq]
  unfold others1
  iintro ⟨⟨A1, A2, A3, A4, A5, A6, A7, A8, HS0⟩, Hg⟩
  isplitl [A1 A2 A3 A4 A5 A6 A7 A8 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS0
  iexact Hg

end Region

end Cert.KernelIdeal.Hand

end
-- ==== Proof.Assembly.lean ====
/-
  THE WHOLE PROGRAM'S RUN, at any float instance: @main is a reshape of the labels into a column, the first kernel's
  region, the second kernel's region, and a reshape of the one-element result into a scalar.

  The buffer contents at each boundary are a fold from the launch memory: after the first reshape; after region 0
  (its two output arrays at what its write-backs leave, every other buffer as entered); after region 1 likewise; after
  the last reshape.  Each region is entered from "every unscoped buffer at the boundary's contents, the generator
  register at some state, nothing owed" and left at the same with the next boundary's contents.  The run's post reads
  every unscoped buffer at the last boundary's contents; the later modules read the result and the arguments off it.
-/
import proofs.«421815_j46883863003641_1_alg».proof.Proof.R0Frame
import proofs.«421815_j46883863003641_1_alg».proof.Proof.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the labels' reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the result's reshape: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`.  Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    show _ ⊢ (dat0 (V1 m) c).Φ 0
    iintro ⟨Hp, -, Hr⟩
    iapply h
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`.  Its arrays
    are split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    show _ ⊢ (dat1 (V2 m) c).Φ 0
    iintro ⟨Hp, -, Hr⟩
    iapply h
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.R0Final.lean ====
/-
  WHAT THE FIRST KERNEL'S REGION LEAVES IN ITS TWO OUTPUT ARRAYS.  Each output window is written back once, at the
  last point, and its one block is the whole array: so after the region the centroids' array holds the centroids
  computed from the accumulators after the last tile, and the squared norms' array their squared norms.
-/
import proofs.«421815_j46883863003641_1_alg».proof.Proof.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fold Cert.Tiles

section Region
variable (V : (c : Dev nD) → (b : Ref sig .tc) → Buf (Elt F) ((c : Thread nD τ).loc b))

/-- The output windows' block index is 0 on both axes at every point. -/
theorem idx0_out : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_2.index t (0 : Fin 2) = 0 ∧ win0_2.index t (1 : Fin 2) = 0
    ∧ win0_3.index t (0 : Fin 2) = 0 ∧ win0_3.index t (1 : Fin 2) = 0)

/-- An index of the array is in point `t`'s block of window 2 iff each coordinate is in the block's range. -/
theorem mem_blk0_2 (t : Fin cfg0.N) (i : S256x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

/-- The last point's block of window 2 is the whole array. -/
theorem cover0_2 (i : S256x2048.Idx) : ∃ t : Fin cfg0.N, (cfg0.win 2).flush t = true ∧ i ∈ ((cfg0.win 2).blk t).view.set := by
  have h7 : (7 : ℕ) < cfg0.N := by rw [show cfg0.N = 8 from N_0]; decide
  refine ⟨⟨7, h7⟩, (flush0_2 _).mpr rfl, ?_⟩
  rw [mem_blk0_2]
  obtain ⟨e0, e1, -, -⟩ := idx0_out ⟨7, h7⟩
  have hi0 : (i 0).val < 256 := (i 0).isLt
  have hi1 : (i 1).val < 2048 := (i 1).isLt
  intro a
  match a with
  | ⟨0, _⟩ => show win0_2.index ⟨7, h7⟩ (0 : Fin 2) * 256 ≤ (i 0).val ∧ (i 0).val < win0_2.index ⟨7, h7⟩ (0 : Fin 2) * 256 + 256; rw [e0]; omega
  | ⟨1, _⟩ => show win0_2.index ⟨7, h7⟩ (1 : Fin 2) * 2048 ≤ (i 1).val ∧ (i 1).val < win0_2.index ⟨7, h7⟩ (1 : Fin 2) * 2048 + 2048; rw [e1]; omega

/-- After the region the array of window 2 holds what the last point stored. -/
theorem final0_2 (c : Dev nD) : (dat0 V c).arrAt 2 cfg0.N = cen0 (tile (Earr0 V c)) (tile (Larr0 V c)) := by
  refine (dat0 V c).arrAt_eq_of_cover 2 _ (fun t _ => ?_) (fun i => cover0_2 i)
  obtain ⟨e0, e1, -, -⟩ := idx0_out t
  show (cfg0.win 2).cut (grid0.coords t) ((dat0 V c).after 2 t) = _
  rw [after0_2]
  funext j
  show (cen0 (tile (Earr0 V c)) (tile (Larr0 V c))) j = (cen0 (tile (Earr0 V c)) (tile (Larr0 V c))) (((cfg0.win 2).blk t).view.emb j)
  refine congrArg _ (funext fun a => Fin.ext ?_)
  match a with
  | ⟨0, _⟩ => show (j 0).val = win0_2.index t (0 : Fin 2) * 256 + 1 * (j 0).val; rw [e0]; omega
  | ⟨1, _⟩ => show (j 1).val = win0_2.index t (1 : Fin 2) * 2048 + 1 * (j 1).val; rw [e1]; omega

/-- An index of the array is in point `t`'s block of window 3 iff each coordinate is in the block's range. -/
theorem mem_blk0_3 (t : Fin cfg0.N) (i : S1x256.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v1_1).slice (win0_3.rect t)).set ↔ _
  rw [View.set_slice_whole, Rect.mem_set_unit]
  exact Iff.rfl

/-- The last point's block of window 3 is the whole array. -/
theorem cover0_3 (i : S1x256.Idx) : ∃ t : Fin cfg0.N, (cfg0.win 3).flush t = true ∧ i ∈ ((cfg0.win 3).blk t).view.set := by
  have h7 : (7 : ℕ) < cfg0.N := by rw [show cfg0.N = 8 from N_0]; decide
  refine ⟨⟨7, h7⟩, (flush0_3 _).mpr rfl, ?_⟩
  rw [mem_blk0_3]
  obtain ⟨-, -, e0, e1⟩ := idx0_out ⟨7, h7⟩
  have hi0 : (i 0).val < 1 := (i 0).isLt
  have hi1 : (i 1).val < 256 := (i 1).isLt
  intro a
  match a with
  | ⟨0, _⟩ => show win0_3.index ⟨7, h7⟩ (0 : Fin 2) * 1 ≤ (i 0).val ∧ (i 0).val < win0_3.index ⟨7, h7⟩ (0 : Fin 2) * 1 + 1; rw [e0]; omega
  | ⟨1, _⟩ => show win0_3.index ⟨7, h7⟩ (1 : Fin 2) * 256 ≤ (i 1).val ∧ (i 1).val < win0_3.index ⟨7, h7⟩ (1 : Fin 2) * 256 + 256; rw [e1]; omega

/-- After the region the array of window 3 holds what the last point stored. -/
theorem final0_3 (c : Dev nD) : (dat0 V c).arrAt 3 cfg0.N = csq0 (tile (Earr0 V c)) (tile (Larr0 V c)) := by
  refine (dat0 V c).arrAt_eq_of_cover 3 _ (fun t _ => ?_) (fun i => cover0_3 i)
  obtain ⟨-, -, e0, e1⟩ := idx0_out t
  show (cfg0.win 3).cut (grid0.coords t) ((dat0 V c).after 3 t) = _
  rw [after0_3]
  funext j
  show (csq0 (tile (Earr0 V c)) (tile (Larr0 V c))) j = (csq0 (tile (Earr0 V c)) (tile (Larr0 V c))) (((cfg0.win 3).blk t).view.emb j)
  refine congrArg _ (funext fun a => Fin.ext ?_)
  match a with
  | ⟨0, _⟩ => show (j 0).val = win0_3.index t (0 : Fin 2) * 1 + 1 * (j 0).val; rw [e0]; omega
  | ⟨1, _⟩ => show (j 1).val = win0_3.index t (1 : Fin 2) * 256 + 1 * (j 1).val; rw [e1]; omega

end Region

end Cert.KernelIdeal.Hand

end
-- ==== Proof.R1Final.lean ====
/-
  WHAT THE SECOND KERNEL'S REGION LEAVES IN ITS OUTPUT ARRAY.  The one-element output window is written back once, at
  the last point: after the region the array holds the accumulated sum of the losses after the last tile, scaled.
-/
import proofs.«421815_j46883863003641_1_alg».proof.Proof.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fold Cert.Tiles

section Region
variable (V : (c : Dev nD) → (b : Ref sig .tc) → Buf (Elt F) ((c : Thread nD τ).loc b))

/-- The output window's block index is 0 on both axes at every point. -/
theorem idx1_out : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- An index of the array is in point `t`'s block of window 4 iff each coordinate is in the block's range. -/
theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v2).slice (win1_4.rect t)).set ↔ _
  rw [View.set_slice_whole, Rect.mem_set_unit]
  exact Iff.rfl

/-- The last point's block of window 4 is the whole array. -/
theorem cover1_4 (i : S1x1.Idx) : ∃ t : Fin cfg1.N, (cfg1.win 4).flush t = true ∧ i ∈ ((cfg1.win 4).blk t).view.set := by
  have h7 : (7 : ℕ) < cfg1.N := by rw [show cfg1.N = 8 from N_1]; decide
  refine ⟨⟨7, h7⟩, (flush1_4 _).mpr rfl, ?_⟩
  rw [mem_blk1_4]
  obtain ⟨e0, e1⟩ := idx1_out ⟨7, h7⟩
  have hi0 : (i 0).val < 1 := (i 0).isLt
  have hi1 : (i 1).val < 1 := (i 1).isLt
  intro a
  match a with
  | ⟨0, _⟩ => show win1_4.index ⟨7, h7⟩ (0 : Fin 2) * 1 ≤ (i 0).val ∧ (i 0).val < win1_4.index ⟨7, h7⟩ (0 : Fin 2) * 1 + 1; rw [e0]; omega
  | ⟨1, _⟩ => show win1_4.index ⟨7, h7⟩ (1 : Fin 2) * 1 ≤ (i 1).val ∧ (i 1).val < win1_4.index ⟨7, h7⟩ (1 : Fin 2) * 1 + 1; rw [e1]; omega

/-- After the region the array of window 4 holds what the last point stored. -/
theorem final1_4 (c : Dev nD) : (dat1 V c).arrAt 4 cfg1.N = out1 (tile (Earr1 V c)) (tile (Larr1 V c)) (Carr1 V c) (Qarr1 V c) := by
  refine (dat1 V c).arrAt_eq_of_cover 4 _ (fun t _ => ?_) (fun i => cover1_4 i)
  obtain ⟨e0, e1⟩ := idx1_out t
  show (cfg1.win 4).cut (grid1.coords t) ((dat1 V c).after 4 t) = _
  rw [after1_4]
  funext j
  show (out1 (tile (Earr1 V c)) (tile (Larr1 V c)) (Carr1 V c) (Qarr1 V c)) j = (out1 (tile (Earr1 V c)) (tile (Larr1 V c)) (Carr1 V c) (Qarr1 V c)) (((cfg1.win 4).blk t).view.emb j)
  refine congrArg _ (funext fun a => Fin.ext ?_)
  match a with
  | ⟨0, _⟩ => show (j 0).val = win1_4.index t (0 : Fin 2) * 1 + 1 * (j 0).val; rw [e0]; omega
  | ⟨1, _⟩ => show (j 1).val = win1_4.index t (1 : Fin 2) * 1 + 1 * (j 1).val; rw [e1]; omega

end Region

end Cert.KernelIdeal.Hand

end
-- ==== Proof.Result.lean ====
/-
  THE PROGRAM'S RESULT AND ITS ARGUMENTS, READ OFF THE LAST BOUNDARY, at any float instance.

  Walking the boundaries' fold: the first reshape makes the labels a column and touches nothing else; region 0 leaves
  the embeddings and the column as entered and its two outputs at the centroids and squared norms of the fold over the
  tiles; region 1 leaves its four inputs as entered and its output at the scaled sum of the losses; the last reshape
  makes that one element the scalar result.  No segment writes an argument.
-/
import proofs.«421815_j46883863003641_1_alg».proof.Proof.Assembly
import proofs.«421815_j46883863003641_1_alg».proof.Proof.R0Final
import proofs.«421815_j46883863003641_1_alg».proof.Proof.R1Final

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fold Cert.Tiles

variable (m : (ℓ : Loc nD τ sig) → Buf (Elt F) ℓ) (ρ : Dev nD → PrngReg)

/-- The embeddings at launch, and the labels at launch as a column. -/
abbrev Ein (c : Dev nD) : Vec F S8192x2048 .f32 := m ((c : Thread nD τ).loc main_arg0)
abbrev Lcol (c : Dev nD) : Vec F S8192x1 .i32 := shapeCast S8192x1 (m ((c : Thread nD τ).loc main_arg1)) shapeCasts_S8192_S8192x1

/-- The whole program's result as a function of its two arguments: the fold of the second kernel over the tiles, on
    the centroids and squared norms the fold of the first kernel leaves, as a scalar. -/
def resultF (E : Vec F S8192x2048 .f32) (lab : IVec S8192 32) : Vec F S_ .f32 :=
  shapeCast S_ (out1 (tile E) (tile (shapeCast S8192x1 lab shapeCasts_S8192_S8192x1))
    (cen0 (tile E) (tile (shapeCast S8192x1 lab shapeCasts_S8192_S8192x1)))
    (csq0 (tile E) (tile (shapeCast S8192x1 lab shapeCasts_S8192_S8192x1)))) shapeCasts_S1x1_S_

/-! ## After the first reshape -/

theorem V1_arg0 (c : Dev nD) : V1 m c main_arg0 = Ein m c := by
  show StableHlo.after hostOps0 (W0 m c) (Proc.devRef .tc main_arg0) = _
  after_results
theorem V1_arg1 (c : Dev nD) : V1 m c main_arg1 = m ((c : Thread nD τ).loc main_arg1) := by
  show StableHlo.after hostOps0 (W0 m c) (Proc.devRef .tc main_arg1) = _
  after_results
theorem V1_v0 (c : Dev nD) : V1 m c main_v0 = Lcol m c := by
  show StableHlo.after hostOps0 (W0 m c) (Proc.devRef .tc main_v0) = _
  after_results; rfl

/-! ## After region 0 -/

theorem V2_arg0 (c : Dev nD) : V2 m c main_arg0 = Ein m c :=
  (W2_arr m c 0).trans (((dat0 (V1 m) c).arrAt_in 0 rfl _).trans ((A_eq0 (V1 m) c 0).trans (V1_arg0 m c)))
theorem V2_v0 (c : Dev nD) : V2 m c main_v0 = Lcol m c :=
  (W2_arr m c 1).trans (((dat0 (V1 m) c).arrAt_in 1 rfl _).trans ((A_eq0 (V1 m) c 1).trans (V1_v0 m c)))
theorem V2_v1_0 (c : Dev nD) : V2 m c main_v1_0 = cen0 (tile (Ein m c)) (tile (Lcol m c)) :=
  (W2_arr m c 2).trans ((final0_2 (V1 m) c).trans (by
    show cen0 (tile (V1 m c main_arg0)) (tile (V1 m c main_v0)) = _
    rw [V1_arg0, V1_v0]))
theorem V2_v1_1 (c : Dev nD) : V2 m c main_v1_1 = csq0 (tile (Ein m c)) (tile (Lcol m c)) :=
  (W2_arr m c 3).trans ((final0_3 (V1 m) c).trans (by
    show csq0 (tile (V1 m c main_arg0)) (tile (V1 m c main_v0)) = _
    rw [V1_arg0, V1_v0]))
theorem V2_arg1 (c : Dev nD) : V2 m c main_arg1 = m ((c : Thread nD τ).loc main_arg1) :=
  (W2_of_ne m c main_arg1 (by decide)).trans (V1_arg1 m c)

/-! ## After region 1 -/

theorem V3_v2 (c : Dev nD) : V3 m c main_v2
    = out1 (tile (Ein m c)) (tile (Lcol m c)) (cen0 (tile (Ein m c)) (tile (Lcol m c))) (csq0 (tile (Ein m c)) (tile (Lcol m c))) :=
  (W3_arr m c 4).trans ((final1_4 (V2 m) c).trans (by
    show out1 (tile (V2 m c main_arg0)) (tile (V2 m c main_v0)) (V2 m c main_v1_0) (V2 m c main_v1_1) = _
    rw [V2_arg0, V2_v0, V2_v1_0, V2_v1_1]))
theorem V3_arg0 (c : Dev nD) : V3 m c main_arg0 = Ein m c :=
  (W3_arr m c 0).trans (((dat1 (V2 m) c).arrAt_in 0 rfl _).trans ((A_eq1 (V2 m) c 0).trans (V2_arg0 m c)))
theorem V3_arg1 (c : Dev nD) : V3 m c main_arg1 = m ((c : Thread nD τ).loc main_arg1) :=
  (W3_of_ne m c main_arg1 (by decide)).trans (V2_arg1 m c)

/-! ## After the last reshape -/

theorem W4_v3 (c : Dev nD) : W4 m c (Proc.devRef .tc main_v3)
    = resultF (m ((c : Thread nD τ).loc main_arg0)) (m ((c : Thread nD τ).loc main_arg1)) := by
  show StableHlo.after hostOps2 (W3 m c) (Proc.devRef .tc main_v3) = _
  after_results
  rw [show W3 m c (Proc.devRef .tc main_v2) = _ from V3_v2 m c]
  rfl
theorem W4_arg0 (c : Dev nD) : W4 m c (Proc.devRef .tc main_arg0) = m ((c : Thread nD τ).loc main_arg0) := by
  show StableHlo.after hostOps2 (W3 m c) (Proc.devRef .tc main_arg0) = _
  after_results
  exact V3_arg0 m c
theorem W4_arg1 (c : Dev nD) : W4 m c (Proc.devRef .tc main_arg1) = m ((c : Thread nD τ).loc main_arg1) := by
  show StableHlo.after hostOps2 (W3 m c) (Proc.devRef .tc main_arg1) = _
  after_results
  exact V3_arg1 m c

/-! ## The run, read -/

/-- THE RUN, READ: every weakly fair execution terminates, the result buffer holds `resultF` of the launch arguments,
    and the arguments are unchanged. -/
theorem run_value : θ_run defs (onTc (τ := τ) (main (F := F))) ⟨m, fun _ => 0, ρ⟩ (fun r => ∀ c : Dev nD,
      r.2.mem ((c.tc : Thread nD τ).loc main_v3) = resultF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v3 (by decide))).trans (W4_v3 m c),
     (h c _ (mem_uc main_arg0 (by decide))).trans (W4_arg0 m c),
     (h c _ (mem_uc main_arg1 (by decide))).trans (W4_arg1 m c)⟩) (run_all m ρ)

end Cert.KernelIdeal.Hand

end
-- ==== Proof.Spec.lean ====
/-
  THE CENTROID TRIPLET LOSS, AS ONE FUNCTION OF THE INPUTS.

  Inputs: a table of embeddings `E : [8192, 2048]` of extended reals and a label word per row.  For a class `c` of
  the 256 classes, `oh n c` is the indicator "row `n` carries label `c`" (the label word read as a signed integer).
  The class count is the sum of the indicators, the class sum the indicator-weighted sum of the rows, the centroid
  their quotient (the extended reals' total quotient).  The squared distance of row `n` to centroid `c` is taken by
  the expansion `|e|² + |c|² − 2 e·c`, cut off below at zero, and its square root is the distance.  The positive
  term of row `n` is the indicator-weighted sum of its distances over the classes (for a label inside the class range:
  the distance to the row's own centroid), the negative term the least distance over the classes with the own class
  replaced by `+∞`.  The row's loss is `max (pos − neg + margin) 0`, and `total` is the sum of the losses over the rows;
  the mean is `total` divided by the number of rows.
  The float literals stay the words the programs print (`2.0`, the margin, `+∞`): both programs carry the same words,
  so none is ever evaluated here.
-/
import Idealize.ShloMosaic.PureOps.Ideal
import Idealize.ShloMosaic.Lib.ValueIdx
import Mathlib.Data.EReal.Basic
import Mathlib.Algebra.BigOperators.Group.Finset.Basic

noncomputable section

open scoped BigOperators

namespace Cert.Triplet

open Idealize.ShloMosaic Idealize.ShloMosaic.ValueIdx

/-- The embeddings' shape. -/
abbrev SE : Shape := ⟨2, ![8192, 2048]⟩

variable (E : SE.Idx → EReal) (lab : Fin 8192 → BitVec 32)

/-- The word `2.0`. -/
abbrev two : EReal := Ideal.ofBits .f32 0x40000000#32
/-- The margin's word (the float nearest `0.3`). -/
abbrev margin : EReal := Ideal.ofBits .f32 0x3E99999A#32
/-- The word of `+∞`. -/
abbrev pinf : EReal := Ideal.ofBits .f32 0x7F800000#32

/-- Row `n` carries label `c`. -/
def oh (n : Fin 8192) (c : Fin 256) : EReal := if (lab n).toInt = (c.val : Int) then 1 else 0

/-- How many rows carry label `c`. -/
def cnt (c : Fin 256) : EReal := ∑ n : Fin 8192, oh lab n c

/-- The sum of the rows that carry label `c`, at column `d`. -/
def sums (c : Fin 256) (d : Fin 2048) : EReal := ∑ n : Fin 8192, oh lab n c * E (ix2 n d)

/-- The centroid of class `c`, at column `d`. -/
def cen (c : Fin 256) (d : Fin 2048) : EReal := Ideal.div (sums E lab c d) (cnt lab c)

/-- The squared norm of centroid `c`. -/
def csq (c : Fin 256) : EReal := ∑ d : Fin 2048, cen E lab c d * cen E lab c d

/-- The squared norm of row `n`. -/
def esq (n : Fin 8192) : EReal := ∑ d : Fin 2048, E (ix2 n d) * E (ix2 n d)

/-- The inner product of row `n` and centroid `c`. -/
def dot (n : Fin 8192) (c : Fin 256) : EReal := ∑ d : Fin 2048, E (ix2 n d) * cen E lab c d

/-- The distance of row `n` to centroid `c`. -/
def dist (n : Fin 8192) (c : Fin 256) : EReal :=
  Ideal.sqrt (max (esq E n + csq E lab c - two * dot E lab n c) 0)

/-- The positive term: the distances of row `n` weighted by its label's indicator. -/
def pos (n : Fin 8192) : EReal := ∑ c : Fin 256, dist E lab n c * oh lab n c

/-- The negative term: the least distance of row `n` to a centroid, its own class's replaced by `+∞`. -/
def neg (n : Fin 8192) : EReal :=
  (Finset.univ : Finset (Fin 256)).fold min pinf
    (fun c => if (lab n).toInt = (c.val : Int) then pinf else dist E lab n c)

/-- The loss of row `n`. -/
def loss (n : Fin 8192) : EReal := max (pos E lab n - neg E lab n + margin) 0

/-- The sum of the rows' losses. -/
def total : EReal := ∑ n : Fin 8192, loss E lab n

end Cert.Triplet

end
-- ==== Proof.LibPool.lean ====
/-
  General lemmas for a POOLING BY ONE-HOT PRODUCT, accumulated block by block, against a scatter-add.

  A kernel pools node rows into graph rows as a matrix product with a one-hot matrix: the entry at (graph g, node n)
  is 1 when the node's graph number equals g and 0 otherwise; the product is formed one block of nodes at a time and
  added to an accumulator that starts at zero. The reference sums, for each graph, the rows of the nodes whose graph
  number is that graph. The node axis is padded to a whole number of blocks and a padded node carries a graph number
  that is no graph's, so it adds nothing.

  All sums are over the extended reals: a commutative additive monoid in which 0 * x = 0 and 1 * x = x hold for
  EVERY x, the infinite ones included, so nothing below asks for finiteness.

  Contents, in order:
   * the one-hot entry: the signed reading of the widened one-bit equality test of two 32-bit words is 1 or 0
     (onehot_word, onehot_entry), and equality of a word with a small row number is the signed reading being that
     number (toInt_ofNat_small, id_eq_iff);
   * the padded indicator sum is the sum over the real nodes that hit (onehot_sum);
   * a double sum over blocks and positions in a block is the sum over the flat index (block_index_lt, blocks_sum,
     blocks_sum_of_eq);
   * an accumulator that starts at zero plus the first part and adds one part per step is the sum of the parts
     (acc_fold_le, acc_fold, acc_fold_fin);
   * blocks and indicator together (pool_sum).
-/
import Idealize.ShloMosaic.PureOps.Ideal
import Idealize.ShloMosaic.PureOps.Ideal.Laws
import Idealize.ShloMosaic.Lib.ValueIdx
import Mathlib.Data.EReal.Basic
import Mathlib.Algebra.BigOperators.Fin
import Mathlib.Algebra.BigOperators.Group.Finset.Basic
import Mathlib.Logic.Equiv.Fin.Basic

noncomputable section

open scoped BigOperators

namespace Cert.LibPool

open Idealize.ShloMosaic

/-! ## The one-hot entry -/

/-- The equality test of two 32-bit words, a single bit, widened by zeros to 32 bits and read as a signed integer, is
    the extended real 1 when the words are equal and 0 when they are not: the bit is 1 or 0, widening by zeros keeps
    its value, and both values are non-negative so the signed reading is the value. -/
theorem onehot_word (a b : BitVec 32) :
    ((((IntOp.cmpi .eq a b).setWidth 32).toInt : ℝ) : EReal) = if a = b then (1 : EReal) else 0 := by
  by_cases h : a = b
  · subst h
    simp [IntOp.cmpi]
  · have hb : (a == b) = false := by simpa using h
    simp [IntOp.cmpi, hb, h]

/-- The one-hot matrix at an index, read at the ideal values: the signed-integer-to-float conversion of the
    zero-widened elementwise equality test of two 32-bit vectors of any shape is, at each index, 1 when the two
    elements are equal and 0 when they are not. -/
theorem onehot_entry {s : Shape} (u v : IVec s 32) (h : 1 < 32) (i : s.Idx) :
    (sitofp (F := Ideal) .f32 (extui 32 (cmpi .eq u v) h) : FVec Ideal s .f32) i
      = if u i = v i then (1 : EReal) else 0 :=
  onehot_word (u i) (v i)

/-- A natural number below 2^31, taken as a 32-bit word, reads back as itself when the word is read signed: it is
    below 2^32, so nothing wraps, and its double is below 2^32, so the sign bit is clear. -/
theorem toInt_ofNat_small (k : Nat) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1]
  have h2 : 2 * k < 2 ^ 32 := by omega
  rw [if_pos h2]

/-- A 32-bit word equals the word of a row number g < 128 exactly when its signed reading is g: the signed reading
    is injective on words and the row number's word reads back as g. So a test of equality with the row number and a
    test that the signed graph number is g agree, whatever the word (a negative or too large graph number equals no
    row number on either side). -/
theorem id_eq_iff (g : Fin 128) (b : BitVec 32) :
    BitVec.ofNat 32 g.val = b ↔ b.toInt = (g.val : Int) := by
  have key : (BitVec.ofNat 32 g.val).toInt = (g.val : Int) :=
    toInt_ofNat_small g.val (by have := g.isLt; omega)
  constructor
  · rintro rfl; exact key
  · intro h; exact BitVec.eq_of_toInt_eq (by rw [key, h])

/-! ## The padded indicator sum -/

/-- Over a node axis of P positions of which the first M are real nodes: if the indicator is 1 at a real node that
    hits, and 0 at every position that is not a real node that hits (a padded position among them), then the sum
    over all positions of indicator times row is the sum of the rows of the real nodes that hit. Term by term the
    product is the row or zero (1 * x = x and 0 * x = 0 for every extended real x); both sides are then the sum over
    the naturals below P, resp. below M, of one function that vanishes from M on. -/
theorem onehot_sum {M P : Nat} (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    ∑ p : Fin P, ind p * h p
      = ∑ n ∈ (Finset.univ : Finset (Fin M)).filter hit, h ⟨n.val, lt_of_lt_of_le n.isLt hMP⟩ := by
  let G : ℕ → EReal := fun k =>
    if hk : k < M then (if hit ⟨k, hk⟩ then h ⟨k, lt_of_lt_of_le hk hMP⟩ else 0) else 0
  have hL : ∀ p : Fin P, ind p * h p = G p.val := by
    intro p
    by_cases hp : p.val < M
    · by_cases hh : hit ⟨p.val, hp⟩
      · simp [G, hp, hh, hind1 p hp hh]
      · have h0 : ind p = 0 := hind0 p (fun _ => hh)
        simp [G, hp, hh, h0]
    · have h0 : ind p = 0 := hind0 p (fun hp' => absurd hp' hp)
      simp [G, hp, h0]
  have hR : ∀ n : Fin M, (if hit n then h ⟨n.val, lt_of_lt_of_le n.isLt hMP⟩ else 0) = G n.val := by
    intro n
    simp [G, n.isLt]
  rw [Finset.sum_filter, Finset.sum_congr rfl (fun p _ => hL p), Finset.sum_congr rfl (fun n _ => hR n),
    Fin.sum_univ_eq_sum_range G P, Fin.sum_univ_eq_sum_range G M]
  symm
  apply Finset.sum_subset
  · intro k hk
    simp only [Finset.mem_range] at hk ⊢
    omega
  · intro k _ hk
    simp only [Finset.mem_range] at hk
    simp [G, hk]

/-! ## Blocks -/

/-- Position n of block t, of T blocks of B positions, is a flat index below T * B:
    t B + n < t B + B = (t + 1) B ≤ T B. -/
theorem block_index_lt {T B : Nat} (t : Fin T) (n : Fin B) : t.val * B + n.val < T * B := by
  have h1 : (t.val + 1) * B ≤ T * B := Nat.mul_le_mul_right B t.isLt
  have h2 : t.val * B + n.val < (t.val + 1) * B := by
    rw [Nat.add_mul, Nat.one_mul]; exact Nat.add_lt_add_left n.isLt _
  exact lt_of_lt_of_le h2 h1

/-- The sum over the blocks of the sums over the positions of a block is the sum over the flat index: the map
    (t, n) ↦ t B + n is a bijection from pairs onto the flat indices (division with remainder by B). -/
theorem blocks_sum (T B : Nat) (f : Fin (T * B) → EReal) :
    (∑ t : Fin T, ∑ n : Fin B, f ⟨t.val * B + n.val, block_index_lt t n⟩) = ∑ p : Fin (T * B), f p := by
  rw [← Fintype.sum_prod_type']
  refine Fintype.sum_equiv finProdFinEquiv _ _ ?_
  rintro ⟨t, n⟩
  congr 1
  apply Fin.ext
  simp [finProdFinEquiv, Nat.mul_comm, Nat.add_comm]

/-- The same with the flat length given as a number P known to be T * B (so that a function on the P flat indices
    needs no cast). -/
theorem blocks_sum_of_eq {T B P : Nat} (hP : T * B = P) (f : Fin P → EReal) :
    (∑ t : Fin T, ∑ n : Fin B, f ⟨t.val * B + n.val, hP ▸ block_index_lt t n⟩) = ∑ p : Fin P, f p := by
  subst hP
  exact blocks_sum T B f

/-! ## The accumulator -/

/-- An accumulator whose value after step 0 is zero plus part 0, and whose value after step t + 1 is its value after
    step t plus part t + 1 for every t < N, holds after step k ≤ N the sum of parts 0 … k. Induction on k. -/
theorem acc_fold_le (N : Nat) (part acc : ℕ → EReal) (h0 : acc 0 = 0 + part 0)
    (hs : ∀ t, t < N → acc (t + 1) = acc t + part (t + 1)) :
    ∀ k, k ≤ N → acc k = ∑ t ∈ Finset.range (k + 1), part t := by
  intro k
  induction k with
  | zero => intro _; simp [h0]
  | succ k ih =>
    intro hk
    rw [hs k (by omega), ih (by omega), Finset.sum_range_succ _ (k + 1)]

/-- With the step equation at every t, after step T' the accumulator is the sum of parts 0 … T'. -/
theorem acc_fold (T' : Nat) (part acc : ℕ → EReal) (h0 : acc 0 = 0 + part 0)
    (hs : ∀ t, acc (t + 1) = acc t + part (t + 1)) :
    acc T' = ∑ t ∈ Finset.range (T' + 1), part t :=
  acc_fold_le T' part acc h0 (fun t _ => hs t) T' le_rfl

/-- The same as a sum over the T' + 1 steps as a finite type, the step equation asked only below T'. -/
theorem acc_fold_fin (T' : Nat) (part acc : ℕ → EReal) (h0 : acc 0 = 0 + part 0)
    (hs : ∀ t, t < T' → acc (t + 1) = acc t + part (t + 1)) :
    acc T' = ∑ t : Fin (T' + 1), part t.val := by
  rw [Fin.sum_univ_eq_sum_range part (T' + 1)]
  exact acc_fold_le T' part acc h0 hs T' le_rfl

/-! ## The two together -/

/-- Blocks and indicator together: the sum over the blocks of the sums over a block's positions of indicator times
    row, on a node axis of P = T * B positions whose first M are the real nodes, is the sum of the rows of the real
    nodes that hit. -/
theorem pool_sum {T B M P : Nat} (hP : T * B = P) (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    (∑ t : Fin T, ∑ n : Fin B,
        ind ⟨t.val * B + n.val, hP ▸ block_index_lt t n⟩ * h ⟨t.val * B + n.val, hP ▸ block_index_lt t n⟩)
      = ∑ n ∈ (Finset.univ : Finset (Fin M)).filter hit, h ⟨n.val, lt_of_lt_of_le n.isLt hMP⟩ :=
  (blocks_sum_of_eq hP (fun p => ind p * h p)).trans (onehot_sum hMP hit ind h hind1 hind0)

end Cert.LibPool
-- ==== Proof.Val0.lean ====
/-
  THE FIRST KERNEL'S VALUE ON THE EXTENDED REALS: after its 8 tiles the class sums and counts are the whole table's,
  so the centroids it writes are the specification's centroids and the squared norms the specification's.

  In order: each of the body's values read at an index (the zero tables; the one-hot entry; a tile's column sums added
  to the counts; the transposed one-hot tile times the row tile added to the class sums; the quotient; the row sums of
  its squares); the two accumulators after tile n as sums over the tiles 0 … n; the 8 tiles of 1024 rows as the 8192
  rows; the two theorems.
-/
import proofs.«421815_j46883863003641_1_alg».proof.Proof.Spec
import proofs.«421815_j46883863003641_1_alg».proof.Proof.Fold
import proofs.«421815_j46883863003641_1_alg».proof.Proof.Tiles
import proofs.«421815_j46883863003641_1_alg».proof.Proof.LibPool
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.KernelIdeal.Val0

open Idealize.ShloMosaic Idealize.ShloMosaic.ValueIdx Cert.KernelIdeal Cert.KernelIdeal.Gen Cert.KernelIdeal.Fold Cert.Tiles

/-- The zero table of class sums reads 0 everywhere. -/
theorem zeroSums_apply (j : S256x2048.Idx) : (k0_pay1 (F := Ideal)) j = 0 := by
  unfold k0_pay1
  rw [shapeCast_self]
  exact Ideal.ofBits_zero_f32

/-- The zero table of class counts reads 0 everywhere. -/
theorem zeroCnt_apply (j : S1x256.Idx) : (k0_pay2 (F := Ideal)) j = 0 := by
  unfold k0_pay2
  rw [shapeCast_self]
  exact Ideal.ofBits_zero_f32

/-- A 32-bit word equals the word of a class number c < 256 exactly when its signed reading is c. -/
theorem word_eq_class_iff (w : BitVec 32) (c : Fin 256) :
    w = BitVec.ofNat 32 c.val ↔ w.toInt = (c.val : Int) := by
  have key : (BitVec.ofNat 32 c.val).toInt = (c.val : Int) :=
    Cert.LibPool.toInt_ofNat_small c.val (by have := c.isLt; omega)
  constructor
  · rintro rfl; exact key
  · intro h; exact BitVec.eq_of_toInt_eq (by rw [key, h])

/-- The label column broadcast along the classes reads the row's label. -/
theorem labelBroadcast_apply (Lb : IVec S1024x1 32) (r : Fin 1024) (c : Fin 256) :
    broadcastTo S1024x256 Lb broadcasts_S1024x1_S1024x256 (ix2 r c) = Lb (ix2 r (0 : Fin 1)) :=
  broadcastTo_apply Lb _ (ix2 r c) (ix2 r (0 : Fin 1)) fun ax => by
    match ax with
    | ⟨0, _⟩ => rfl
    | ⟨1, _⟩ => rfl

/-- The class iota reads the class number's word. -/
theorem classIota_apply (r : Fin 1024) (c : Fin 256) :
    iota .tc S1024x256 32 [1] iota_S1024x256_d1_w32 (ix2 r c) = BitVec.ofNat 32 c.val :=
  iota_single_apply .tc S1024x256 32 1 iota_S1024x256_d1_w32 (ix2 r c)

/-- The one-hot tile at row r, class c: 1 when the row's label word, read signed, is c, else 0. -/
theorem onehot_apply (Lb : Vec Ideal S1024x1 .i32) (r : Fin 1024) (c : Fin 256) :
    k0_pay3 (F := Ideal) Lb (ix2 r c) = if (Lb (ix2 r (0 : Fin 1))).toInt = (c.val : Int) then 1 else 0 := by
  unfold k0_pay3
  rw [shapeCast_self]
  refine (Cert.LibPool.onehot_entry _ _ _ _).trans ?_
  rw [labelBroadcast_apply, classIota_apply]
  exact if_congr (word_eq_class_iff _ c) rfl rfl

/-- The sum over the 1024 rows of a [1024, 256] tile, at class c. -/
theorem colSum_apply (X : FVec Ideal S1024x256 .f32) (c : Fin 256) :
    multiReduction (F := Ideal) .add [0] S256 X 0x00000000#32 reduces_S1024x256_S256 (.inl rfl) rfl (ix1 c)
      = ∑ r : Fin 1024, X (ix2 r c) := by
  refine (Ideal.multiReduction_add_single X _ reduces_S1024x256_S256 _ _ (ix1 c)).trans ?_
  refine Finset.sum_congr rfl fun r _ => congrArg X ?_
  funext a
  match a with
  | ⟨0, _⟩ => rfl
  | ⟨1, _⟩ => rfl

/-- The counts after a tile: the counts before plus the tile's column sums of the one-hot entries. -/
theorem cntStep_apply (Lb : Vec Ideal S1024x1 .i32) (cnt : Vec Ideal S1x256 .f32) (u : Fin 1) (c : Fin 256) :
    k0_pay4 (F := Ideal) Lb cnt (ix2 u c) = cnt (ix2 u c) + ∑ r : Fin 1024, k0_pay3 (F := Ideal) Lb (ix2 r c) := by
  unfold k0_pay4
  rw [shapeCast_self, addf_apply, shapeCast_a_1a_apply, colSum_apply]

/-! The product of the transposed one-hot tile with the row tile: both operands are contracted along their rows. -/

theorem lhs_rowsContracted_0 (i : S256x2048.Idx) (q : dot_S1024x256_S1024x2048_S256x2048_0_0_1_1_n_n.contr.Idx) :
    (dot_S1024x256_S1024x2048_S256x2048_0_0_1_1_n_n.lhsIdx i q 0).val = (q ⟨0, by decide⟩).val :=
  dot_S1024x256_S1024x2048_S256x2048_0_0_1_1_n_n.lhsIdx_val_of_single rfl i q
theorem lhs_rowsContracted_1 (i : S256x2048.Idx) (q : dot_S1024x256_S1024x2048_S256x2048_0_0_1_1_n_n.contr.Idx) :
    (dot_S1024x256_S1024x2048_S256x2048_0_0_1_1_n_n.lhsIdx i q 1).val = (i 0).val := by
  unfold DotDims.lhsIdx
  rw [dif_neg (show ¬(1 : Fin S1024x256.rank) ∈ dot_S1024x256_S1024x2048_S256x2048_0_0_1_1_n_n.lhsBatch by decide), dif_pos (show (1 : Fin S1024x256.rank) ∈ dot_S1024x256_S1024x2048_S256x2048_0_0_1_1_n_n.lhsNonContracting by decide)]
  rfl
theorem rhs_rowsContracted_0 (i : S256x2048.Idx) (q : dot_S1024x256_S1024x2048_S256x2048_0_0_1_1_n_n.contr.Idx) :
    (dot_S1024x256_S1024x2048_S256x2048_0_0_1_1_n_n.rhsIdx i q 0).val = (q ⟨0, by decide⟩).val :=
  dot_S1024x256_S1024x2048_S256x2048_0_0_1_1_n_n.rhsIdx_val_of_single rfl i q
theorem rhs_rowsContracted_1 (i : S256x2048.Idx) (q : dot_S1024x256_S1024x2048_S256x2048_0_0_1_1_n_n.contr.Idx) :
    (dot_S1024x256_S1024x2048_S256x2048_0_0_1_1_n_n.rhsIdx i q 1).val = (i 1).val := by
  unfold DotDims.rhsIdx
  rw [dif_neg (show ¬(1 : Fin S1024x2048.rank) ∈ dot_S1024x256_S1024x2048_S256x2048_0_0_1_1_n_n.rhsBatch by decide), dif_pos (show (1 : Fin S1024x2048.rank) ∈ dot_S1024x256_S1024x2048_S256x2048_0_0_1_1_n_n.rhsNonContracting by decide)]
  rfl

/-- Into a zero accumulator, the product at (c, d) is the sum over the tile's rows r of X (r, c) · Y (r, d). -/
theorem rowsContracted_apply (X : FVec Ideal S1024x256 .bf16) (Y : FVec Ideal S1024x2048 .bf16) (c : Fin 256) (d : Fin 2048) :
    matmul (F := Ideal) dot_S1024x256_S1024x2048_S256x2048_0_0_1_1_n_n none X Y (constant (F := Ideal) S256x2048 .f32 0x00000000#32) (ix2 c d)
      = ∑ r : Fin 1024, X (ix2 r c) * Y (ix2 r d) := by
  simp only [matmul]
  rw [Ideal.matmul_constant_zero_apply, ← Equiv.sum_comp (ValueIdx.contrEquiv1 dot_S1024x256_S1024x2048_S256x2048_0_0_1_1_n_n 1024 rfl rfl).symm]
  refine Finset.sum_congr rfl fun k _ => ?_
  have hk := ValueIdx.contrEquiv1_symm_val dot_S1024x256_S1024x2048_S256x2048_0_0_1_1_n_n 1024 rfl rfl k
  have el : dot_S1024x256_S1024x2048_S256x2048_0_0_1_1_n_n.lhsIdx (ix2 c d) ((ValueIdx.contrEquiv1 dot_S1024x256_S1024x2048_S256x2048_0_0_1_1_n_n 1024 rfl rfl).symm k) = ix2 k c := funext fun a => Fin.ext (by
    match a with
    | ⟨0, _⟩ => exact (lhs_rowsContracted_0 _ _).trans hk
    | ⟨1, _⟩ => exact lhs_rowsContracted_1 _ _)
  have er : dot_S1024x256_S1024x2048_S256x2048_0_0_1_1_n_n.rhsIdx (ix2 c d) ((ValueIdx.contrEquiv1 dot_S1024x256_S1024x2048_S256x2048_0_0_1_1_n_n 1024 rfl rfl).symm k) = ix2 k d := funext fun a => Fin.ext (by
    match a with
    | ⟨0, _⟩ => exact (rhs_rowsContracted_0 _ _).trans hk
    | ⟨1, _⟩ => exact rhs_rowsContracted_1 _ _)
  rw [el, er]

/-- The class sums after a tile: the sums before plus, at (c, d), the sum over the tile's rows of one-hot (r, c) times E (r, d). -/
theorem sumsStep_apply (Lb : Vec Ideal S1024x1 .i32) (Eb : Vec Ideal S1024x2048 .f32) (acc : Vec Ideal S256x2048 .f32)
    (c : Fin 256) (d : Fin 2048) :
    k0_pay5 (F := Ideal) Lb Eb acc (ix2 c d)
      = acc (ix2 c d) + ∑ r : Fin 1024, k0_pay3 (F := Ideal) Lb (ix2 r c) * Eb (ix2 r d) := by
  unfold k0_pay5
  rw [shapeCast_self, addf_apply, rowsContracted_apply]
  rfl

/-- The count column broadcast along the 2048 columns reads the class's count. -/
theorem cntBroadcast_apply (v : FVec Ideal S256x1 .f32) (c : Fin 256) (d : Fin 2048) :
    broadcastTo S256x2048 v broadcasts_S256x1_S256x2048 (ix2 c d) = v (ix2 c (0 : Fin 1)) :=
  broadcastTo_apply v _ (ix2 c d) (ix2 c (0 : Fin 1)) fun ax => by
    match ax with
    | ⟨0, _⟩ => rfl
    | ⟨1, _⟩ => rfl

/-- The centroid at (c, d): the class sum over the class count, as the extended reals' total quotient. -/
theorem quot_apply (cnt : Vec Ideal S1x256 .f32) (sums : Vec Ideal S256x2048 .f32) (c : Fin 256) (d : Fin 2048) :
    k0_pay6 (F := Ideal) cnt sums (ix2 c d) = Ideal.div (sums (ix2 c d)) (cnt (ix2 (0 : Fin 1) c)) := by
  unfold k0_pay6
  rw [divf_apply, cntBroadcast_apply, transpose_ix2_apply]

/-- The centroid written out (the narrowing is the identity on the extended reals). -/
theorem quotOut_apply (cnt : Vec Ideal S1x256 .f32) (sums : Vec Ideal S256x2048 .f32) (c : Fin 256) (d : Fin 2048) :
    k0_pay7 (F := Ideal) cnt sums (ix2 c d) = Ideal.div (sums (ix2 c d)) (cnt (ix2 (0 : Fin 1) c)) := by
  unfold k0_pay7
  rw [truncf_apply, quot_apply]

/-- The sum over the 2048 columns of a [256, 2048] table, at class c. -/
theorem rowSum_apply (X : FVec Ideal S256x2048 .f32) (c : Fin 256) :
    multiReduction (F := Ideal) .add [1] S256 X 0x00000000#32 reduces_S256x2048_S256 (.inl rfl) rfl (ix1 c)
      = ∑ d : Fin 2048, X (ix2 c d) := by
  refine (Ideal.multiReduction_add_single X _ reduces_S256x2048_S256 _ _ (ix1 c)).trans ?_
  refine Finset.sum_congr rfl fun d _ => congrArg X ?_
  funext a
  match a with
  | ⟨0, _⟩ => rfl
  | ⟨1, _⟩ => rfl

/-- A [256] vector cast to a [256, 1] column reads, at (c, u), the vector at c. -/
theorem colCast_apply (v : FVec Ideal S256 .f32) (c : Fin 256) (u : Fin 1) :
    shapeCast S256x1 v shapeCasts_S256_S256x1 (ix2 c u) = v (ix1 c) :=
  shapeCast_apply v _ _ _ (by
    have hu : u.val = 0 := by omega
    rw [Shape.rowMajor_val_two, Shape.rowMajor_val_one]
    show c.val = c.val * 1 + u.val
    rw [hu, Nat.mul_one, Nat.add_zero])

/-- The squared norms written out: at class c the sum over the columns of the centroid's squares. -/
theorem sqnorm_apply (cnt : Vec Ideal S1x256 .f32) (sums : Vec Ideal S256x2048 .f32) (u : Fin 1) (c : Fin 256) :
    k0_pay8 (F := Ideal) cnt sums (ix2 u c)
      = ∑ d : Fin 2048, k0_pay6 (F := Ideal) cnt sums (ix2 c d) * k0_pay6 (F := Ideal) cnt sums (ix2 c d) := by
  unfold k0_pay8
  rw [transpose_ix2_apply, colCast_apply, rowSum_apply]
  rfl

/-! ## The accumulators after tile n are the partial sums over the tiles 0 … n -/

/-- The class sums after tile n, at (c, d): the sum over the tiles t ≤ n of the sum over the tile's rows of
    one-hot (r, c) times E (r, d). -/
theorem accSums_apply (Eb : ℕ → Vec Ideal S1024x2048 .f32) (Lb : ℕ → Vec Ideal S1024x1 .i32) (c : Fin 256) (d : Fin 2048)
    (n : ℕ) :
    (acc0 (F := Ideal) Eb Lb n).1 (ix2 c d)
      = ∑ t ∈ Finset.range (n + 1), ∑ r : Fin 1024, k0_pay3 (F := Ideal) (Lb t) (ix2 r c) * Eb t (ix2 r d) := by
  refine Cert.LibPool.acc_fold n (fun t => ∑ r : Fin 1024, k0_pay3 (F := Ideal) (Lb t) (ix2 r c) * Eb t (ix2 r d))
    (fun n => (acc0 (F := Ideal) Eb Lb n).1 (ix2 c d)) ?_ ?_
  · show k0_pay5 (F := Ideal) (Lb 0) (Eb 0) (k0_pay1 (F := Ideal)) (ix2 c d) = _
    rw [sumsStep_apply, zeroSums_apply]
  · intro t
    show k0_pay5 (F := Ideal) (Lb (t + 1)) (Eb (t + 1)) (acc0 (F := Ideal) Eb Lb t).1 (ix2 c d) = _
    rw [sumsStep_apply]

/-- The class counts after tile n, at c: the sum over the tiles t ≤ n of the tile's column sum of one-hot (r, c). -/
theorem accCnt_apply (Eb : ℕ → Vec Ideal S1024x2048 .f32) (Lb : ℕ → Vec Ideal S1024x1 .i32) (u : Fin 1) (c : Fin 256)
    (n : ℕ) :
    (acc0 (F := Ideal) Eb Lb n).2 (ix2 u c)
      = ∑ t ∈ Finset.range (n + 1), ∑ r : Fin 1024, k0_pay3 (F := Ideal) (Lb t) (ix2 r c) := by
  refine Cert.LibPool.acc_fold n (fun t => ∑ r : Fin 1024, k0_pay3 (F := Ideal) (Lb t) (ix2 r c))
    (fun n => (acc0 (F := Ideal) Eb Lb n).2 (ix2 u c)) ?_ ?_
  · show k0_pay4 (F := Ideal) (Lb 0) (k0_pay2 (F := Ideal)) (ix2 u c) = _
    rw [cntStep_apply, zeroCnt_apply]
  · intro t
    show k0_pay4 (F := Ideal) (Lb (t + 1)) (acc0 (F := Ideal) Eb Lb t).2 (ix2 u c) = _
    rw [cntStep_apply]

/-! ## The 8 tiles of 1024 rows exhaust the 8192 rows -/

/-- Row r of tile t is a row of the table. -/
theorem tile_row_lt (t : ℕ) (r : Fin 1024) : (t % 8) * 1024 + r.val < 8192 := by
  have h8 := Nat.mod_lt t (by decide : 0 < 8)
  have hr := r.isLt
  omega

/-- The sum over the tiles 0 … 7 of the sums over a tile's rows is the sum over all rows:
    (t, r) ↦ 1024 t + r is a bijection from Fin 8 × Fin 1024 onto Fin 8192. -/
theorem tiles_sum (f : Fin 8192 → EReal) :
    ∑ t ∈ Finset.range 8, ∑ r : Fin 1024, f ⟨(t % 8) * 1024 + r.val, tile_row_lt t r⟩ = ∑ p : Fin 8192, f p := by
  rw [← Fin.sum_univ_eq_sum_range (fun t => ∑ r : Fin 1024, f ⟨(t % 8) * 1024 + r.val, tile_row_lt t r⟩) 8,
    ← Cert.LibPool.blocks_sum_of_eq (T := 8) (B := 1024) rfl f]
  refine Finset.sum_congr rfl fun t _ => Finset.sum_congr rfl fun r _ => congrArg f (Fin.ext ?_)
  show (t.val % 8) * 1024 + r.val = t.val * 1024 + r.val
  rw [Nat.mod_eq_of_lt t.isLt]

/-! ## After the last tile: the specification's class sums and counts -/

/-- The class sums after the last tile are the specification's. -/
theorem sums_eq (E : Vec Ideal S8192x2048 .f32) (L : Vec Ideal S8192x1 .i32) (c : Fin 256) (d : Fin 2048) :
    (acc0 (F := Ideal) (tile E) (tile L) 7).1 (ix2 c d)
      = Cert.Triplet.sums E (fun n => L (ix2 n (0 : Fin 1))) c d := by
  rw [accSums_apply]
  refine Eq.trans ?_ (tiles_sum fun p => Cert.Triplet.oh (fun n => L (ix2 n (0 : Fin 1))) p c * E (ix2 p d))
  refine Finset.sum_congr rfl fun t _ => Finset.sum_congr rfl fun r _ => ?_
  rw [onehot_apply, tile_apply, tile_apply]
  rfl

/-- The class counts after the last tile are the specification's. -/
theorem cnt_eq (E : Vec Ideal S8192x2048 .f32) (L : Vec Ideal S8192x1 .i32) (u : Fin 1) (c : Fin 256) :
    (acc0 (F := Ideal) (tile E) (tile L) 7).2 (ix2 u c)
      = Cert.Triplet.cnt (fun n => L (ix2 n (0 : Fin 1))) c := by
  rw [accCnt_apply]
  refine Eq.trans ?_ (tiles_sum fun p => Cert.Triplet.oh (fun n => L (ix2 n (0 : Fin 1))) p c)
  refine Finset.sum_congr rfl fun t _ => Finset.sum_congr rfl fun r _ => ?_
  rw [onehot_apply, tile_apply]
  rfl

/-- The centroids written after the last tile are the specification's. -/
theorem cen0_eq (E : Vec Ideal S8192x2048 .f32) (L : Vec Ideal S8192x1 .i32) (c : Fin 256) (d : Fin 2048) :
    cen0 (F := Ideal) (tile E) (tile L) (ix2 c d)
      = Cert.Triplet.cen E (fun n => L (ix2 n (0 : Fin 1))) c d := by
  unfold cen0
  rw [quotOut_apply, sums_eq, cnt_eq]
  rfl

/-- The squared norms written after the last tile are the specification's. -/
theorem csq0_eq (E : Vec Ideal S8192x2048 .f32) (L : Vec Ideal S8192x1 .i32) (c : Fin 256) :
    csq0 (F := Ideal) (tile E) (tile L) (ix2 (0 : Fin 1) c)
      = Cert.Triplet.csq E (fun n => L (ix2 n (0 : Fin 1))) c := by
  unfold csq0
  rw [sqnorm_apply]
  refine Finset.sum_congr rfl fun d _ => ?_
  rw [quot_apply, sums_eq, cnt_eq]
  rfl

end Cert.KernelIdeal.Val0

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.Val1.lean ====
/-
  THE SECOND KERNEL'S VALUE ON THE EXTENDED REALS: with the specification's centroids and squared norms in its two
  resident windows, after its 8 tiles the accumulator holds the sum of all rows' losses, and what it writes is that sum
  times the word of 1/8192.
-/
import proofs.«421815_j46883863003641_1_alg».proof.Proof.Spec
import proofs.«421815_j46883863003641_1_alg».proof.Proof.Fold
import proofs.«421815_j46883863003641_1_alg».proof.Proof.Tiles
import proofs.«421815_j46883863003641_1_alg».proof.Proof.LibRowReduce
import proofs.«421815_j46883863003641_1_alg».proof.Proof.LibBlockOps
import proofs.«421815_j46883863003641_1_alg».proof.Proof.LibPool
import Idealize.ShloMosaic.PureOps.Ideal.Laws
import Idealize.ShloMosaic.Lib.Pipeline.Value
import Idealize.ShloMosaic.Lib.ValueIdx
import Mathlib.Algebra.BigOperators.Fin
import Mathlib.Logic.Equiv.Fin.Basic

noncomputable section

open scoped BigOperators

namespace Cert.KernelIdeal.Val1

open Idealize.ShloMosaic Idealize.ShloMosaic.ValueIdx Cert.KernelIdeal Cert.KernelIdeal.Gen Cert.KernelIdeal.Fold Cert.Tiles

/-! ## The reductions of the body, read at a row -/

/-- The least entry of row p of a block [1024, 256]: the fold of min, from the starting value, over the row's entries. -/
theorem row_min_apply (src : FVec Ideal S1024x256 .f32) (acc : BitVec 32)
    (h : S1024x256.Reduces [1] S1024) (hφ : FKind.Formats .f32) (hacc : acc = FKind.minimumf.neutral .f32 hφ)
    (p : Fin 1024) :
    multiReduction .minimumf [1] S1024 src acc h hφ hacc (ix1 p)
      = (Finset.univ : Finset (Fin 256)).fold min (Ideal.ofBits .f32 acc) (fun k => src (ix2 p k)) := by
  rw [multiReduction_minimumf_eq_fold]
  refine (h.fold_filter_drop_single _ _ src (ix1 p)).trans ?_
  show (Finset.univ : Finset (Fin 256)).fold min (Ideal.ofBits .f32 acc) (src ∘ h.lift (ix1 p)) = _
  rw [show src ∘ h.lift (ix1 p) = fun k => src (ix2 p k) from
    funext fun k => congrArg src (Cert.LibRowReduce.lift_row h p k)]
  rfl

/-- The index of a column [1024, 1] that reduces into the one entry of [1] at position k of the reduced axis is (k, 0). -/
theorem lift_col (h : S1024x1.Reduces [0] S1) (u : Fin 1) (k : Fin 1024) :
    h.lift (ix1 u) k = ix2 k u := by
  funext a; apply Fin.ext
  match a with
  | ⟨0, _⟩ => rfl
  | ⟨1, _⟩ => rfl

/-- The sum of a column [1024, 1] over its rows. -/
theorem col_sum_apply (src : FVec Ideal S1024x1 .f32) (acc : BitVec 32)
    (h : S1024x1.Reduces [0] S1) (hφ : FKind.Formats .f32) (hacc : acc = FKind.add.neutral .f32 hφ) (u : Fin 1) :
    multiReduction .add [0] S1 src acc h hφ hacc (ix1 u) = ∑ k : Fin 1024, src (ix2 k u) := by
  refine (Ideal.multiReduction_add_single src acc h hφ hacc (ix1 u)).trans ?_
  show (∑ k : Fin 1024, src (h.lift (ix1 u) k)) = _
  exact Finset.sum_congr rfl fun k _ => congrArg src (lift_col h u k)

/-- The sum over the columns of a block [1024, 2048], kept as a column, read at row r: the sum of the row's entries. -/
theorem wide_sum_col_apply (w : FVec Ideal S1024x2048 .f32) (r : Fin 1024) (u : Fin 1) :
    shapeCast S1024x1 (multiReduction .add [1] S1024 w 0x00000000#32 reduces_S1024x2048_S1024 (.inl rfl) rfl)
        shapeCasts_S1024_S1024x1 (ix2 r u)
      = ∑ d : Fin 2048, w (ix2 r d) :=
  (Cert.LibRowReduce.column_of_vector_apply _ shapeCasts_S1024_S1024x1 r u).trans
    (Cert.LibRowReduce.row_sum_apply w 0x00000000#32 reduces_S1024x2048_S1024 (.inl rfl) rfl r)

/-- The sum over the classes of a block [1024, 256], kept as a column, read at row r. -/
theorem class_sum_col_apply (w : FVec Ideal S1024x256 .f32) (r : Fin 1024) (u : Fin 1) :
    shapeCast S1024x1 (multiReduction .add [1] S1024 w 0x00000000#32 reduces_S1024x256_S1024 (.inl rfl) rfl)
        shapeCasts_S1024_S1024x1 (ix2 r u)
      = ∑ c : Fin 256, w (ix2 r c) :=
  (Cert.LibRowReduce.column_of_vector_apply _ shapeCasts_S1024_S1024x1 r u).trans
    (Cert.LibRowReduce.row_sum_apply w 0x00000000#32 reduces_S1024x256_S1024 (.inl rfl) rfl r)

/-- The least entry over the classes of a block [1024, 256], from +∞, kept as a column, read at row r. -/
theorem class_min_col_apply (w : FVec Ideal S1024x256 .f32) (r : Fin 1024) (u : Fin 1) :
    shapeCast S1024x1 (multiReduction .minimumf [1] S1024 w 0x7F800000#32 reduces_S1024x256_S1024 (.inl rfl) rfl)
        shapeCasts_S1024_S1024x1 (ix2 r u)
      = (Finset.univ : Finset (Fin 256)).fold min (Ideal.ofBits .f32 0x7F800000#32) (fun c => w (ix2 r c)) :=
  (Cert.LibRowReduce.column_of_vector_apply _ shapeCasts_S1024_S1024x1 r u).trans
    (row_min_apply w 0x7F800000#32 reduces_S1024x256_S1024 (.inl rfl) rfl r)

/-! ## The product of a row tile with the centroid table -/

theorem lhs_dot_0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide),
    dif_pos (show (0 : Fin S1024x2048.rank) ∈ dot_S1024x2048_S256x2048_S1024x256_1_1_0_0_n_n.lhsNonContracting by decide)]
  rfl
theorem lhs_dot_1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_dot_0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide),
    dif_pos (show (0 : Fin S256x2048.rank) ∈ dot_S1024x2048_S256x2048_S1024x256_1_1_0_0_n_n.rhsNonContracting by decide)]
  rfl
theorem rhs_dot_1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- The product at (r, c), into a zero accumulator: the inner product of row r of the tile and row c of the table. -/
theorem dot_apply (x : FVec Ideal S1024x2048 .bf16) (y : FVec Ideal S256x2048 .bf16) (r : Fin 1024) (c : Fin 256) :
    matmul dot_S1024x2048_S256x2048_S1024x256_1_1_0_0_n_n none x y (constant (F := Ideal) S1024x256 .f32 0x00000000#32) (ix2 r c)
      = ∑ k : Fin 2048, x (ix2 r k) * y (ix2 c k) := by
  simp only [matmul]
  rw [Ideal.matmul_constant_zero_apply,
    ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 r c)
      ((contrEquiv1 dot_S1024x2048_S256x2048_S1024x256_1_1_0_0_n_n 2048 rfl rfl).symm k) = ix2 r k :=
    funext fun a => Fin.ext (by
      match a with
      | ⟨0, _⟩ => exact lhs_dot_0 _ _
      | ⟨1, _⟩ => exact (lhs_dot_1 _ _).trans hk)
  have er : dot_S1024x2048_S256x2048_S1024x256_1_1_0_0_n_n.rhsIdx (ix2 r c)
      ((contrEquiv1 dot_S1024x2048_S256x2048_S1024x256_1_1_0_0_n_n 2048 rfl rfl).symm k) = ix2 c k :=
    funext fun a => Fin.ext (by
      match a with
      | ⟨0, _⟩ => exact rhs_dot_0 _ _
      | ⟨1, _⟩ => exact (rhs_dot_1 _ _).trans hk)
  rw [el, er]

/-! ## The body's intermediate tables, read at an element -/

/-- The rows' squared norms, spread over the classes. -/
def esqB (Eb : FVec Ideal S1024x2048 .f32) : FVec Ideal S1024x256 .f32 :=
  broadcastTo S1024x256
    (shapeCast S1024x1 (multiReduction .add [1] S1024 (mulf Eb Eb) 0x00000000#32 reduces_S1024x2048_S1024 (.inl rfl) rfl)
      shapeCasts_S1024_S1024x1)
    broadcasts_S1024x1_S1024x256

/-- The centroids' squared norms, spread over the rows. -/
def csqB (csqA : FVec Ideal S1x256 .f32) : FVec Ideal S1024x256 .f32 :=
  broadcastTo S1024x256 (shapeCast S1x256 csqA shapeCasts_S1x256_S1x256) broadcasts_S1x256_S1024x256

/-- The inner products of the rows and the centroids. -/
def dotB (Eb : FVec Ideal S1024x2048 .f32) (cenA : FVec Ideal S256x2048 .bf16) : FVec Ideal S1024x256 .f32 :=
  matmul dot_S1024x2048_S256x2048_S1024x256_1_1_0_0_n_n none (truncf .bf16 Eb bitsLt_bf16_f32)
    (shapeCast S256x2048 cenA shapeCasts_S256x2048_S256x2048) (constant S1024x256 .f32 0x00000000#32)

/-- The distances of the rows to the centroids, as the body computes them. -/
def distB (Eb : FVec Ideal S1024x2048 .f32) (cenA : FVec Ideal S256x2048 .bf16) (csqA : FVec Ideal S1x256 .f32) :
    FVec Ideal S1024x256 .f32 :=
  sqrt (maximumf
    (subf (addf (esqB Eb) (csqB csqA)) (mulf (broadcast S1024x256 (Scalar.ofBits .f32 0x40000000#32)) (dotB Eb cenA)))
    (broadcast S1024x256 (Scalar.ofBits .f32 0x00000000#32)))

/-- The rows' labels, spread over the classes. -/
def labB (Lb : IVec S1024x1 32) : IVec S1024x256 32 :=
  broadcastTo S1024x256 (shapeCast S1024x1 Lb shapeCasts_S1024x1_S1024x1) broadcasts_S1024x1_S1024x256

/-- The class numbers, along the second axis. -/
def clsB : IVec S1024x256 32 := iota .tc S1024x256 32 [1] iota_S1024x256_d1_w32

theorem esqB_apply (Eb : FVec Ideal S1024x2048 .f32) (r : Fin 1024) (c : Fin 256) :
    esqB Eb (ix2 r c) = ∑ d : Fin 2048, Eb (ix2 r d) * Eb (ix2 r d) := by
  unfold esqB
  rw [Cert.LibBlockOps.col_apply, wide_sum_col_apply]
  rfl

theorem csqB_apply (csqA : FVec Ideal S1x256 .f32) (r : Fin 1024) (c : Fin 256) :
    csqB csqA (ix2 r c) = csqA (ix2 (0 : Fin 1) c) := by
  unfold csqB
  rw [Cert.LibBlockOps.row_apply, shapeCast_self]
  rfl

theorem dotB_apply (Eb : FVec Ideal S1024x2048 .f32) (cenA : FVec Ideal S256x2048 .bf16) (r : Fin 1024) (c : Fin 256) :
    dotB Eb cenA (ix2 r c) = ∑ k : Fin 2048, Eb (ix2 r k) * cenA (ix2 c k) := by
  unfold dotB
  rw [dot_apply, shapeCast_self]
  rfl

theorem distB_apply (Eb : FVec Ideal S1024x2048 .f32) (cenA : FVec Ideal S256x2048 .bf16) (csqA : FVec Ideal S1x256 .f32)
    (r : Fin 1024) (c : Fin 256) :
    distB Eb cenA csqA (ix2 r c)
      = Ideal.sqrt (max ((∑ d : Fin 2048, Eb (ix2 r d) * Eb (ix2 r d)) + csqA (ix2 (0 : Fin 1) c)
          - Ideal.ofBits .f32 0x40000000#32 * ∑ k : Fin 2048, Eb (ix2 r k) * cenA (ix2 c k)) 0) := by
  show Ideal.sqrt (max (esqB Eb (ix2 r c) + csqB csqA (ix2 r c)
      - Ideal.ofBits .f32 0x40000000#32 * dotB Eb cenA (ix2 r c)) (Ideal.ofBits .f32 0x00000000#32)) = _
  rw [esqB_apply, csqB_apply, dotB_apply, Ideal.ofBits_zero_f32]

theorem labB_apply (Lb : IVec S1024x1 32) (r : Fin 1024) (c : Fin 256) :
    labB Lb (ix2 r c) = Lb (ix2 r (0 : Fin 1)) := by
  unfold labB
  rw [Cert.LibBlockOps.col_apply, shapeCast_self]
  rfl

theorem clsB_apply (r : Fin 1024) (c : Fin 256) : clsB (ix2 r c) = BitVec.ofNat 32 c.val := by
  unfold clsB
  rw [iota_single_apply]

/-! ## The body's result at a row -/

/-- The one-hot entry at (r, c): 1 when row r's label is the word of c, else 0. -/
theorem onehotB_apply (Lb : IVec S1024x1 32) (r : Fin 1024) (c : Fin 256) :
    (sitofp (F := Ideal) .f32 (extui 32 (cmpi .eq (labB Lb) clsB) natLt_1_32) : FVec Ideal S1024x256 .f32) (ix2 r c)
      = if Lb (ix2 r (0 : Fin 1)) = BitVec.ofNat 32 c.val then (1 : EReal) else 0 := by
  rw [Cert.LibPool.onehot_entry, labB_apply, clsB_apply]

/-- The masked distance at (r, c): +∞ when row r's label is the word of c, else the distance. -/
theorem maskedB_apply (Lb : IVec S1024x1 32) (w : FVec Ideal S1024x256 .f32) (r : Fin 1024) (c : Fin 256) :
    select (cmpi .eq (labB Lb) clsB) (broadcast S1024x256 (Scalar.ofBits (F := Ideal) .f32 0x7F800000#32)) w (ix2 r c)
      = if Lb (ix2 r (0 : Fin 1)) = BitVec.ofNat 32 c.val then Ideal.ofBits .f32 0x7F800000#32 else w (ix2 r c) := by
  show (if IntOp.cmpi .eq (labB Lb (ix2 r c)) (clsB (ix2 r c)) = 1#1 then Ideal.ofBits .f32 0x7F800000#32 else w (ix2 r c)) = _
  rw [labB_apply, clsB_apply]
  exact if_congr IntOp.cmpi_eq rfl rfl

/-- The body's result at row r of a tile: the label-weighted sum of the row's distances, less the least distance with
    the row's own class replaced by +∞, plus the margin. -/
theorem pay4_apply (Eb : Vec Ideal S1024x2048 .f32) (Lb : Vec Ideal S1024x1 .i32) (cenA : Vec Ideal S256x2048 .bf16)
    (csqA : Vec Ideal S1x256 .f32) (r : Fin 1024) :
    k1_pay4 (F := Ideal) Eb Lb cenA csqA (ix2 r (0 : Fin 1))
      = (∑ c : Fin 256, distB Eb cenA csqA (ix2 r c)
            * (if Lb (ix2 r (0 : Fin 1)) = BitVec.ofNat 32 c.val then (1 : EReal) else 0))
        - (Finset.univ : Finset (Fin 256)).fold min (Ideal.ofBits .f32 0x7F800000#32)
            (fun c => if Lb (ix2 r (0 : Fin 1)) = BitVec.ofNat 32 c.val then Ideal.ofBits .f32 0x7F800000#32
              else distB Eb cenA csqA (ix2 r c))
        + Ideal.ofBits .f32 0x3E99999A#32 := by
  show (shapeCast S1024x1
          (multiReduction .add [1] S1024
            (mulf (distB Eb cenA csqA) (sitofp .f32 (extui 32 (cmpi .eq (labB Lb) clsB) natLt_1_32)))
            0x00000000#32 reduces_S1024x256_S1024 (.inl rfl) rfl)
          shapeCasts_S1024_S1024x1 (ix2 r (0 : Fin 1))
        - shapeCast S1024x1
          (multiReduction .minimumf [1] S1024
            (select (cmpi .eq (labB Lb) clsB) (broadcast S1024x256 (Scalar.ofBits .f32 0x7F800000#32)) (distB Eb cenA csqA))
            0x7F800000#32 reduces_S1024x256_S1024 (.inl rfl) rfl)
          shapeCasts_S1024_S1024x1 (ix2 r (0 : Fin 1)))
        + Ideal.ofBits .f32 0x3E99999A#32 = _
  rw [class_sum_col_apply, class_min_col_apply]
  congr 2
  · refine Finset.sum_congr rfl fun c _ => ?_
    rw [mulf_apply, onehotB_apply]
  · congr 1
    funext c
    exact maskedB_apply Lb _ r c

/-! ## A tile's rows against the specification -/

/-- A word equals the word of a class number c < 256 exactly when its signed reading is c: the class number's word
    reads back as c, and the signed reading is injective on words. -/
theorem word_eq_class_iff (w : BitVec 32) (c : Fin 256) : w = BitVec.ofNat 32 c.val ↔ w.toInt = (c.val : Int) := by
  have key : (BitVec.ofNat 32 c.val).toInt = (c.val : Int) :=
    Cert.LibPool.toInt_ofNat_small c.val (by have := c.isLt; omega)
  constructor
  · rintro rfl; exact key
  · intro h; exact BitVec.eq_of_toInt_eq (by rw [key, h])

/-- Row r of tile n, as a row of the table. -/
def rowOf (n : ℕ) (r : Fin 1024) : Fin 8192 :=
  ⟨(n % 8) * 1024 + r.val, by
    have h8 := Nat.mod_lt n (by decide : 0 < 8)
    have := r.isLt
    omega⟩

section Tile

variable (E : Vec Ideal S8192x2048 .f32) (L : Vec Ideal S8192x1 .i32)
  (cenA : Vec Ideal S256x2048 .bf16) (csqA : Vec Ideal S1x256 .f32)
  (hcen : ∀ (c : Fin 256) (d : Fin 2048), cenA (ix2 c d) = Cert.Triplet.cen E (fun n => L (ix2 n (0 : Fin 1))) c d)
  (hcsq : ∀ c : Fin 256, csqA (ix2 (0 : Fin 1) c) = Cert.Triplet.csq E (fun n => L (ix2 n (0 : Fin 1))) c)

include hcen hcsq

/-- The body's distance at (r, c) of tile n is the specification's distance of the table's row to centroid c. -/
theorem tile_dist (n : ℕ) (r : Fin 1024) (c : Fin 256) :
    distB (tile E n) cenA csqA (ix2 r c)
      = Cert.Triplet.dist E (fun m => L (ix2 m (0 : Fin 1))) (rowOf n r) c := by
  rw [distB_apply, Cert.Triplet.dist, Cert.Triplet.esq, Cert.Triplet.dot, hcsq]
  simp only [hcen]
  rfl

/-- The body's result at row r of tile n, cut off below at zero, is the specification's loss of the table's row. -/
theorem tile_loss (n : ℕ) (r : Fin 1024) :
    max (k1_pay4 (F := Ideal) (tile E n) (tile L n) cenA csqA (ix2 r (0 : Fin 1))) 0
      = Cert.Triplet.loss E (fun m => L (ix2 m (0 : Fin 1))) (rowOf n r) := by
  have hL : ∀ c : Fin 256, (tile L n (ix2 r (0 : Fin 1)) = BitVec.ofNat 32 c.val)
      ↔ ((L (ix2 (rowOf n r) (0 : Fin 1))).toInt = (c.val : Int)) := fun c => word_eq_class_iff _ c
  rw [pay4_apply, Cert.Triplet.loss, Cert.Triplet.pos, Cert.Triplet.neg]
  congr 3
  · refine Finset.sum_congr rfl fun c _ => ?_
    rw [tile_dist E L cenA csqA hcen hcsq n r c, Cert.Triplet.oh]
    exact congrArg _ (if_congr (hL c) rfl rfl)
  · congr 1
    funext c
    rw [tile_dist E L cenA csqA hcen hcsq n r c]
    exact if_congr (hL c) rfl rfl

end Tile

/-! ## The accumulator over the tiles -/

/-- One step of the accumulator: what it held, plus the sum over the tile's rows of the row results cut off below at
    zero. -/
theorem pay1_apply (v : FVec Ideal S1024x1 .f32) (acc : Vec Ideal S1x1 .f32) :
    k1_pay1 (F := Ideal) v (Scalar.ofBits .f32 0x00000000#32) acc (ix2 (0 : Fin 1) (0 : Fin 1))
      = acc (ix2 (0 : Fin 1) (0 : Fin 1)) + ∑ k : Fin 1024, max (v (ix2 k (0 : Fin 1))) 0 := by
  show shapeCast S1x1
      (addf acc
        (shapeCast S1x1
          (multiReduction .add [0] S1 (maximumf v (broadcast S1024x1 (Scalar.ofBits .f32 0x00000000#32))) 0x00000000#32
            reduces_S1024x1_S1 (.inl rfl) rfl)
          shapeCasts_S1_S1x1))
      shapeCasts_S1x1_S1x1 (ix2 (0 : Fin 1) (0 : Fin 1)) = _
  rw [shapeCast_self, addf_apply, Cert.LibRowReduce.column_of_vector_apply]
  refine congrArg (acc (ix2 (0 : Fin 1) (0 : Fin 1)) + ·)
    ((col_sum_apply _ 0x00000000#32 reduces_S1024x1_S1 (.inl rfl) rfl (0 : Fin 1)).trans ?_)
  refine Finset.sum_congr rfl fun k _ => ?_
  rw [maximumf_apply, broadcast_apply]
  show max _ (Ideal.ofBits .f32 0x00000000#32) = _
  rw [Ideal.ofBits_zero_f32]

/-- The accumulator starts from zero. -/
theorem pay3_apply : k1_pay3 (F := Ideal) (ix2 (0 : Fin 1) (0 : Fin 1)) = 0 := by
  show shapeCast S1x1 (broadcast S1x1 (Scalar.ofBits (F := Ideal) .f32 0x00000000#32)) shapeCasts_S1x1_S1x1
      (ix2 (0 : Fin 1) (0 : Fin 1)) = _
  rw [shapeCast_self, broadcast_apply]
  exact Ideal.ofBits_zero_f32

section Fold

variable (E : Vec Ideal S8192x2048 .f32) (L : Vec Ideal S8192x1 .i32)
  (cenA : Vec Ideal S256x2048 .bf16) (csqA : Vec Ideal S1x256 .f32)
  (hcen : ∀ (c : Fin 256) (d : Fin 2048), cenA (ix2 c d) = Cert.Triplet.cen E (fun n => L (ix2 n (0 : Fin 1))) c d)
  (hcsq : ∀ c : Fin 256, csqA (ix2 (0 : Fin 1) c) = Cert.Triplet.csq E (fun n => L (ix2 n (0 : Fin 1))) c)

/-- The sum of the losses of the rows of tile n. -/
def tileLoss (n : ℕ) : EReal :=
  ∑ r : Fin 1024, Cert.Triplet.loss E (fun m => L (ix2 m (0 : Fin 1))) (rowOf n r)

include hcen hcsq

/-- After the first tile the accumulator holds zero plus the first tile's losses. -/
theorem acc1_zero :
    acc1 (F := Ideal) (tile E) (tile L) cenA csqA 0 (ix2 (0 : Fin 1) (0 : Fin 1)) = 0 + tileLoss E L 0 := by
  show k1_pay1 (F := Ideal) (k1_pay4 (tile E 0) (tile L 0) cenA csqA) (Scalar.ofBits .f32 0x00000000#32)
      (k1_pay3 (F := Ideal)) (ix2 (0 : Fin 1) (0 : Fin 1)) = _
  rw [pay1_apply, pay3_apply]
  exact congrArg (0 + ·) (Finset.sum_congr rfl fun r _ => tile_loss E L cenA csqA hcen hcsq 0 r)

/-- Each further tile adds its losses. -/
theorem acc1_succ (n : ℕ) :
    acc1 (F := Ideal) (tile E) (tile L) cenA csqA (n + 1) (ix2 (0 : Fin 1) (0 : Fin 1))
      = acc1 (F := Ideal) (tile E) (tile L) cenA csqA n (ix2 (0 : Fin 1) (0 : Fin 1)) + tileLoss E L (n + 1) := by
  show k1_pay1 (F := Ideal) (k1_pay4 (tile E (n + 1)) (tile L (n + 1)) cenA csqA) (Scalar.ofBits .f32 0x00000000#32)
      (acc1 (F := Ideal) (tile E) (tile L) cenA csqA n) (ix2 (0 : Fin 1) (0 : Fin 1)) = _
  rw [pay1_apply]
  exact congrArg (_ + ·) (Finset.sum_congr rfl fun r _ => tile_loss E L cenA csqA hcen hcsq (n + 1) r)

/-- After the last tile the accumulator holds the sum of all rows' losses: the 8192 rows are 8 tiles of 1024. -/
theorem acc1_last :
    acc1 (F := Ideal) (tile E) (tile L) cenA csqA 7 (ix2 (0 : Fin 1) (0 : Fin 1))
      = Cert.Triplet.total E (fun n => L (ix2 n (0 : Fin 1))) := by
  rw [Cert.LibPool.acc_fold_fin 7 (tileLoss E L)
      (fun n => acc1 (F := Ideal) (tile E) (tile L) cenA csqA n (ix2 (0 : Fin 1) (0 : Fin 1)))
      (acc1_zero E L cenA csqA hcen hcsq) (fun t _ => acc1_succ E L cenA csqA hcen hcsq t),
    Cert.Triplet.total,
    ← Cert.LibPool.blocks_sum_of_eq (T := 8) (B := 1024) (P := 8192) rfl
      (fun p => Cert.Triplet.loss E (fun n => L (ix2 n (0 : Fin 1))) p)]
  refine Finset.sum_congr rfl fun t _ => Finset.sum_congr rfl fun r _ => congrArg _ (Fin.ext ?_)
  show (t.val % 8) * 1024 + r.val = t.val * 1024 + r.val
  rw [Nat.mod_eq_of_lt t.isLt]

end Fold

/-- What the second kernel writes, given the centroids and their squared norms as the specification has them. -/
theorem out1_eq (E : Vec Ideal S8192x2048 .f32) (L : Vec Ideal S8192x1 .i32)
    (cenA : Vec Ideal S256x2048 .bf16) (csqA : Vec Ideal S1x256 .f32)
    (hcen : ∀ (c : Fin 256) (d : Fin 2048), cenA (ix2 c d) = Cert.Triplet.cen E (fun n => L (ix2 n (0 : Fin 1))) c d)
    (hcsq : ∀ c : Fin 256, csqA (ix2 (0 : Fin 1) c) = Cert.Triplet.csq E (fun n => L (ix2 n (0 : Fin 1))) c) :
    out1 (F := Ideal) (tile E) (tile L) cenA csqA (ix2 (0 : Fin 1) (0 : Fin 1))
      = Cert.Triplet.total E (fun n => L (ix2 n (0 : Fin 1))) * Ideal.ofBits .f32 0x39000000#32 := by
  show acc1 (F := Ideal) (tile E) (tile L) cenA csqA 7 (ix2 (0 : Fin 1) (0 : Fin 1)) * Ideal.ofBits .f32 0x39000000#32 = _
  rw [acc1_last E L cenA csqA hcen hcsq]

end Cert.KernelIdeal.Val1

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.LibVecScatter.lean ====
/-
  A VECTOR ACCUMULATED INTO BY INDEX, READ AT ONE ENTRY.

  The update `zeros(C).at[idx].add(upd)` adds each entry `upd[n]` of a vector of `N` updates into entry `idx[n]` of a vector
  of `C` entries. As a scatter with an add body it has operand `x : [C]`, scatter indices `idx : [N, 1]` (the index
  vector, of length one, lies on axis 1), updates `upd : [N]`, no window axis on the updates, and the operand's one axis
  both inserted and named by the one index component. This file reads it at an entry, generically in the sizes: entry
  `j` of the result is the operand's entry `j` plus the sum of the updates `upd[n]` over exactly those `n` whose index word
  `idx[n, 0]`, read as a SIGNED integer, equals `j`. The index is not clamped: a negative index, or one that is `C` or
  more, equals no `j < C` and so contributes to no entry.
-/
import Idealize.ShloMosaic.PureOps.Ideal
import Idealize.ShloMosaic.PureOps.Ideal.Laws
import Idealize.ShloMosaic.Lib.ValueIdx
import Idealize.ShloMosaic.Lib.ValueIdxRank1
import Mathlib.Data.EReal.Basic
import Mathlib.Algebra.BigOperators.Group.Finset.Basic
import proofs.«421815_j46883863003641_1_alg».proof.Proof.LibRowOps

noncomputable section

open scoped BigOperators

namespace Cert.LibVecScatter

open Idealize.ShloMosaic Idealize.ShloMosaic.ValueIdx

/-- The dimension numbers of `x.at[idx].add(upd)` for a vector `x : [C]`, scatter indices `idx : [N, 1]` and updates
    `upd : [N]`: the updates have no window axis, the operand's axis 0 is inserted and is the one axis the scatter
    index names, the index vector lies on axis 1 of the scatter indices. Stated over any witness `wf` of the
    well-formedness conditions, which are decided on a program's literal sizes. -/
def vecScatterDims (C N : Nat) (wf : ScatterDims.WF (⟨1, ![C]⟩ : Shape) ⟨2, ![N, 1]⟩ ⟨1, ![N]⟩ [] [0] [0] 1) :
    ScatterDims (⟨1, ![C]⟩ : Shape) ⟨2, ![N, 1]⟩ ⟨1, ![N]⟩ where
  updateWindowDims := []
  insertedWindowDims := [0]
  scatterDimsToOperandDims := [0]
  indexVectorDim := 1
  wf := wf

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section
variable {C N w : Nat} (wf : ScatterDims.WF (⟨1, ![C]⟩ : Shape) ⟨2, ![N, 1]⟩ ⟨1, ![N]⟩ [] [0] [0] 1)
  (j : (⟨1, ![N]⟩ : Shape).Idx) (idx : IVec (⟨2, ![N, 1]⟩ : Shape) w)

/-- On the operand's one axis the start of update `n` is the scatter index `idx[n, 0]`, read signed: the axis is the
    first (and only) one the index vector names, so its component is read at position 0 of the index vector, and the
    other coordinate of the scatter-indices index is the update's own coordinate (the updates' one axis is a scatter
    axis). -/
theorem vecScatter_start0 :
    (vecScatterDims C N wf).start j idx 0 = (idx (ix2 (j 0) (0 : Fin 1))).toInt := by
  unfold ScatterDims.start
  rw [dif_pos (show (0 : Fin 1) ∈ (vecScatterDims C N wf).scatterDimsToOperandDims from List.mem_singleton.mpr rfl)]
  have hsi : (vecScatterDims C N wf).siIdx j ⟨List.idxOf (0 : Fin 1) (vecScatterDims C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's one axis, an inserted axis, the window coordinate is `0`. -/
theorem vecScatter_window0 : (vecScatterDims C N wf).window j 0 = 0 := by
  unfold ScatterDims.window
  rw [dif_neg (show (0 : Fin 1) ∉ (vecScatterDims C N wf).sKept from
    fun h => (LibRowOps.mem_kept _ _).mp h (List.mem_singleton.mpr rfl))]

/-- WHERE AN UPDATE LANDS: update `n` lands at operand entry `i` exactly when the scatter index `idx[n, 0]`, read
    signed, is `i`. In particular a negative index, or one that is `C` or more, lands nowhere. -/
theorem vecScatter_resultIdx (i : (⟨1, ![C]⟩ : Shape).Idx) :
    (vecScatterDims C N wf).resultIdx? j idx = some i ↔
      (idx (ix2 (j 0) (0 : Fin 1))).toInt = ((i 0).val : Int) := by
  rw [LibRowOps.resultIdx?_eq_some_iff, Fin.forall_fin_one, vecScatter_start0, vecScatter_window0]
  constructor
  · intro h; simpa using h
  · intro h; simpa using h

end

/-- THE VECTOR SCATTER-ADD READ AT ENTRY `j`: the operand's entry plus the sum over all updates `n` of `upd[n]` where
    the scatter index `idx[n, 0]`, read signed, is `j`, and of `0` where it is not. (The sum over the update indices that land
    at `j` is the sum over all update indices of the update or zero; a rank-1 index is its one coordinate.) -/
theorem vecScatterAdd_apply {C N w : Nat}
    (wf : ScatterDims.WF (⟨1, ![C]⟩ : Shape) ⟨2, ![N, 1]⟩ ⟨1, ![N]⟩ [] [0] [0] 1)
    (x : (⟨1, ![C]⟩ : Shape).Idx → EReal) (idx : IVec (⟨2, ![N, 1]⟩ : Shape) w)
    (upd : (⟨1, ![N]⟩ : Shape).Idx → EReal) (j : Fin C) :
    Ideal.hostScatterAdd (vecScatterDims C N wf) x idx upd (ix1 j)
      = x (ix1 j) + ∑ n : Fin N, if (idx (ix2 n (0 : Fin 1))).toInt = (j.val : Int) then upd (ix1 n) else 0 := by
  unfold Ideal.hostScatterAdd
  congr 1
  rw [Finset.sum_filter, sum_idx1]
  refine Finset.sum_congr rfl fun n _ => ?_
  simp only [vecScatter_resultIdx]
  rfl

/-- The same for any record of dimension numbers that IS `vecScatterDims C N wf` (a program prints its dimension numbers
    as a record of its own, with literal sizes, which is this one by `rfl`). -/
theorem vecScatterAdd_apply_of {C N w : Nat}
    {wf : ScatterDims.WF (⟨1, ![C]⟩ : Shape) ⟨2, ![N, 1]⟩ ⟨1, ![N]⟩ [] [0] [0] 1}
    (d : ScatterDims (⟨1, ![C]⟩ : Shape) ⟨2, ![N, 1]⟩ ⟨1, ![N]⟩) (hd : d = vecScatterDims C N wf)
    (x : (⟨1, ![C]⟩ : Shape).Idx → EReal) (idx : IVec (⟨2, ![N, 1]⟩ : Shape) w)
    (upd : (⟨1, ![N]⟩ : Shape).Idx → EReal) (j : Fin C) :
    Ideal.hostScatterAdd d x idx upd (ix1 j)
      = x (ix1 j) + ∑ n : Fin N, if (idx (ix2 n (0 : Fin 1))).toInt = (j.val : Int) then upd (ix1 n) else 0 := by
  subst hd; exact vecScatterAdd_apply wf x idx upd j

end Cert.LibVecScatter

end
-- ==== Proof.LibGatherLast.lean ====
/-
  A gather along the last axis of a rank-2 array, read at an index.

  What `take_along_axis(x, idx, axis = 1)` of an array `x : [B, N]` at an integer array `idx : [B, P]` lowers to:
  `stablehlo.gather` with axis 0 a batching axis on both sides, operand axis 1 collapsed and named by the start index
  map, the index vector on a third unit axis of the start indices, and slices of one element. Result element `(b, p)`
  is the operand at `(b, j)` where `j` is the start index `idx[b, p, 0]` read as a signed integer and clamped into
  `[0, N − 1]`, as the gather clamps every start index so that the slice fits.
-/
import Idealize.ShloMosaic.Lib.ValueIdx

namespace Cert.GatherLast

open Idealize.ShloMosaic Idealize.ShloMosaic.ValueIdx

/-- Those dimension numbers for an operand `[B, N]`, start indices `[B, P, 1]` and result `[B, P]`; their conditions
    `wf` are decided on a program's literal shapes. -/
abbrev lastDims (B N P : Nat)
    (wf : GatherDims.WF ⟨2, ![B, N]⟩ ⟨3, ![B, P, 1]⟩ ⟨2, ![B, P]⟩ [] [1] [0] [1] [0] 2 ![1, 1]) :
    GatherDims ⟨2, ![B, N]⟩ ⟨3, ![B, P, 1]⟩ ⟨2, ![B, P]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, p)`: the operand at `(b, j)`, `j` the start index `idx[b, p, 0]` read signed and clamped
    into `[0, N − 1]`. -/
theorem gather_last_apply {α : Type} {B N P w : Nat} (hN : 0 < N)
    (wf : GatherDims.WF ⟨2, ![B, N]⟩ ⟨3, ![B, P, 1]⟩ ⟨2, ![B, P]⟩ [] [1] [0] [1] [0] 2 ![1, 1])
    (x : (⟨2, ![B, N]⟩ : Shape).Idx → α) (idx : IVec ⟨3, ![B, P, 1]⟩ w) (b : Fin B) (p : Fin P) :
    Host.gather (lastDims B N P wf) x idx (ix2 b p)
      = x (ix2 b ⟨min (idx (ix3 b p (0 : Fin 1))).toInt.toNat (N - 1), by omega⟩) := by
  show x ((lastDims B N P wf).operandIdx (ix2 b p) idx) = _
  refine congrArg x (funext fun a => Fin.ext ?_)
  show (lastDims B N P wf).start (ix2 b p) idx a + (lastDims B N P wf).batchCoord (ix2 b p) a
    + (lastDims B N P wf).offCoord (ix2 b p) a = _
  match a with
  | ⟨0, h0⟩ =>
    -- the batching axis: no start index, no offset, the result's own first coordinate
    have hb : (⟨0, h0⟩ : Fin 2) ∈ (lastDims B N P wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- the indexed, collapsed axis: the clamped start index alone
    have hm : (⟨1, h1⟩ : Fin 2) ∈ (lastDims B N P wf).startIndexMap := List.mem_singleton.mpr rfl
    rw [GatherDims.batchCoord_eq_zero _ _ _ (GatherDims.sim_disjoint _ _ hm),
      GatherDims.offCoord_eq_zero _ _ _ (fun h => ((GatherDims.mem_sKept _ _).mp h).1 (List.mem_singleton.mpr rfl))]
    simp only [Nat.add_zero]
    unfold GatherDims.start
    rw [dif_pos hm]
    have hsi : (lastDims B N P wf).siIdx (ix2 b p) ⟨List.idxOf (⟨1, h1⟩ : Fin 2) (lastDims B N P wf).startIndexMap,
        List.idxOf_lt_length_iff.2 hm⟩ = ix3 b p (0 : Fin 1) := by
      funext c; refine Fin.ext ?_
      match c with
      | ⟨0, _⟩ => rfl
      | ⟨1, _⟩ => rfl
      | ⟨2, _⟩ => rfl
    rw [hsi]
    rfl

end Cert.GatherLast
-- ==== Proof.RefVal.lean ====
/-
  THE REFERENCE'S VALUE ON THE EXTENDED REALS: for labels inside the class range the reference's result is the
  specification's total loss divided by the word of `8192`.

  The stages follow the specification's named quantities, each read at an index: the class counts and the class sums
  (the two accumulations by label), the centroids, the squared norms of the centroids and of the rows, the inner
  products, the distances, the positive term (a gather along the class axis at the row's own label), the negative term
  (a fold of the minimum over the classes, the own class masked by plus infinity), the rows' losses and their sum.
-/
import proofs.«421815_j46883863003641_1_alg».proof.Proof.Spec
import proofs.«421815_j46883863003641_1_alg».proof.Proof.RefReadP
import proofs.«421815_j46883863003641_1_alg».proof.Proof.LibRowOps
import proofs.«421815_j46883863003641_1_alg».proof.Proof.LibVecScatter
import proofs.«421815_j46883863003641_1_alg».proof.Proof.LibGatherLast
import Idealize.ShloMosaic.Lib.ValueIdx
import Idealize.ShloMosaic.Lib.Affine
import Idealize.ShloMosaic.Lib.StableHlo.Predicate
import Idealize.ShloMosaic.PureOps.Reduce
import Idealize.ShloMosaic.PureOps.IdealRules
import Idealize.ShloMosaic.PureOps.Ideal.Laws
import Mathlib.Data.EReal.Basic
import Mathlib.Data.Finset.Fold
import Mathlib.Algebra.BigOperators.Group.Finset.Basic

noncomputable section

open scoped BigOperators

namespace Cert.ReferenceIdeal.RefVal

open Idealize.ShloMosaic Idealize.ShloMosaic.ValueIdx Cert.ReferenceIdeal Cert.ReferenceIdeal.Gen
open Cert.ReferenceIdeal.ReadP

/-! ## Words -/

/-- The word of `1.0` is the extended real one. -/
theorem ofBits_one_f32 : Ideal.ofBits .f32 0x3F800000#32 = 1 :=
  IdealRules.sign_bit.ideal_onePat .f32

/-- A class number's word equals a label word exactly when the label, read signed, is the class number. -/
theorem ofNat_eq_iff_toInt (w : BitVec 32) (c : Nat) (hc : c < 256) :
    BitVec.ofNat 32 c = w ↔ w.toInt = (c : Int) := by
  constructor
  · rintro rfl; exact StableHlo.Predicate.toInt_ofNat_small c (by omega)
  · intro h
    apply BitVec.eq_of_toInt_eq
    rw [StableHlo.Predicate.toInt_ofNat_small c (by omega), h]

/-- A fold of the bitwise and, from one, over ones is one. -/
theorem fold_andi_ones {ι : Type} [DecidableEq ι] (s : Finset ι) (f : ι → BitVec 1) (hf : ∀ k, f k = 1#1) :
    s.fold IntOp.andi 1#1 f = 1#1 := by
  induction s using Finset.induction_on with
  | empty => exact Finset.fold_empty
  | insert a s ha ih => rw [Finset.fold_insert ha, ih, hf a]; decide

/-! ## The class counts and the class sums -/

/-- The labels broadcast to a column read, at row `n`, the label of row `n`. -/
theorem idx_main_v5_ix2 (n : Fin 8192) (z : Fin 1) : idx_main_v5 (ix2 n z) = ix1 n :=
  funext fun a => Fin.ext (by match a with | ⟨0, _⟩ => rfl)

/-- The class counts: the zero vector plus, over the rows, one where the row's label is the class. -/
theorem counts_eq (lab : IVec S8192 32) (c : Fin 256) :
    val_main_v6 (F := Ideal) lab (ix1 c) = Cert.Triplet.cnt (fun n => lab (ix1 n)) c := by
  unfold val_main_v6
  simp only [Host.scatterAdd, Ideal.hostScatterAdd_def]
  rw [Cert.LibVecScatter.vecScatterAdd_apply_of scatter_S256_S8192x1_S8192_n_0_0_1 rfl]
  simp only [val_main_v4_apply, val_main_cst_1_apply, val_main_v5_apply, val_main_v3_apply, val_main_cst_0_apply,
    Ideal.ofBits_def, Ideal.ofBits_zero_f32, ofBits_one_f32, zero_add, idx_main_v5_ix2]
  rfl

/-- The same for the second copy of the label column. -/
theorem idx_main_v1_ix2 (n : Fin 8192) (z : Fin 1) : idx_main_v1 (ix2 n z) = ix1 n :=
  funext fun a => Fin.ext (by match a with | ⟨0, _⟩ => rfl)

/-- The class sums: the zero table plus, over the rows whose label is the class, the row's entry; a sum over a
    filtered set is the sum of the indicator-weighted terms. -/
theorem classSums_eq (E : FVec Ideal S8192x2048 .f32) (lab : IVec S8192 32) (c : Fin 256) (d : Fin 2048) :
    val_main_v2 (F := Ideal) E lab (ix2 c d) = Cert.Triplet.sums E (fun n => lab (ix1 n)) c d := by
  unfold val_main_v2
  simp only [Host.scatterAdd, Ideal.hostScatterAdd_def]
  rw [Cert.LibRowOps.rowScatterAdd_apply_of scatter_S256x2048_S8192x1_S8192x2048_1_0_0_1 rfl]
  simp only [val_main_v0_apply, val_main_cst_apply, val_main_v1_apply,
    Ideal.ofBits_def, Ideal.ofBits_zero_f32, zero_add, idx_main_v1_ix2]
  show ∑ x ∈ Finset.univ.filter (fun x : Fin 8192 => (lab (ix1 x)).toInt = (c.val : Int)), E (ix2 x d) = _
  rw [Finset.sum_filter]
  unfold Cert.Triplet.sums Cert.Triplet.oh
  refine Finset.sum_congr rfl fun n _ => ?_
  simp only [ite_mul, one_mul, zero_mul]

/-! ## The centroids, the squared norms, the inner products, the distances -/

/-- The counts broadcast along the columns read, at `(c, d)`, the count of class `c`. -/
theorem idx_main_v7_v8_ix2 (c : Fin 256) (d : Fin 2048) : idx_main_v7 (idx_main_v8 (ix2 c d)) = ix1 c :=
  funext fun a => Fin.ext (by match a with | ⟨0, _⟩ => rfl)

/-- The centroids: the class sum over the class count. -/
theorem centroid_eq (E : FVec Ideal S8192x2048 .f32) (lab : IVec S8192 32) (c : Fin 256) (d : Fin 2048) :
    val_main_v9 (F := Ideal) E lab (ix2 c d) = Cert.Triplet.cen E (fun n => lab (ix1 n)) c d := by
  rw [val_main_v9_apply, val_main_v8_apply, val_main_v7_apply, idx_main_v7_v8_ix2, counts_eq, classSums_eq]
  rfl

/-- The sum over the columns of the centroid table at class `c` ranges over `(c, k)`. -/
theorem idx_main_v14_ix1 (c : Fin 256) (k : Fin 2048) : idx_main_v14 (ix1 c) k = ix2 c k :=
  funext fun a => Fin.ext (by match a with | ⟨0, _⟩ => rfl | ⟨1, _⟩ => rfl)

/-- The centroids' squared norms: zero plus the sum over the columns of the squares. -/
theorem csq_eq (E : FVec Ideal S8192x2048 .f32) (lab : IVec S8192 32) (c : Fin 256) :
    val_main_v14 (F := Ideal) E lab (ix1 c) = Cert.Triplet.csq E (fun n => lab (ix1 n)) c := by
  rw [val_main_v14_apply, val_main_cst_3_apply, Ideal.ofBits_def, Ideal.ofBits_zero_f32, zero_add]
  unfold Cert.Triplet.csq
  refine Finset.sum_congr rfl fun k _ => ?_
  rw [idx_main_v14_ix1, val_main_v13_apply, centroid_eq]
  rfl

/-- The sum over the columns of the embeddings at row `n` ranges over `(n, k)`. -/
theorem idx_main_v11_ix1 (n : Fin 8192) (k : Fin 2048) : idx_main_v11 (ix1 n) k = ix2 n k :=
  funext fun a => Fin.ext (by match a with | ⟨0, _⟩ => rfl | ⟨1, _⟩ => rfl)

/-- The rows' squared norms: zero plus the sum over the columns of the squares. -/
theorem esq_eq (E : FVec Ideal S8192x2048 .f32) (n : Fin 8192) :
    val_main_v11 (F := Ideal) E (ix1 n) = Cert.Triplet.esq E n := by
  rw [val_main_v11_apply, val_main_cst_2_apply, Ideal.ofBits_def, Ideal.ofBits_zero_f32, zero_add]
  unfold Cert.Triplet.esq
  refine Finset.sum_congr rfl fun k _ => ?_
  rw [idx_main_v11_ix1, val_main_v10_apply]
  rfl

/-- The contraction at `(n, c)` reads the embeddings at `(n, k)` … -/
theorem lidx_main_v20_ix2 (n : Fin 8192) (c : Fin 256) (k : Fin 2048) : lidx_main_v20 (ix2 n c) k = ix2 n k :=
  funext fun a => Fin.ext (by match a with | ⟨0, _⟩ => rfl | ⟨1, _⟩ => rfl)

/-- … and the transposed centroid table at `(k, c)`, which is the centroid table at `(c, k)`. -/
theorem idx_main_v19_ridx_main_v20_ix2 (n : Fin 8192) (c : Fin 256) (k : Fin 2048) :
    idx_main_v19 (ridx_main_v20 (ix2 n c) k) = ix2 c k :=
  funext fun a => Fin.ext (by match a with | ⟨0, _⟩ => rfl | ⟨1, _⟩ => rfl)

/-- The inner products of the rows and the centroids. -/
theorem dot_eq (E : FVec Ideal S8192x2048 .f32) (lab : IVec S8192 32) (n : Fin 8192) (c : Fin 256) :
    val_main_v20 (F := Ideal) E lab (ix2 n c) = Cert.Triplet.dot E (fun n => lab (ix1 n)) n c := by
  rw [val_main_v20_apply]
  unfold Cert.Triplet.dot
  refine Finset.sum_congr rfl fun k _ => ?_
  rw [lidx_main_v20_ix2, val_main_v19_apply, idx_main_v19_ridx_main_v20_ix2, centroid_eq]

/-- The rows' squared norms broadcast along the classes read, at `(n, c)`, row `n`'s. -/
theorem idx_main_v12_v16_ix2 (n : Fin 8192) (c : Fin 256) : idx_main_v12 (idx_main_v16 (ix2 n c)) = ix1 n :=
  funext fun a => Fin.ext (by match a with | ⟨0, _⟩ => rfl)

/-- The centroids' squared norms broadcast along the rows read, at `(n, c)`, class `c`'s. -/
theorem idx_main_v15_v17_ix2 (n : Fin 8192) (c : Fin 256) : idx_main_v15 (idx_main_v17 (ix2 n c)) = ix1 c :=
  funext fun a => Fin.ext (by match a with | ⟨0, _⟩ => rfl)

/-- The distances: the square root of the expansion `|e|² + |c|² − 2 e·c` cut off below at zero. -/
theorem dist_eq (E : FVec Ideal S8192x2048 .f32) (lab : IVec S8192 32) (n : Fin 8192) (c : Fin 256) :
    val_main_v26 (F := Ideal) E lab (ix2 n c) = Cert.Triplet.dist E (fun n => lab (ix1 n)) n c := by
  rw [val_main_v26_apply, val_main_v25_apply, val_main_v23_apply, val_main_v18_apply, val_main_v22_apply,
    val_main_v16_apply, val_main_v12_apply, idx_main_v12_v16_ix2, esq_eq,
    val_main_v17_apply, val_main_v15_apply, idx_main_v15_v17_ix2, csq_eq,
    val_main_v21_apply, val_main_cst_4_apply, dot_eq, val_main_v24_apply, val_main_cst_5_apply]
  simp only [Ideal.ofBits_def, Ideal.ofBits_zero_f32, Ideal.hostUnary_sqrt_def, Ideal.maximumf_def, Ideal.subf_def,
    Ideal.addf_def, Ideal.mulf_def]
  rfl

/-! ## The positive term: the gather along the class axis at the row's own label -/

/-- The index chain from the reshaped start indices back to the label vector keeps the row. -/
theorem idx_main_v27_call0_v5 (i : S8192x1x1.Idx) : idx_main_v27 (idx_main_call0_v5 i) = ix1 (i 0) :=
  funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)

/-- For a nonnegative label the negative-index wrap does nothing: the start index is the label itself. -/
theorem startIndex_eq (lab : IVec S8192 32) (i : S8192x1x1.Idx) (h0 : 0 ≤ (lab (ix1 (i 0))).toInt) :
    val_main_call0_v5 (F := Ideal) lab i = lab (ix1 (i 0)) := by
  rw [val_main_call0_v5_apply, val_main_call0_v4_apply, val_main_call0_v1_apply, val_main_v27_apply,
    val_main_call0_v0_apply, val_main_call0_c_apply, idx_main_v27_call0_v5]
  have hn : ¬ IntOp.cmpi .slt (lab (ix1 (i 0))) 0#32 = 1#1 := by
    rw [IntOp.cmpi_slt]
    show ¬ (lab (ix1 (i 0))).toInt < 0
    omega
  exact if_neg hn

/-- For a label in the class range the in-range flag's operand, `0 ≤ index ∧ index ≤ 255`, is one at every index. -/
theorem inRangeOperand_eq_one (lab : IVec S8192 32) (i : S8192x1x1.Idx)
    (h : 0 ≤ (lab (ix1 (i 0))).toInt ∧ (lab (ix1 (i 0))).toInt < 256) :
    val_main_call0_v11 (F := Ideal) lab i = 1#1 := by
  rw [val_main_call0_v11_apply, IntOp.andi_eq_one, val_main_call0_v7_apply, val_main_call0_v10_apply,
    startIndex_eq lab i h.1, val_main_call0_v6_apply, val_main_call0_c_2_apply, val_main_call0_v9_apply,
    val_main_call0_v8_apply, val_main_call0_c_1_apply, IntOp.cmpi_sge, IntOp.cmpi_sle]
  have e0 : (0#32 : BitVec 32).toInt = 0 := by decide
  have e255 : (255#32 : BitVec 32).toInt = 255 := by decide
  rw [e0, e255]
  omega

/-- The flag's operand loses its unit axis. -/
theorem reduces_S8192x1x1_d2 : Shape.Reduces S8192x1x1 [2] S8192x1 := by decide

/-- The in-range flag, the fold of the and over the unit axis from one: one, for a label in the class range. -/
theorem inRangeFlag_eq_one (lab : IVec S8192 32) (n : Fin 8192) (z : Fin 1)
    (h : 0 ≤ (lab (ix1 n)).toInt ∧ (lab (ix1 n)).toInt < 256) :
    val_main_call0_v12 (F := Ideal) lab (ix2 n z) = 1#1 := by
  unfold val_main_call0_v12
  rw [Host.reduce_eq_fold_single IntOp.andi _ _ Facts₀.reducesTo_S8192x1x1_S8192x1_d2 reduces_S8192x1x1_d2]
  rw [val_main_call0_c_3_apply]
  refine fold_andi_ones _ _ fun k => ?_
  exact inRangeOperand_eq_one lab _ h

/-- The reshape of the gathered column to a vector reads, at `n`, the column at `(n, 0)`. -/
theorem idx_main_v29_ix1 (n : Fin 8192) : idx_main_v29 (ix1 n) = ix2 n (0 : Fin 1) :=
  funext fun a => Fin.ext (by
    match a with
    | ⟨0, _⟩ => exact Nat.div_one _
    | ⟨1, _⟩ => rfl)

/-- The class a label in the class range names. -/
def ownClass (lab : IVec S8192 32) (n : Fin 8192) (h : 0 ≤ (lab (ix1 n)).toInt ∧ (lab (ix1 n)).toInt < 256) :
    Fin 256 :=
  ⟨(lab (ix1 n)).toInt.toNat, by omega⟩

/-- The label, read signed, is its class's number. -/
theorem ownClass_val (lab : IVec S8192 32) (n : Fin 8192)
    (h : 0 ≤ (lab (ix1 n)).toInt ∧ (lab (ix1 n)).toInt < 256) :
    (lab (ix1 n)).toInt = ((ownClass lab n h).val : Int) := by
  show _ = (((lab (ix1 n)).toInt.toNat : Nat) : Int)
  omega

/-- The gathered distance: the row's distance to the centroid of its own class (the clamp into `[0, 255]` does
    nothing on a label in the class range). -/
theorem gathered_eq (E : FVec Ideal S8192x2048 .f32) (lab : IVec S8192 32) (n : Fin 8192)
    (h : 0 ≤ (lab (ix1 n)).toInt ∧ (lab (ix1 n)).toInt < 256) :
    val_main_call0_v13 (F := Ideal) E lab (ix2 n (0 : Fin 1))
      = Cert.Triplet.dist E (fun n => lab (ix1 n)) n (ownClass lab n h) := by
  unfold val_main_call0_v13
  refine (Cert.GatherLast.gather_last_apply (by decide)
    Facts₀.gather_S8192x256_S8192x1x1_S8192x1_n_1_0_0_1_2_11_wf _ _ n (0 : Fin 1)).trans ?_
  rw [← dist_eq]
  refine congrArg _ (congrArg (ix2 n) (Fin.ext ?_))
  show min (val_main_call0_v5 (F := Ideal) lab (ix3 n (0 : Fin 1) (0 : Fin 1))).toInt.toNat (256 - 1)
    = (lab (ix1 n)).toInt.toNat
  rw [startIndex_eq lab _ h.1]
  show min (lab (ix1 n)).toInt.toNat (256 - 1) = _
  omega

/-- The positive term: the flag is one, so the select takes the gathered distance; and of the indicator-weighted
    distances exactly the own class's term is not zero. -/
theorem pos_eq (E : FVec Ideal S8192x2048 .f32) (lab : IVec S8192 32) (n : Fin 8192)
    (h : 0 ≤ (lab (ix1 n)).toInt ∧ (lab (ix1 n)).toInt < 256) :
    val_main_v29 (F := Ideal) E lab (ix1 n) = Cert.Triplet.pos E (fun n => lab (ix1 n)) n := by
  rw [val_main_v29_apply, idx_main_v29_ix1, val_main_v28_apply, inRangeFlag_eq_one lab n _ h, select_one,
    gathered_eq E lab n h]
  unfold Cert.Triplet.pos
  rw [Finset.sum_eq_single (ownClass lab n h)]
  · unfold Cert.Triplet.oh
    rw [if_pos (ownClass_val lab n h), mul_one]
  · intro c _ hc
    unfold Cert.Triplet.oh
    rw [if_neg, mul_zero]
    intro e
    refine hc (Fin.ext ?_)
    have := ownClass_val lab n h
    have e' : (lab (ix1 n)).toInt = (c.val : Int) := e
    omega
  · intro hh; exact absurd (Finset.mem_univ _) hh

/-! ## The negative term: the least distance over the other classes -/

/-- The class numbers broadcast along the rows read, at `(n, c)`, the number `c`. -/
theorem idx_main_v31_v33_ix2 (n : Fin 8192) (c : Fin 256) : idx_main_v31 (idx_main_v33 (ix2 n c)) = ix1 c :=
  funext fun a => Fin.ext (by match a with | ⟨0, _⟩ => rfl)

/-- The labels broadcast along the classes read, at `(n, c)`, the label of row `n`. -/
theorem idx_main_v32_v34_ix2 (n : Fin 8192) (c : Fin 256) : idx_main_v32 (idx_main_v34 (ix2 n c)) = ix1 n :=
  funext fun a => Fin.ext (by match a with | ⟨0, _⟩ => rfl)

/-- The masked distances: the word of plus infinity at the row's own class, the distance elsewhere. -/
theorem masked_eq (E : FVec Ideal S8192x2048 .f32) (lab : IVec S8192 32) (n : Fin 8192) (c : Fin 256) :
    val_main_v36 (F := Ideal) E lab (ix2 n c)
      = if (lab (ix1 n)).toInt = (c.val : Int) then Cert.Triplet.pinf
        else Cert.Triplet.dist E (fun n => lab (ix1 n)) n c := by
  rw [val_main_v36_apply, val_main_v35_apply, val_main_v33_apply, val_main_v31_apply, val_main_v30_apply,
    idx_main_v31_v33_ix2, val_main_v34_apply, val_main_v32_apply, idx_main_v32_v34_ix2, val_main_call1_v1_apply,
    val_main_call1_v0_apply, val_main_cst_6_apply, dist_eq]
  refine if_congr ?_ rfl rfl
  exact IntOp.cmpi_eq.trans (ofNat_eq_iff_toInt _ _ c.isLt)

/-- The distance table loses its class axis. -/
theorem reduces_S8192x256_d1 : Shape.Reduces S8192x256 [1] S8192 := by decide

/-- The negative term: the fold of the minimum, from plus infinity, of the masked distances over the classes. -/
theorem neg_eq (E : FVec Ideal S8192x2048 .f32) (lab : IVec S8192 32) (n : Fin 8192) :
    val_main_v37 (F := Ideal) E lab (ix1 n) = Cert.Triplet.neg E (fun n => lab (ix1 n)) n := by
  unfold val_main_v37
  rw [Host.reduce_eq_fold_single FloatOps.minimumf _ _ Facts₀.reducesTo_S8192x256_S8192_d1 reduces_S8192x256_d1]
  rw [val_main_cst_7_apply]
  unfold Cert.Triplet.neg
  refine Finset.fold_congr fun c _ => ?_
  rw [Function.comp_apply]
  refine Eq.trans ?_ (masked_eq E lab n c)
  exact congrArg _ (funext fun a => Fin.ext (by match a with | ⟨0, _⟩ => rfl | ⟨1, _⟩ => rfl))

/-! ## The losses and their mean -/

/-- The rows' losses: `max (pos − neg + margin) 0`. -/
theorem loss_eq (E : FVec Ideal S8192x2048 .f32) (lab : IVec S8192 32) (n : Fin 8192)
    (h : 0 ≤ (lab (ix1 n)).toInt ∧ (lab (ix1 n)).toInt < 256) :
    val_main_v41 (F := Ideal) E lab (ix1 n) = Cert.Triplet.loss E (fun n => lab (ix1 n)) n := by
  rw [val_main_v41_apply, val_main_v40_apply, val_main_v38_apply, pos_eq E lab n h, neg_eq,
    val_main_v39_apply, val_main_cst_8_apply, val_main_call2_v0_apply, val_main_call2_cst_apply]
  simp only [Ideal.ofBits_def, Ideal.ofBits_zero_f32, Ideal.maximumf_def, Ideal.subf_def, Ideal.addf_def]
  rfl

/-- The reference's result, for labels in `[0, 256)`. -/
theorem ref_eq (E : FVec Ideal S8192x2048 .f32) (lab : IVec S8192 32)
    (hlab : ∀ n : Fin 8192, 0 ≤ (lab (ix1 n)).toInt ∧ (lab (ix1 n)).toInt < 256) (i : S_.Idx) :
    Cert.ReferenceIdeal.ReadP.val_main_v43 (F := Ideal) E lab i
      = Ideal.div (Cert.Triplet.total E (fun n => lab (ix1 n))) (Ideal.ofBits .f32 0x46000000#32) := by
  -- the quotient of zero plus the sum of the losses over the rank-one index set, which is the sum over the rows
  rw [val_main_v43_apply, val_main_v42_apply, val_main_cst_9_apply, val_main_cst_10_apply]
  simp only [Ideal.ofBits_def, Ideal.ofBits_zero_f32, zero_add, Ideal.hostDivf_def]
  rw [Cert.LibVecScatter.sum_idx1]
  unfold Cert.Triplet.total
  refine congrArg (fun t => Ideal.div t _) (Finset.sum_congr rfl fun n _ => ?_)
  exact loss_eq E lab n (hlab n)

end Cert.ReferenceIdeal.RefVal

end
-- ==== Proof.Bridge.lean ====
/-
  THE TWO PROGRAMS MEET AT THE SPECIFICATION, on the extended reals.

  The kernels' program ends with the total loss times the word of `1/8192` (a power of two, exactly representable):
  the first kernel's fold gives the specification's centroids and squared norms, and on those the second kernel's fold
  gives the total.  The reference ends with the total divided by the word of `8192`.  On the extended reals dividing by
  a non-zero real is multiplying by its reciprocal, for every dividend, the infinities included: the two results agree.
  The labels reach the kernels as a column `[8192, 1]`, whose entry `(n, 0)` is label `n`.
-/
import proofs.«421815_j46883863003641_1_alg».proof.Proof.Result
import proofs.«421815_j46883863003641_1_alg».proof.Proof.Val0
import proofs.«421815_j46883863003641_1_alg».proof.Proof.Val1
import proofs.«421815_j46883863003641_1_alg».proof.Proof.RefVal
import Idealize.ShloMosaic.Lib.Pipeline.Value

noncomputable section

namespace Cert.Bridge

open Idealize.ShloMosaic Idealize.ShloMosaic.ValueIdx Cert.KernelIdeal Cert.KernelIdeal.Gen Cert.KernelIdeal.Fold Cert.Tiles

/-- The word of `8192.0` denotes the real 8192. -/
theorem word_8192 : Ideal.ofBits .f32 0x46000000#32 = ((8192 : ℝ) : EReal) := by
  simp [Ideal.ofBits, Ideal.ieee, -EReal.coe_mul]; norm_num

/-- The word the second kernel scales by denotes `1/8192`. -/
theorem word_inv_8192 : Ideal.ofBits .f32 0x39000000#32 = ((1 / 8192 : ℝ) : EReal) := by
  simp [Ideal.ofBits, Ideal.ieee, -EReal.coe_mul]; norm_num

/-- Dividing by the one word is multiplying by the other, for every extended real. -/
theorem div_8192 (x : EReal) : Ideal.div x (Ideal.ofBits .f32 0x46000000#32) = x * Ideal.ofBits .f32 0x39000000#32 := by
  rw [word_8192, word_inv_8192, Ideal.div_coe (by norm_num : (8192 : ℝ) ≠ 0)]

/-- The labels' column at `(n, 0)` is label `n`. -/
theorem col_apply (lab : IVec S8192 32) (n : Fin 8192) :
    shapeCast S8192x1 lab shapeCasts_S8192_S8192x1 (ix2 n (0 : Fin 1)) = lab (ix1 n) :=
  shapeCast_apply lab _ (ix2 n (0 : Fin 1)) (ix1 n) (by
    rw [Shape.rowMajor_val_two, Shape.rowMajor_val_one]; show n.val = n.val * 1 + 0; omega)

/-- The kernels' program's result is the total loss times the word of `1/8192`. -/
theorem kernel_result (E : Vec Ideal S8192x2048 .f32) (lab : IVec S8192 32) (i : S_.Idx) :
    Cert.KernelIdeal.Hand.resultF (F := Ideal) E lab i
      = Cert.Triplet.total E (fun n => lab (ix1 n)) * Ideal.ofBits .f32 0x39000000#32 := by
  unfold Cert.KernelIdeal.Hand.resultF
  rw [shapeCast_apply _ shapeCasts_S1x1_S_ i (ix2 (0 : Fin 1) (0 : Fin 1)) (by
    rw [Shape.rowMajor_val_two]
    have h := (S_.rowMajor i).isLt
    have h1 : S_.numel = 1 := by decide
    show 0 * 1 + 0 = _
    omega)]
  rw [Cert.KernelIdeal.Val1.out1_eq E _ _ _ (fun c d => Cert.KernelIdeal.Val0.cen0_eq E _ c d)
    (fun c => Cert.KernelIdeal.Val0.csq0_eq E _ c)]
  simp only [col_apply]

/-- For labels inside the class range the reference's result is the kernels' program's. -/
theorem reference_result (E : Vec Ideal S8192x2048 .f32) (lab : IVec S8192 32)
    (hlab : ∀ n : Fin 8192, 0 ≤ (lab (ix1 n)).toInt ∧ (lab (ix1 n)).toInt < 256) :
    Cert.ReferenceIdeal.ReadP.val_main_v43 (F := Ideal) E lab = Cert.KernelIdeal.Hand.resultF (F := Ideal) E lab := by
  funext i
  rw [Cert.ReferenceIdeal.RefVal.ref_eq E lab hlab i, kernel_result, div_8192]

end Cert.Bridge

end
-- ==== Proof.KR0Base.lean ====
/-
  THE FIRST KERNEL (class sums and counts, then centroids): what its runs are stated over.

  The kernel is called at 8 grid points, one per tile of 1024 rows.  Its windows: the row tile (window 0) and the
  label tile (window 1), fetched at every point; the centroids (window 2) and their squared norms (window 3), stored
  and written back at the last point only.  Between points it keeps two scratch buffers, the class sums and the class
  counts.  Two conditions on the point decide its control: "this is the first point" (the accumulators are reset) and
  "this is the last point" (the outputs are computed and stored).  Here: each window's block at a point read off the
  arrays as the region finds them, the two conditions in closed form over the grid, where the output windows are
  idle, the memrefs the body is called with, and the region's resting invariant with the two scratch buffers named.
-/
import proofs.«421815_j46883863003641_1_alg».proof.Proof.Gen.Kernel.Launch
import proofs.«421815_j46883863003641_1_alg».proof.Proof.Gen.Kernel.Skeleton
import proofs.«421815_j46883863003641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds the tile at every point, for any proof data over these arrays whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the label tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions on the grid point -/

/-- "This is the first point": the body's first conditional, as its scalar chain computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the body's second conditional. -/
abbrev cond0_1 (i : grid0.Coords) : Prop := k0_cond2 i = 1#1
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- The class sums' scratch buffer. -/
abbrev scM0_0 : Memref sig .tc .vmem S256x2048 .f32 := Memref.whole cc0_scratch0
/-- The class counts' scratch buffer. -/
abbrev scM0_1 : Memref sig .tc .vmem S1x256 .f32 := Memref.whole cc0_scratch1

/-! ## The resting invariant -/

/-- The core's scoped buffers that belong to the other kernel, each at some contents: they ride through this region
    untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The region's resting invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.Hand

end
-- ==== Proof.KR0RunA.lean ====
/-
  THE FIRST KERNEL'S BODY AT THE FIRST GRID POINT: both accumulators are reset to zero and then take the first tile's
  contribution; the two output windows are left as they were.
-/
import proofs.«421815_j46883863003641_1_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At the first point (the reset taken, the finalisation not): on whole memrefs, the two input tiles at their
    contents, the two idle outputs at contents handed back untouched, the two scratch buffers at anything, the body runs
    to the continuation with each scratch buffer holding its stores' pieces (the witness the run finds). -/
noncomputable def kernelRun0_A (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : cond0_0 i) (hc1 : ¬cond0_1 i)
    (x0 : Vec F S1024x2048 .f32) (x1 : Vec F S1024x1 .i32) :
    Σ' (LS0 : List (View.Piece (Elt F) S256x2048 .f32)), { LS1 : List (View.Piece (Elt F) S1x256 .f32) //
      ∀ (xi2 : Vec F S256x2048 .bf16) (xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KR0RunB.lean ====
/-
  THE FIRST KERNEL'S BODY AT A MIDDLE GRID POINT: both accumulators take the tile's contribution on top of what the
  point before left; the two output windows are left as they were.
-/
import proofs.«421815_j46883863003641_1_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At a middle point (neither conditional taken): the scratch buffers at what the point before left. -/
noncomputable def kernelRun0_B (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : ¬cond0_0 i) (hc1 : ¬cond0_1 i)
    (x0 : Vec F S1024x2048 .f32) (x1 : Vec F S1024x1 .i32) (xs0 : Vec F S256x2048 .f32) (xs1 : Vec F S1x256 .f32) :
    Σ' (LS0 : List (View.Piece (Elt F) S256x2048 .f32)), { LS1 : List (View.Piece (Elt F) S1x256 .f32) //
      ∀ (xi2 : Vec F S256x2048 .bf16) (xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KR0RunC.lean ====
/-
  THE FIRST KERNEL'S BODY AT THE LAST GRID POINT: both accumulators take the last tile's contribution, then the
  centroids (sums over counts) and their squared norms are stored into the two output windows.
-/
import proofs.«421815_j46883863003641_1_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At the last point (the reset not taken, the finalisation taken): the scratch buffers at what the point before
    left, the two outputs at anything; each output and each scratch buffer ends holding its stores' pieces. -/
noncomputable def kernelRun0_C (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole) (hc0 : ¬cond0_0 i) (hc1 : cond0_1 i)
    (x0 : Vec F S1024x2048 .f32) (x1 : Vec F S1024x1 .i32) (xs0 : Vec F S256x2048 .f32) (xs1 : Vec F S1x256 .f32) :
    Σ' (L2 : List (View.Piece (Elt F) S256x2048 .bf16)) (L3 : List (View.Piece (Elt F) S1x256 .f32)) (LS0 : List (View.Piece (Elt F) S256x2048 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__centroid_kernel i arg1 harg1 arg2 harg2 arg3 harg3 arg4 harg4 arg5 harg5 arg6 harg6) K } := by
  refine ⟨?_, ?_, ?_, ?_, fun E K => ?run⟩
  case run =>
    simp only [cc0__centroid_kernel_eq_skeleton]; unfold cc0__centroid_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KR0Pieces.lean ====
/-
  WHAT THE FIRST KERNEL'S STORES LEAVE, AS VALUES.  In each control case every buffer the body stores into is stored
  whole, so what it holds afterwards is the last store's value: for the two accumulators the tile's update of what
  they held (of zero, at the first point, where the reset comes first and is read back by the update), and at the last
  point for the two outputs the centroids and their squared norms computed from the accumulators just updated.
-/
import proofs.«421815_j46883863003641_1_alg».proof.Proof.KR0RunA
import proofs.«421815_j46883863003641_1_alg».proof.Proof.KR0RunB
import proofs.«421815_j46883863003641_1_alg».proof.Proof.KR0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S256x2048 .f32) (harg5 : arg5.IsWhole) (arg6 : Memref sig .tc .vmem S1x256 .f32) (harg6 : arg6.IsWhole)

/-! ## A middle point -/

theorem piece0_B_0 (hc0 : ¬cond0_0 i) (hc1 : ¬cond0_1 i) (x0 : Vec F S1024x2048 .f32) (x1 : Vec F S1024x1 .i32) (xs0 : Vec F S256x2048 .f32) (xs1 : Vec F S1x256 .f32) (f : arg5.view.ty.Contents (Elt F)) :
    arg5.view.read (Elt F) (arg5.view.writes (Elt F) f (kernelRun0_B c i arg1 harg1 arg2 harg2 arg3 harg3 arg4 harg4 arg5 harg5 arg6 harg6 hc0 hc1 x0 x1 xs0 xs1).1) = k0_pay5 x1 x0 xs0 := by
  rw [View.read_writes_eq_canon _ _ _ (fun y => View.cover_of_tiledL _ S256x2048.size (by sl_kernel_rfl) y)]
  unfold kernelRun0_B; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_B_1 (hc0 : ¬cond0_0 i) (hc1 : ¬cond0_1 i) (x0 : Vec F S1024x2048 .f32) (x1 : Vec F S1024x1 .i32) (xs0 : Vec F S256x2048 .f32) (xs1 : Vec F S1x256 .f32) (f : arg6.view.ty.Contents (Elt F)) :
    arg6.view.read (Elt F) (arg6.view.writes (Elt F) f (kernelRun0_B c i arg1 harg1 arg2 harg2 arg3 harg3 arg4 harg4 arg5 harg5 arg6 harg6 hc0 hc1 x0 x1 xs0 xs1).2.1) = k0_pay4 x1 xs1 := by
  rw [View.read_writes_eq_canon _ _ _ (fun y => View.cover_of_tiledL _ S1x256.size (by sl_kernel_rfl) y)]
  unfold kernelRun0_B; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

/-! ## The first point -/

theorem piece0_A_0 (hc0 : cond0_0 i) (hc1 : ¬cond0_1 i) (x0 : Vec F S1024x2048 .f32) (x1 : Vec F S1024x1 .i32) (f : arg5.view.ty.Contents (Elt F)) :
    arg5.view.read (Elt F) (arg5.view.writes (Elt F) f (kernelRun0_A c i arg1 harg1 arg2 harg2 arg3 harg3 arg4 harg4 arg5 harg5 arg6 harg6 hc0 hc1 x0 x1).1) = k0_pay5 x1 x0 k0_pay1 := by
  rw [View.read_writes_eq_canon _ _ _ (fun y => View.cover_of_tiledL _ S256x2048.size (by sl_kernel_rfl) y)]
  unfold kernelRun0_A; dsimp only; sl_unfold_words
  rw [View.canon_cons_unit_zero (S := S256x2048) hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

theorem piece0_A_1 (hc0 : cond0_0 i) (hc1 : ¬cond0_1 i) (x0 : Vec F S1024x2048 .f32) (x1 : Vec F S1024x1 .i32) (f : arg6.view.ty.Contents (Elt F)) :
    arg6.view.read (Elt F) (arg6.view.writes (Elt F) f (kernelRun0_A c i arg1 harg1 arg2 harg2 arg3 harg3 arg4 harg4 arg5 harg5 arg6 harg6 hc0 hc1 x0 x1).2.1) = k0_pay4 x1 k0_pay2 := by
  rw [View.read_writes_eq_canon _ _ _ (fun y => View.cover_of_tiledL _ S1x256.size (by sl_kernel_rfl) y)]
  unfold kernelRun0_A; dsimp only; sl_unfold_words
  rw [View.canon_cons_unit_zero (S := S1x256) hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

/-! ## The last point -/

theorem piece0_C_0 (hc0 : ¬cond0_0 i) (hc1 : cond0_1 i) (x0 : Vec F S1024x2048 .f32) (x1 : Vec F S1024x1 .i32) (xs0 : Vec F S256x2048 .f32) (xs1 : Vec F S1x256 .f32) (f : arg5.view.ty.Contents (Elt F)) :
    arg5.view.read (Elt F) (arg5.view.writes (Elt F) f (kernelRun0_C c i arg1 harg1 arg2 harg2 arg3 harg3 arg4 harg4 arg5 harg5 arg6 harg6 hc0 hc1 x0 x1 xs0 xs1).2.2.1) = k0_pay5 x1 x0 xs0 := by
  rw [View.read_writes_eq_canon _ _ _ (fun y => View.cover_of_tiledL _ S256x2048.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_C_1 (hc0 : ¬cond0_0 i) (hc1 : cond0_1 i) (x0 : Vec F S1024x2048 .f32) (x1 : Vec F S1024x1 .i32) (xs0 : Vec F S256x2048 .f32) (xs1 : Vec F S1x256 .f32) (f : arg6.view.ty.Contents (Elt F)) :
    arg6.view.read (Elt F) (arg6.view.writes (Elt F) f (kernelRun0_C c i arg1 harg1 arg2 harg2 arg3 harg3 arg4 harg4 arg5 harg5 arg6 harg6 hc0 hc1 x0 x1 xs0 xs1).2.2.2.1) = k0_pay4 x1 xs1 := by
  rw [View.read_writes_eq_canon _ _ _ (fun y => View.cover_of_tiledL _ S1x256.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2]

theorem piece0_C_2 (hc0 : ¬cond0_0 i) (hc1 : cond0_1 i) (x0 : Vec F S1024x2048 .f32) (x1 : Vec F S1024x1 .i32) (xs0 : Vec F S256x2048 .f32) (xs1 : Vec F S1x256 .f32) (f : arg3.view.ty.Contents (Elt F)) :
    arg3.view.read (Elt F) (arg3.view.writes (Elt F) f (kernelRun0_C c i arg1 harg1 arg2 harg2 arg3 harg3 arg4 harg4 arg5 harg5 arg6 harg6 hc0 hc1 x0 x1 xs0 xs1).1) = k0_pay7 (k0_pay4 x1 xs1) (k0_pay5 x1 x0 xs0) := by
  rw [View.read_writes_eq_canon _ _ _ (fun y => View.cover_of_tiledL _ S256x2048.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

theorem piece0_C_3 (hc0 : ¬cond0_0 i) (hc1 : cond0_1 i) (x0 : Vec F S1024x2048 .f32) (x1 : Vec F S1024x1 .i32) (xs0 : Vec F S256x2048 .f32) (xs1 : Vec F S1x256 .f32) (f : arg4.view.ty.Contents (Elt F)) :
    arg4.view.read (Elt F) (arg4.view.writes (Elt F) f (kernelRun0_C c i arg1 harg1 arg2 harg2 arg3 harg3 arg4 harg4 arg5 harg5 arg6 harg6 hc0 hc1 x0 x1 xs0 xs1).2.1) = k0_pay8 (k0_pay4 x1 xs1) (k0_pay5 x1 x0 xs0) := by
  rw [View.read_writes_eq_canon _ _ _ (fun y => View.cover_of_tiledL _ S1x256.size (by sl_kernel_rfl) y)]
  unfold kernelRun0_C; dsimp only; sl_unfold_words
  rw [View.canon_unit_zero hz2]
  simp only [View.readAt_eq_ld, harg1.read_unread, harg2.read_unread, harg5.read_unread, harg6.read_unread,
    View.ld_unit_zero (S := S1024x2048) hz2, View.ld_unit_zero (S := S1024x1) hz2, View.ld_unit_zero (S := S256x2048) hz2, View.ld_unit_zero (S := S1x256) hz2, View.readCov_unit_zero (S := S256x2048) _ hz2, View.readCov_unit_zero (S := S1x256) _ hz2]

end

end Cert.Kernel.Hand

end
-- ==== Proof.KFold.lean ====
/-
  WHAT THE TWO KERNELS ACCUMULATE, POINT BY POINT, AT ANY FLOAT INSTANCE.

  The first kernel walks the rows in 8 tiles of 1024.  It keeps two accumulators between tiles: the per-class sums of
  the rows seen so far (`[256, 2048]`) and the per-class counts (`[1, 256]`); both start from zero at the first tile, and
  after the last tile the centroids (sums over counts) and the centroids' squared norms are written out.
  The second kernel walks the same tiles with the centroids and their squared norms held fixed and keeps one
  accumulator, the sum of the rows' losses so far (`[1, 1]`), starting from zero; after the last tile it writes the
  accumulated sum times the reciprocal of the number of rows.
  The arithmetic of one tile is the body's own (its named values): here only the recursion over the tiles is stated,
  over any family of row tiles `Eb n` and label tiles `Lb n`.
-/
import proofs.«421815_j46883863003641_1_alg».proof.Proof.Gen.Kernel.Skeleton

noncomputable section

namespace Cert.Kernel.Fold

open Idealize.ShloMosaic Idealize.SL.Sem Cert.Kernel.Gen

variable {F : FTy → Type} [FloatOps F]

/-- The first kernel's two accumulators after tile `n`: the class sums, then the class counts. -/
def acc0 (Eb : ℕ → Vec F S1024x2048 .f32) (Lb : ℕ → Vec F S1024x1 .i32) :
    ℕ → Vec F S256x2048 .f32 × Vec F S1x256 .f32
  | 0 => (k0_pay5 (Lb 0) (Eb 0) k0_pay1, k0_pay4 (Lb 0) k0_pay2)
  | n + 1 => (k0_pay5 (Lb (n + 1)) (Eb (n + 1)) (acc0 Eb Lb n).1, k0_pay4 (Lb (n + 1)) (acc0 Eb Lb n).2)

/-- The centroids the first kernel writes after the last tile. -/
def cen0 (Eb : ℕ → Vec F S1024x2048 .f32) (Lb : ℕ → Vec F S1024x1 .i32) : Vec F S256x2048 .bf16 :=
  k0_pay7 (acc0 Eb Lb 7).2 (acc0 Eb Lb 7).1

/-- The centroids' squared norms it writes after the last tile. -/
def csq0 (Eb : ℕ → Vec F S1024x2048 .f32) (Lb : ℕ → Vec F S1024x1 .i32) : Vec F S1x256 .f32 :=
  k0_pay8 (acc0 Eb Lb 7).2 (acc0 Eb Lb 7).1

/-- The second kernel's accumulator after tile `n`: the sum of the losses of the rows seen so far. -/
def acc1 (Eb : ℕ → Vec F S1024x2048 .f32) (Lb : ℕ → Vec F S1024x1 .i32) (cen : Vec F S256x2048 .bf16)
    (csq : Vec F S1x256 .f32) : ℕ → Vec F S1x1 .f32
  | 0 => k1_pay1 (k1_pay4 (Eb 0) (Lb 0) cen csq) (Scalar.ofBits .f32 0x00000000#32) k1_pay3
  | n + 1 => k1_pay1 (k1_pay4 (Eb (n + 1)) (Lb (n + 1)) cen csq) (Scalar.ofBits .f32 0x00000000#32)
      (acc1 Eb Lb cen csq n)

/-- What the second kernel writes after the last tile: the accumulated sum, scaled. -/
def out1 (Eb : ℕ → Vec F S1024x2048 .f32) (Lb : ℕ → Vec F S1024x1 .i32) (cen : Vec F S256x2048 .bf16)
    (csq : Vec F S1x256 .f32) : Vec F S1x1 .f32 :=
  k1_pay2 (acc1 Eb Lb cen csq 7)

end Cert.Kernel.Fold

end
-- ==== Proof.KR0Frame.lean ====
/-
  THE FIRST KERNEL'S REGION: its proof data and its body obligation, at any float instance.

  The proof data say, for the arrays as the region finds them: each input window's staging buffer holds its tile;
  before grid point `n + 1` the two scratch buffers hold the class sums and counts accumulated over tiles `0 … n`
  (the fold `acc0` over the tiles of the embeddings and of the labels); and what the last point stores into the two
  output windows are the centroids and squared norms computed from the accumulators after the last tile.  The body
  obligation is then the body's run in the point's control case, the values its stores leave read as the fold's next
  step.
-/
import proofs.«421815_j46883863003641_1_alg».proof.Proof.KR0Pieces
import proofs.«421815_j46883863003641_1_alg».proof.Proof.KFold
import proofs.«421815_j46883863003641_1_alg».proof.Proof.Tiles

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Fold Cert.Tiles

section Region
variable (V : (c : Dev nD) → (b : Ref sig .tc) → Buf (Elt F) ((c : Thread nD τ).loc b))

/-- The embeddings and the labels (as a column) as the region finds them. -/
abbrev Earr0 (c : Dev nD) : Vec F S8192x2048 .f32 := V c main_arg0
abbrev Larr0 (c : Dev nD) : Vec F S8192x1 .i32 := V c main_v0

/-- The two input windows' block indices: tile `t`, column block 0. -/
theorem idx0_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Window 0's block at point `t` is tile `t` of the embeddings. -/
theorem iblk0_0_eq (c : Dev nD) (t : Fin cfg0.N) : iblk0 V c 0 t = tile (Earr0 V c) t.val := by
  obtain ⟨e0, e1, -, -⟩ := idx0_in t
  have hN : t.val < 8 := lt_of_lt_of_eq t.isLt (show cfg0.N = 8 from N_0)
  funext j
  show V c main_arg0 (((cfg0.win 0).blk t).view.emb j) = V c main_arg0 _
  refine congrArg (V c main_arg0) (funext fun a => Fin.ext ?_)
  match a with
  | ⟨0, _⟩ => show win0_0.index t (0 : Fin 2) * 1024 + 1 * (j 0).val = (t.val % 8) * 1024 + (j 0).val; rw [e0, Nat.mod_eq_of_lt hN]; omega
  | ⟨1, _⟩ => show win0_0.index t (1 : Fin 2) * 2048 + 1 * (j 1).val = (j 1).val; rw [e1]; omega

/-- Window 1's block at point `t` is tile `t` of the labels. -/
theorem iblk0_1_eq (c : Dev nD) (t : Fin cfg0.N) : iblk0 V c 1 t = tile (Larr0 V c) t.val := by
  obtain ⟨-, -, e0, e1⟩ := idx0_in t
  have hN : t.val < 8 := lt_of_lt_of_eq t.isLt (show cfg0.N = 8 from N_0)
  funext j
  show V c main_v0 (((cfg0.win 1).blk t).view.emb j) = V c main_v0 _
  refine congrArg (V c main_v0) (funext fun a => Fin.ext ?_)
  match a with
  | ⟨0, _⟩ => show win0_1.index t (0 : Fin 2) * 1024 + 1 * (j 0).val = (t.val % 8) * 1024 + (j 0).val; rw [e0, Nat.mod_eq_of_lt hN]; omega
  | ⟨1, _⟩ => show win0_1.index t (1 : Fin 2) * 1 + 1 * (j 1).val = (j 1).val; rw [e1]; omega

/-- The two accumulators after tile `n`. -/
abbrev sc0 (c : Dev nD) (n : ℕ) : Vec F S256x2048 .f32 × Vec F S1x256 .f32 :=
  acc0 (tile (Earr0 V c)) (tile (Larr0 V c)) n

/-- After a tile that is not the first: the tile's update of what the tile before left. -/
theorem sc0_pos (c : Dev nD) (n : ℕ) (hz : n ≠ 0) :
    sc0 V c n = (k0_pay5 (tile (Larr0 V c) n) (tile (Earr0 V c) n) (sc0 V c (n - 1)).1, k0_pay4 (tile (Larr0 V c) n) (sc0 V c (n - 1)).2) := by
  cases n with
  | zero => exact absurd rfl hz
  | succ n => rfl

/-- The region's invariant before point `n`: before the first point the resting one (the scratch buffers at anything);
    afterwards the two scratch buffers at the accumulators after the tile before, the other kernel's buffers at
    anything, the generator register at some state. -/
def PhiS0 (c : Dev nD) : ℕ → sProp 𝕄
  | 0 => Pipeline.ΦA spec0 c
  | n + 1 => iprop(iprop(owns (c : Thread nD τ) scM0_0 fullShare (sc0 V c n).1 ∗ owns (c : Thread nD τ) scM0_1 fullShare (sc0 V c n).2 ∗ others0 c) ∗ (∃ r, prngReg c r))

theorem PhiS0_zero (c : Dev nD) (n : ℕ) (hz : n = 0) : PhiS0 V c n = Pipeline.ΦA spec0 c := by subst hz; rfl
theorem PhiS0_succ (c : Dev nD) (n : ℕ) :
    PhiS0 V c (n + 1) = iprop(iprop(owns (c : Thread nD τ) scM0_0 fullShare (sc0 V c n).1 ∗ owns (c : Thread nD τ) scM0_1 fullShare (sc0 V c n).2 ∗ others0 c) ∗ (∃ r, prngReg c r)) := rfl
theorem PhiS0_pos (c : Dev nD) (n : ℕ) (hz : n ≠ 0) :
    PhiS0 V c n = iprop(iprop(owns (c : Thread nD τ) scM0_0 fullShare (sc0 V c (n - 1)).1 ∗ owns (c : Thread nD τ) scM0_1 fullShare (sc0 V c (n - 1)).2 ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => cen0 (tile (Earr0 V c)) (tile (Larr0 V c))
    | ⟨3, _⟩ => csq0 (tile (Earr0 V c)) (tile (Larr0 V c))
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = cen0 (tile (Earr0 V c)) (tile (Larr0 V c)) := by dsimp only [dat0]
theorem after0_3 (c : Dev nD) (t : Fin cfg0.N) : (dat0 V c).after 3 t = csq0 (tile (Earr0 V c)) (tile (Larr0 V c)) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: by the point's control case, that case's run; the invariant hands it the scratch buffers at
    what the point before left (at anything at the first point) and takes them back at this point's accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h0 : t.val = 0
  · -- the first point
    have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1),
      Dat.leavesExact_idle (dat0 V c) 3 t (idleAt0_3 t hc1) (noFlush0_3 t hc1)]
    rw [PhiS0_zero V c _ h0, PhiA0_eq]
    iintro ⟨⟨⟨HS0, HS1, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro
          exact (piece0_A_0 _ _ _ _ _ _ _ _ _ _ _ _ _ _ hc0 hc1 _ _ _).trans (by rw [iblk0_0_eq, iblk0_1_eq, h0]; rfl)
        isplitl [HS1]
        · unfold owns; iexists _; isplitr
          swap; · iexact HS1
          ipureintro
          exact (piece0_A_1 _ _ _ _ _ _ _ _ _ _ _ _ _ _ hc0 hc1 _ _ _).trans (by rw [iblk0_1_eq, h0]; rfl)
        iexact Hoth
      iexact Hg
    isplitl [Ho]; · iexact Ho
    isplitl [H0]; · iexact H0
    isplitl [H1]; · iexact H1
    isplitl [H2]; · iexists _; iexact H2
    iexists _; iexact H3
  · have hc0 : ¬cond0_0 (grid0.coords t) := fun h => h0 ((hcond0_0 t).mp h)
    rw [PhiS0_pos V c _ h0]
    by_cases h7 : t.val = 7
    · -- the last point
      have hc1 : cond0_1 (grid0.coords t) := (hcond0_1 t).mpr h7
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) (sc0 V c (t.val - 1)).1 (sc0 V c (t.val - 1)).2).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro
            exact (piece0_C_0 _ _ _ _ _ _ _ _ _ _ _ _ _ _ hc0 hc1 _ _ _ _ _).trans (by rw [sc0_pos V c _ h0, iblk0_0_eq, iblk0_1_eq])
          isplitl [HS1]
          · unfold owns; iexists _; isplitr
            swap; · iexact HS1
            ipureintro
            exact (piece0_C_1 _ _ _ _ _ _ _ _ _ _ _ _ _ _ hc0 hc1 _ _ _ _ _).trans (by rw [sc0_pos V c _ h0, iblk0_1_eq])
          iexact Hoth
        iexact Hg
      isplitl [Ho]; · iexact Ho
      isplitl [H0]; · iexact H0
      isplitl [H1]; · iexact H1
      isplitl [H2]
      · unfold owns; iexists _; isplitr
        swap; · iexact H2
        ipureintro
        exact (piece0_C_2 _ _ _ _ _ _ _ _ _ _ _ _ _ _ hc0 hc1 _ _ _ _ _).trans (by
          rw [iblk0_0_eq, iblk0_1_eq, h7]; rfl)
      unfold owns; iexists _; isplitr
      swap; · iexact H3
      ipureintro
      exact (piece0_C_3 _ _ _ _ _ _ _ _ _ _ _ _ _ _ hc0 hc1 _ _ _ _ _).trans (by
        rw [iblk0_0_eq, iblk0_1_eq, h7]; rfl)
    · -- a middle point
      have hc1 : ¬cond0_1 (grid0.coords t) := fun h => h7 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) (sc0 V c (t.val - 1)).1 (sc0 V c (t.val - 1)).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro
            exact (piece0_B_0 _ _ _ _ _ _ _ _ _ _ _ _ _ _ hc0 hc1 _ _ _ _ _).trans (by rw [sc0_pos V c _ h0, iblk0_0_eq, iblk0_1_eq])
          isplitl [HS1]
          · unfold owns; iexists _; isplitr
            swap; · iexact HS1
            ipureintro
            exact (piece0_B_1 _ _ _ _ _ _ _ _ _ _ _ _ _ _ hc0 hc1 _ _ _ _ _).trans (by rw [sc0_pos V c _ h0, iblk0_1_eq])
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the resting one back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 8 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region

end Cert.Kernel.Hand

end
-- ==== Proof.KR1Base.lean ====
/-
  THE SECOND KERNEL (distances to the centroids, the rows' losses, their sum): what its runs are stated over.

  The kernel is called at 8 grid points, one per tile of 1024 rows.  Its windows: the row tile (window 0) and the
  label tile (window 1), fetched at every point; the centroids (window 2) and their squared norms (window 3), whole
  arrays fetched once at the first point and resident afterwards; the result (window 4, one element), stored and
  written back at the last point only.  Between points it keeps one scratch buffer, the sum of the losses so far.
  Two conditions on the point decide its control: "this is the first point" (the accumulator is reset) and "this is
  the last point" (the scaled sum is stored).  Here: each window's block at a point read off the arrays as the region
  finds them, the two conditions in closed form over the grid, where the output window is idle, the memrefs the body
  is called with, and the region's resting invariant with the scratch buffer named.
-/
import proofs.«421815_j46883863003641_1_alg».proof.Proof.Gen.Kernel.Launch
import proofs.«421815_j46883863003641_1_alg».proof.Proof.Gen.Kernel.Skeleton
import proofs.«421815_j46883863003641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds the tile at every point, for any proof data over these arrays whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The centroids' staging buffer holds the whole table at every point: fetched at the first, the block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the squared norms. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions on the grid point -/

/-- "This is the first point": the body's first conditional, as its scalar chain computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the body's second conditional. -/
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the output is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The loss accumulator's scratch buffer. -/
abbrev scM1_0 : Memref sig .tc .vmem S1x1 .f32 := Memref.whole cc1_scratch0

/-! ## The resting invariant -/

/-- The core's scoped buffers that belong to the other kernel, each at some contents, beside the state `S` of this
    kernel's own scratch buffer: the former ride through this region untouched. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

/-- The region's resting invariant with the scratch buffer as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Cert.Kernel.Hand

end
-- ==== Proof.KR1RunA.lean ====
/-
  THE SECOND KERNEL'S BODY AT THE FIRST GRID POINT: the loss accumulator is reset to zero and then takes the first
  tile's losses; the output window is left as it was.
-/
import proofs.«421815_j46883863003641_1_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At the first point (the reset taken, the final store not): the four inputs at their contents, the idle output at
    contents handed back untouched, the scratch buffer at anything; it ends holding its stores' pieces. -/
noncomputable def kernelRun1_A (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1024x2048 .f32) (x1 : Vec F S1024x1 .i32) (x2 : Vec F S256x2048 .bf16) (x3 : Vec F S1x256 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, fun xi4 E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.KR1RunB.lean ====
/-
  THE SECOND KERNEL'S BODY AT A MIDDLE GRID POINT: the loss accumulator takes the tile's losses on top of what the
  point before left; the output window is left as it was.
-/
import proofs.«421815_j46883863003641_1_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At a middle point (neither conditional taken): the scratch buffer at what the point before left. -/
noncomputable def kernelRun1_B (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1024x2048 .f32) (x1 : Vec F S1024x1 .i32) (x2 : Vec F S256x2048 .bf16) (x3 : Vec F S1x256 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, fun xi4 E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.KR1RunC.lean ====
/-
  THE SECOND KERNEL'S BODY AT THE LAST GRID POINT: the loss accumulator takes the last tile's losses, then the
  accumulated sum times the word of 1/8192 is stored into the output window.
-/
import proofs.«421815_j46883863003641_1_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At the last point (the reset not taken, the final store taken): the scratch buffer at what the point before left,
    the output at anything; both end holding their stores' pieces. -/
noncomputable def kernelRun1_C (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1024x2048 .f32) (x1 : Vec F S1024x1 .i32) (x2 : Vec F S256x2048 .bf16) (x3 : Vec F S1x256 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__distance_kernel i arg1 harg1 arg2 harg2 arg3 harg3 arg4 harg4 arg5 harg5 arg6 harg6) K } := by
  refine ⟨?_, ?_, fun E K => ?run⟩
  case run =>
    simp only [cc1__distance_kernel_eq_skeleton]; unfold cc1__distance_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KR1Pieces.lean ====
/-
  WHAT THE SECOND KERNEL'S STORES LEAVE, AS VALUES.  The accumulator is stored whole at every point: the tile's losses
  added to what it held (to zero at the first point, where the reset comes first and is read back); at the last point
  the output is the accumulator just updated, scaled.
-/
import proofs.«421815_j46883863003641_1_alg».proof.Proof.KR1RunA
import proofs.«421815_j46883863003641_1_alg».proof.Proof.KR1RunB
import proofs.«421815_j46883863003641_1_alg».proof.Proof.KR1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

section
variable (c : Dev nD) (i : grid1.Coords) (arg1 : Memref sig .tc .vmem S1024x2048 .f32) (harg1 : arg1.IsWhole) (arg2 : Memref sig .tc .vmem S1024x1 .i32) (harg2 : arg2.IsWhole) (arg3 : Memref sig .tc .vmem S256x2048 .bf16) (harg3 : arg3.IsWhole) (arg4 : Memref sig .tc .vmem S1x256 .f32) (harg4 : arg4.IsWhole) (arg5 : Memref sig .tc .vmem S1x1 .f32) (harg5 : arg5.IsWhole) (arg6 : Memref sig .tc .vmem S1x1 .f32) (harg6 : arg6.IsWhole)

theorem piece1_B (hc0 : ¬cond1_0 i) (hc1 : ¬cond1_1 i) (x0 : Vec F S1024x2048 .f32) (x1 : Vec F S1024x1 .i32) (x2 : Vec F S256x2048 .bf16) (x3 : Vec F S1x256 .f32) (xs0 : Vec F S1x1 .f32) (f : arg6.view.ty.Contents (Elt F)) :
    arg6.view.read (Elt F) (arg6.view.writes (Elt F) f (kernelRun1_B c i arg1 harg1 arg2 harg2 arg3 harg3 arg4 harg4 arg5 harg5 arg6 harg6 hc0 hc1 x0 x1 x2 x3 xs0).1) = k1_pay1 (k1_pay4 x0 x1 x2 x3) (Scalar.ofBits .f32 0x00000000#32) xs0 := by
  rw [View.read_writes_eq_canon _ _ _ (fun y => View.cover_of_tiledL _ S1x1.size (by sl_kernel_rfl) y)]
  unfold kernelRun1_B; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_A (hc0 : cond1_0 i) (hc1 : ¬cond1_1 i) (x0 : Vec F S1024x2048 .f32) (x1 : Vec F S1024x1 .i32) (x2 : Vec F S256x2048 .bf16) (x3 : Vec F S1x256 .f32) (f : arg6.view.ty.Contents (Elt F)) :
    arg6.view.read (Elt F) (arg6.view.writes (Elt F) f (kernelRun1_A c i arg1 harg1 arg2 harg2 arg3 harg3 arg4 harg4 arg5 harg5 arg6 harg6 hc0 hc1 x0 x1 x2 x3).1) = k1_pay1 (k1_pay4 x0 x1 x2 x3) (Scalar.ofBits .f32 0x00000000#32) k1_pay3 := by
  rw [View.read_writes_eq_canon _ _ _ (fun y => View.cover_of_tiledL _ S1x1.size (by sl_kernel_rfl) y)]
  unfold kernelRun1_A; dsimp only; sl_unfold_words
  rw [View.canon_cons_unit_zero (S := S1x1) hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_C_s (hc0 : ¬cond1_0 i) (hc1 : cond1_1 i) (x0 : Vec F S1024x2048 .f32) (x1 : Vec F S1024x1 .i32) (x2 : Vec F S256x2048 .bf16) (x3 : Vec F S1x256 .f32) (xs0 : Vec F S1x1 .f32) (f : arg6.view.ty.Contents (Elt F)) :
    arg6.view.read (Elt F) (arg6.view.writes (Elt F) f (kernelRun1_C c i arg1 harg1 arg2 harg2 arg3 harg3 arg4 harg4 arg5 harg5 arg6 harg6 hc0 hc1 x0 x1 x2 x3 xs0).2.1) = k1_pay1 (k1_pay4 x0 x1 x2 x3) (Scalar.ofBits .f32 0x00000000#32) xs0 := by
  rw [View.read_writes_eq_canon _ _ _ (fun y => View.cover_of_tiledL _ S1x1.size (by sl_kernel_rfl) y)]
  unfold kernelRun1_C; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

theorem piece1_C_4 (hc0 : ¬cond1_0 i) (hc1 : cond1_1 i) (x0 : Vec F S1024x2048 .f32) (x1 : Vec F S1024x1 .i32) (x2 : Vec F S256x2048 .bf16) (x3 : Vec F S1x256 .f32) (xs0 : Vec F S1x1 .f32) (f : arg5.view.ty.Contents (Elt F)) :
    arg5.view.read (Elt F) (arg5.view.writes (Elt F) f (kernelRun1_C c i arg1 harg1 arg2 harg2 arg3 harg3 arg4 harg4 arg5 harg5 arg6 harg6 hc0 hc1 x0 x1 x2 x3 xs0).1) = k1_pay2 (k1_pay1 (k1_pay4 x0 x1 x2 x3) (Scalar.ofBits .f32 0x00000000#32) xs0) := by
  rw [View.read_writes_eq_canon _ _ _ (fun y => View.cover_of_tiledL _ S1x1.size (by sl_kernel_rfl) y)]
  unfold kernelRun1_C; dsimp only; sl_unfold_words
  rw [View.canon_unit_zero hz2']
  simp only [View.readAt_eq_ld, harg1.read_unread, harg2.read_unread, harg3.read_unread, harg4.read_unread, harg5.read_unread, harg6.read_unread,
    View.ld_unit_zero (S := S1024x2048) hz2', View.ld_unit_zero (S := S1024x1) hz2', View.ld_unit_zero (S := S256x2048) hz2', View.ld_unit_zero (S := S1x256) hz2', View.ld_unit_zero (S := S1x1) hz2',
    View.readCov_unit_zero (S := S1x1) _ hz2']

end

end Cert.Kernel.Hand

end
-- ==== Proof.KR1Frame.lean ====
/-
  THE SECOND KERNEL'S REGION: its proof data and its body obligation, at any float instance.

  The proof data say, for the arrays as the region finds them: the row and label windows' staging buffers hold their
  tiles, the centroid and squared-norm windows' the whole arrays; before grid point `n + 1` the scratch buffer holds
  the losses summed over tiles `0 … n` (the fold `acc1`); and what the last point stores into the output window is
  the sum after the last tile, scaled.  The body obligation is the body's run in the point's control case, the value
  its store leaves read as the fold's next step.
-/
import proofs.«421815_j46883863003641_1_alg».proof.Proof.KR1Pieces
import proofs.«421815_j46883863003641_1_alg».proof.Proof.KFold
import proofs.«421815_j46883863003641_1_alg».proof.Proof.Tiles

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Fold Cert.Tiles

section Region
variable (V : (c : Dev nD) → (b : Ref sig .tc) → Buf (Elt F) ((c : Thread nD τ).loc b))

/-- The embeddings, the labels (as a column), the centroids and their squared norms as the region finds them. -/
abbrev Earr1 (c : Dev nD) : Vec F S8192x2048 .f32 := V c main_arg0
abbrev Larr1 (c : Dev nD) : Vec F S8192x1 .i32 := V c main_v0
abbrev Carr1 (c : Dev nD) : Vec F S256x2048 .bf16 := V c main_v1_0
abbrev Qarr1 (c : Dev nD) : Vec F S1x256 .f32 := V c main_v1_1

/-- The input windows' block indices: tile `t` for the rows and labels, block 0 for the resident arrays. -/
theorem idx1_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)

theorem iblk1_0_eq (c : Dev nD) (t : Fin cfg1.N) : iblk1 V c 0 t = tile (Earr1 V c) t.val := by
  obtain ⟨e0, e1, -⟩ := idx1_in t
  have hN : t.val < 8 := lt_of_lt_of_eq t.isLt (show cfg1.N = 8 from N_1)
  funext j
  show V c main_arg0 (((cfg1.win 0).blk t).view.emb j) = V c main_arg0 _
  refine congrArg (V c main_arg0) (funext fun a => Fin.ext ?_)
  match a with
  | ⟨0, _⟩ => show win1_0.index t (0 : Fin 2) * 1024 + 1 * (j 0).val = (t.val % 8) * 1024 + (j 0).val; rw [e0, Nat.mod_eq_of_lt hN]; omega
  | ⟨1, _⟩ => show win1_0.index t (1 : Fin 2) * 2048 + 1 * (j 1).val = (j 1).val; rw [e1]; omega

theorem iblk1_1_eq (c : Dev nD) (t : Fin cfg1.N) : iblk1 V c 1 t = tile (Larr1 V c) t.val := by
  obtain ⟨-, -, e0, e1, -⟩ := idx1_in t
  have hN : t.val < 8 := lt_of_lt_of_eq t.isLt (show cfg1.N = 8 from N_1)
  funext j
  show V c main_v0 (((cfg1.win 1).blk t).view.emb j) = V c main_v0 _
  refine congrArg (V c main_v0) (funext fun a => Fin.ext ?_)
  match a with
  | ⟨0, _⟩ => show win1_1.index t (0 : Fin 2) * 1024 + 1 * (j 0).val = (t.val % 8) * 1024 + (j 0).val; rw [e0, Nat.mod_eq_of_lt hN]; omega
  | ⟨1, _⟩ => show win1_1.index t (1 : Fin 2) * 1 + 1 * (j 1).val = (j 1).val; rw [e1]; omega

theorem iblk1_2_eq (c : Dev nD) (t : Fin cfg1.N) : iblk1 V c 2 t = Carr1 V c := by
  obtain ⟨-, -, -, -, e0, e1, -⟩ := idx1_in t
  funext j
  show V c main_v1_0 (((cfg1.win 2).blk t).view.emb j) = V c main_v1_0 j
  refine congrArg (V c main_v1_0) (funext fun a => Fin.ext ?_)
  match a with
  | ⟨0, _⟩ => show win1_2.index t (0 : Fin 2) * 256 + 1 * (j 0).val = (j 0).val; rw [e0]; omega
  | ⟨1, _⟩ => show win1_2.index t (1 : Fin 2) * 2048 + 1 * (j 1).val = (j 1).val; rw [e1]; omega

theorem iblk1_3_eq (c : Dev nD) (t : Fin cfg1.N) : iblk1 V c 3 t = Qarr1 V c := by
  obtain ⟨-, -, -, -, -, -, e0, e1⟩ := idx1_in t
  funext j
  show V c main_v1_1 (((cfg1.win 3).blk t).view.emb j) = V c main_v1_1 j
  refine congrArg (V c main_v1_1) (funext fun a => Fin.ext ?_)
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- The loss accumulator after tile `n`. -/
abbrev sc1 (c : Dev nD) (n : ℕ) : Vec F S1x1 .f32 :=
  acc1 (tile (Earr1 V c)) (tile (Larr1 V c)) (Carr1 V c) (Qarr1 V c) n

theorem sc1_pos (c : Dev nD) (n : ℕ) (hz : n ≠ 0) :
    sc1 V c n = k1_pay1 (k1_pay4 (tile (Earr1 V c) n) (tile (Larr1 V c) n) (Carr1 V c) (Qarr1 V c)) (Scalar.ofBits .f32 0x00000000#32) (sc1 V c (n - 1)) := by
  cases n with
  | zero => exact absurd rfl hz
  | succ n => rfl

/-- The region's invariant before point `n`: before the first point the resting one; afterwards the scratch buffer at
    the accumulator after the tile before, the other kernel's buffers at anything, the generator register at some state. -/
def PhiS1 (c : Dev nD) : ℕ → sProp 𝕄
  | 0 => Pipeline.ΦA spec1 c
  | n + 1 => iprop(others1 c (owns (c : Thread nD τ) scM1_0 fullShare (sc1 V c n)) ∗ (∃ r, prngReg c r))

theorem PhiS1_zero (c : Dev nD) (n : ℕ) (hz : n = 0) : PhiS1 V c n = Pipeline.ΦA spec1 c := by subst hz; rfl
theorem PhiS1_succ (c : Dev nD) (n : ℕ) :
    PhiS1 V c (n + 1) = iprop(others1 c (owns (c : Thread nD τ) scM1_0 fullShare (sc1 V c n)) ∗ (∃ r, prngReg c r)) := rfl
theorem PhiS1_pos (c : Dev nD) (n : ℕ) (hz : n ≠ 0) :
    PhiS1 V c n = iprop(others1 c (owns (c : Thread nD τ) scM1_0 fullShare (sc1 V c (n - 1))) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (tile (Earr1 V c)) (tile (Larr1 V c)) (Carr1 V c) (Qarr1 V c)
  Φ t := PhiS1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (tile (Earr1 V c)) (tile (Larr1 V c)) (Carr1 V c) (Qarr1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by the point's control case, that case's run; the invariant hands it the scratch buffer at
    what the point before left (at anything at the first point) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 8 := lt_of_lt_of_eq t.isLt (show cfg1.N = 8 from N_1)
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [PhiS1_zero V c _ h0, PhiA1_eq]
    unfold others1
    iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ hc0 hc1 (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [A1 A2 A3 A4 A5 A6 A7 A8 HS0 Hg]
    · isplitl [A1 A2 A3 A4 A5 A6 A7 A8 HS0]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro
        exact (piece1_A _ _ _ _ _ _ _ _ _ _ _ _ _ _ hc0 hc1 _ _ _ _ _).trans (by rw [iblk1_0_eq, iblk1_1_eq, iblk1_2_eq, iblk1_3_eq, h0]; rfl)
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    rw [PhiS1_pos V c _ h0]
    unfold others1
    by_cases h7 : t.val = 7
    · -- the last point
      have hc1 : cond1_1 (grid1.coords t) := (hcond1_1 t).mpr h7
      rw [show (dat1 V c).leavesExact 4 t = owns (c : Thread nD τ) (ms1_4 t) fullShare ((dat1 V c).after 4 t) from by
        unfold Dat.leavesExact; rw [liveAt1_4 t hc1], after1_4]
      iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) (sc1 V c (t.val - 1))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro
          exact (piece1_C_s _ _ _ _ _ _ _ _ _ _ _ _ _ _ hc0 hc1 _ _ _ _ _ _).trans (by rw [sc1_pos V c _ h0, iblk1_0_eq, iblk1_1_eq, iblk1_2_eq, iblk1_3_eq])
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (piece1_C_4 _ _ _ _ _ _ _ _ _ _ _ _ _ _ hc0 hc1 _ _ _ _ _ _).trans (by
        rw [iblk1_0_eq, iblk1_1_eq, iblk1_2_eq, iblk1_3_eq, h7]; rfl)
    · -- a middle point
      have hc1 : ¬cond1_1 (grid1.coords t) := fun h => h7 ((hcond1_1 t).mp h)
      rw [Dat.leavesExact_idle (dat1 V c) 4 t (idleAt1_4 t hc1) (noFlush1_4 t hc1)]
      iintro ⟨⟨⟨A1, A2, A3, A4, A5, A6, A7, A8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) (sc1 V c (t.val - 1))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro
          exact (piece1_B _ _ _ _ _ _ _ _ _ _ _ _ _ _ hc0 hc1 _ _ _ _ _ _).trans (by rw [sc1_pos V c _ h0, iblk1_0_eq, iblk1_1_eq, iblk1_2_eq, iblk1_3_eq])
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After the last point the invariant gives the resting one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 8 := N_1; omega), PhiA1_eq]
  unfold others1
  iintro ⟨⟨A1, A2, A3, A4, A5, A6, A7, A8, HS0⟩, Hg⟩
  isplitl [A1 A2 A3 A4 A5 A6 A7 A8 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS0
  iexact Hg

end Region

end Cert.Kernel.Hand

end
-- ==== Proof.KAssembly.lean ====
/-
  THE WHOLE PROGRAM'S RUN, at any float instance: @main is a reshape of the labels into a column, the first kernel's
  region, the second kernel's region, and a reshape of the one-element result into a scalar.

  The buffer contents at each boundary are a fold from the launch memory: after the first reshape; after region 0
  (its two output arrays at what its write-backs leave, every other buffer as entered); after region 1 likewise; after
  the last reshape.  Each region is entered from "every unscoped buffer at the boundary's contents, the generator
  register at some state, nothing owed" and left at the same with the next boundary's contents.  The run's post reads
  every unscoped buffer at the last boundary's contents; the later modules read the result and the arguments off it.
-/
import proofs.«421815_j46883863003641_1_alg».proof.Proof.KR0Frame
import proofs.«421815_j46883863003641_1_alg».proof.Proof.KR1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the labels' reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the result's reshape: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`.  Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    show _ ⊢ (dat0 (V1 m) c).Φ 0
    iintro ⟨Hp, -, Hr⟩
    iapply h
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`.  Its arrays
    are split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    show _ ⊢ (dat1 (V2 m) c).Φ 0
    iintro ⟨Hp, -, Hr⟩
    iapply h
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KR0Final.lean ====
/-
  WHAT THE FIRST KERNEL'S REGION LEAVES IN ITS TWO OUTPUT ARRAYS.  Each output window is written back once, at the
  last point, and its one block is the whole array: so after the region the centroids' array holds the centroids
  computed from the accumulators after the last tile, and the squared norms' array their squared norms.
-/
import proofs.«421815_j46883863003641_1_alg».proof.Proof.KR0Frame
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Fold Cert.Tiles

section Region
variable (V : (c : Dev nD) → (b : Ref sig .tc) → Buf (Elt F) ((c : Thread nD τ).loc b))

/-- The output windows' block index is 0 on both axes at every point. -/
theorem idx0_out : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_2.index t (0 : Fin 2) = 0 ∧ win0_2.index t (1 : Fin 2) = 0
    ∧ win0_3.index t (0 : Fin 2) = 0 ∧ win0_3.index t (1 : Fin 2) = 0)

/-- An index of the array is in point `t`'s block of window 2 iff each coordinate is in the block's range. -/
theorem mem_blk0_2 (t : Fin cfg0.N) (i : S256x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

/-- The last point's block of window 2 is the whole array. -/
theorem cover0_2 (i : S256x2048.Idx) : ∃ t : Fin cfg0.N, (cfg0.win 2).flush t = true ∧ i ∈ ((cfg0.win 2).blk t).view.set := by
  have h7 : (7 : ℕ) < cfg0.N := by rw [show cfg0.N = 8 from N_0]; decide
  refine ⟨⟨7, h7⟩, (flush0_2 _).mpr rfl, ?_⟩
  rw [mem_blk0_2]
  obtain ⟨e0, e1, -, -⟩ := idx0_out ⟨7, h7⟩
  have hi0 : (i 0).val < 256 := (i 0).isLt
  have hi1 : (i 1).val < 2048 := (i 1).isLt
  intro a
  match a with
  | ⟨0, _⟩ => show win0_2.index ⟨7, h7⟩ (0 : Fin 2) * 256 ≤ (i 0).val ∧ (i 0).val < win0_2.index ⟨7, h7⟩ (0 : Fin 2) * 256 + 256; rw [e0]; omega
  | ⟨1, _⟩ => show win0_2.index ⟨7, h7⟩ (1 : Fin 2) * 2048 ≤ (i 1).val ∧ (i 1).val < win0_2.index ⟨7, h7⟩ (1 : Fin 2) * 2048 + 2048; rw [e1]; omega

/-- After the region the array of window 2 holds what the last point stored. -/
theorem final0_2 (c : Dev nD) : (dat0 V c).arrAt 2 cfg0.N = cen0 (tile (Earr0 V c)) (tile (Larr0 V c)) := by
  refine (dat0 V c).arrAt_eq_of_cover 2 _ (fun t _ => ?_) (fun i => cover0_2 i)
  obtain ⟨e0, e1, -, -⟩ := idx0_out t
  show (cfg0.win 2).cut (grid0.coords t) ((dat0 V c).after 2 t) = _
  rw [after0_2]
  funext j
  show (cen0 (tile (Earr0 V c)) (tile (Larr0 V c))) j = (cen0 (tile (Earr0 V c)) (tile (Larr0 V c))) (((cfg0.win 2).blk t).view.emb j)
  refine congrArg _ (funext fun a => Fin.ext ?_)
  match a with
  | ⟨0, _⟩ => show (j 0).val = win0_2.index t (0 : Fin 2) * 256 + 1 * (j 0).val; rw [e0]; omega
  | ⟨1, _⟩ => show (j 1).val = win0_2.index t (1 : Fin 2) * 2048 + 1 * (j 1).val; rw [e1]; omega

/-- An index of the array is in point `t`'s block of window 3 iff each coordinate is in the block's range. -/
theorem mem_blk0_3 (t : Fin cfg0.N) (i : S1x256.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v1_1).slice (win0_3.rect t)).set ↔ _
  rw [View.set_slice_whole, Rect.mem_set_unit]
  exact Iff.rfl

/-- The last point's block of window 3 is the whole array. -/
theorem cover0_3 (i : S1x256.Idx) : ∃ t : Fin cfg0.N, (cfg0.win 3).flush t = true ∧ i ∈ ((cfg0.win 3).blk t).view.set := by
  have h7 : (7 : ℕ) < cfg0.N := by rw [show cfg0.N = 8 from N_0]; decide
  refine ⟨⟨7, h7⟩, (flush0_3 _).mpr rfl, ?_⟩
  rw [mem_blk0_3]
  obtain ⟨-, -, e0, e1⟩ := idx0_out ⟨7, h7⟩
  have hi0 : (i 0).val < 1 := (i 0).isLt
  have hi1 : (i 1).val < 256 := (i 1).isLt
  intro a
  match a with
  | ⟨0, _⟩ => show win0_3.index ⟨7, h7⟩ (0 : Fin 2) * 1 ≤ (i 0).val ∧ (i 0).val < win0_3.index ⟨7, h7⟩ (0 : Fin 2) * 1 + 1; rw [e0]; omega
  | ⟨1, _⟩ => show win0_3.index ⟨7, h7⟩ (1 : Fin 2) * 256 ≤ (i 1).val ∧ (i 1).val < win0_3.index ⟨7, h7⟩ (1 : Fin 2) * 256 + 256; rw [e1]; omega

/-- After the region the array of window 3 holds what the last point stored. -/
theorem final0_3 (c : Dev nD) : (dat0 V c).arrAt 3 cfg0.N = csq0 (tile (Earr0 V c)) (tile (Larr0 V c)) := by
  refine (dat0 V c).arrAt_eq_of_cover 3 _ (fun t _ => ?_) (fun i => cover0_3 i)
  obtain ⟨-, -, e0, e1⟩ := idx0_out t
  show (cfg0.win 3).cut (grid0.coords t) ((dat0 V c).after 3 t) = _
  rw [after0_3]
  funext j
  show (csq0 (tile (Earr0 V c)) (tile (Larr0 V c))) j = (csq0 (tile (Earr0 V c)) (tile (Larr0 V c))) (((cfg0.win 3).blk t).view.emb j)
  refine congrArg _ (funext fun a => Fin.ext ?_)
  match a with
  | ⟨0, _⟩ => show (j 0).val = win0_3.index t (0 : Fin 2) * 1 + 1 * (j 0).val; rw [e0]; omega
  | ⟨1, _⟩ => show (j 1).val = win0_3.index t (1 : Fin 2) * 256 + 1 * (j 1).val; rw [e1]; omega

end Region

end Cert.Kernel.Hand

end
-- ==== Proof.KR1Final.lean ====
/-
  WHAT THE SECOND KERNEL'S REGION LEAVES IN ITS OUTPUT ARRAY.  The one-element output window is written back once, at
  the last point: after the region the array holds the accumulated sum of the losses after the last tile, scaled.
-/
import proofs.«421815_j46883863003641_1_alg».proof.Proof.KR1Frame
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Fold Cert.Tiles

section Region
variable (V : (c : Dev nD) → (b : Ref sig .tc) → Buf (Elt F) ((c : Thread nD τ).loc b))

/-- The output window's block index is 0 on both axes at every point. -/
theorem idx1_out : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- An index of the array is in point `t`'s block of window 4 iff each coordinate is in the block's range. -/
theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v2).slice (win1_4.rect t)).set ↔ _
  rw [View.set_slice_whole, Rect.mem_set_unit]
  exact Iff.rfl

/-- The last point's block of window 4 is the whole array. -/
theorem cover1_4 (i : S1x1.Idx) : ∃ t : Fin cfg1.N, (cfg1.win 4).flush t = true ∧ i ∈ ((cfg1.win 4).blk t).view.set := by
  have h7 : (7 : ℕ) < cfg1.N := by rw [show cfg1.N = 8 from N_1]; decide
  refine ⟨⟨7, h7⟩, (flush1_4 _).mpr rfl, ?_⟩
  rw [mem_blk1_4]
  obtain ⟨e0, e1⟩ := idx1_out ⟨7, h7⟩
  have hi0 : (i 0).val < 1 := (i 0).isLt
  have hi1 : (i 1).val < 1 := (i 1).isLt
  intro a
  match a with
  | ⟨0, _⟩ => show win1_4.index ⟨7, h7⟩ (0 : Fin 2) * 1 ≤ (i 0).val ∧ (i 0).val < win1_4.index ⟨7, h7⟩ (0 : Fin 2) * 1 + 1; rw [e0]; omega
  | ⟨1, _⟩ => show win1_4.index ⟨7, h7⟩ (1 : Fin 2) * 1 ≤ (i 1).val ∧ (i 1).val < win1_4.index ⟨7, h7⟩ (1 : Fin 2) * 1 + 1; rw [e1]; omega

/-- After the region the array of window 4 holds what the last point stored. -/
theorem final1_4 (c : Dev nD) : (dat1 V c).arrAt 4 cfg1.N = out1 (tile (Earr1 V c)) (tile (Larr1 V c)) (Carr1 V c) (Qarr1 V c) := by
  refine (dat1 V c).arrAt_eq_of_cover 4 _ (fun t _ => ?_) (fun i => cover1_4 i)
  obtain ⟨e0, e1⟩ := idx1_out t
  show (cfg1.win 4).cut (grid1.coords t) ((dat1 V c).after 4 t) = _
  rw [after1_4]
  funext j
  show (out1 (tile (Earr1 V c)) (tile (Larr1 V c)) (Carr1 V c) (Qarr1 V c)) j = (out1 (tile (Earr1 V c)) (tile (Larr1 V c)) (Carr1 V c) (Qarr1 V c)) (((cfg1.win 4).blk t).view.emb j)
  refine congrArg _ (funext fun a => Fin.ext ?_)
  match a with
  | ⟨0, _⟩ => show (j 0).val = win1_4.index t (0 : Fin 2) * 1 + 1 * (j 0).val; rw [e0]; omega
  | ⟨1, _⟩ => show (j 1).val = win1_4.index t (1 : Fin 2) * 1 + 1 * (j 1).val; rw [e1]; omega

end Region

end Cert.Kernel.Hand

end
-- ==== Proof.KResult.lean ====
/-
  THE PROGRAM'S RESULT AND ITS ARGUMENTS, READ OFF THE LAST BOUNDARY, at any float instance.

  Walking the boundaries' fold: the first reshape makes the labels a column and touches nothing else; region 0 leaves
  the embeddings and the column as entered and its two outputs at the centroids and squared norms of the fold over the
  tiles; region 1 leaves its four inputs as entered and its output at the scaled sum of the losses; the last reshape
  makes that one element the scalar result.  No segment writes an argument.
-/
import proofs.«421815_j46883863003641_1_alg».proof.Proof.KAssembly
import proofs.«421815_j46883863003641_1_alg».proof.Proof.KR0Final
import proofs.«421815_j46883863003641_1_alg».proof.Proof.KR1Final

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Fold Cert.Tiles

variable (m : (ℓ : Loc nD τ sig) → Buf (Elt F) ℓ) (ρ : Dev nD → PrngReg)

/-- The embeddings at launch, and the labels at launch as a column. -/
abbrev Ein (c : Dev nD) : Vec F S8192x2048 .f32 := m ((c : Thread nD τ).loc main_arg0)
abbrev Lcol (c : Dev nD) : Vec F S8192x1 .i32 := shapeCast S8192x1 (m ((c : Thread nD τ).loc main_arg1)) shapeCasts_S8192_S8192x1

/-- The whole program's result as a function of its two arguments: the fold of the second kernel over the tiles, on
    the centroids and squared norms the fold of the first kernel leaves, as a scalar. -/
def resultF (E : Vec F S8192x2048 .f32) (lab : IVec S8192 32) : Vec F S_ .f32 :=
  shapeCast S_ (out1 (tile E) (tile (shapeCast S8192x1 lab shapeCasts_S8192_S8192x1))
    (cen0 (tile E) (tile (shapeCast S8192x1 lab shapeCasts_S8192_S8192x1)))
    (csq0 (tile E) (tile (shapeCast S8192x1 lab shapeCasts_S8192_S8192x1)))) shapeCasts_S1x1_S_

/-! ## After the first reshape -/

theorem V1_arg0 (c : Dev nD) : V1 m c main_arg0 = Ein m c := by
  show StableHlo.after hostOps0 (W0 m c) (Proc.devRef .tc main_arg0) = _
  after_results
theorem V1_arg1 (c : Dev nD) : V1 m c main_arg1 = m ((c : Thread nD τ).loc main_arg1) := by
  show StableHlo.after hostOps0 (W0 m c) (Proc.devRef .tc main_arg1) = _
  after_results
theorem V1_v0 (c : Dev nD) : V1 m c main_v0 = Lcol m c := by
  show StableHlo.after hostOps0 (W0 m c) (Proc.devRef .tc main_v0) = _
  after_results; rfl

/-! ## After region 0 -/

theorem V2_arg0 (c : Dev nD) : V2 m c main_arg0 = Ein m c :=
  (W2_arr m c 0).trans (((dat0 (V1 m) c).arrAt_in 0 rfl _).trans ((A_eq0 (V1 m) c 0).trans (V1_arg0 m c)))
theorem V2_v0 (c : Dev nD) : V2 m c main_v0 = Lcol m c :=
  (W2_arr m c 1).trans (((dat0 (V1 m) c).arrAt_in 1 rfl _).trans ((A_eq0 (V1 m) c 1).trans (V1_v0 m c)))
theorem V2_v1_0 (c : Dev nD) : V2 m c main_v1_0 = cen0 (tile (Ein m c)) (tile (Lcol m c)) :=
  (W2_arr m c 2).trans ((final0_2 (V1 m) c).trans (by
    show cen0 (tile (V1 m c main_arg0)) (tile (V1 m c main_v0)) = _
    rw [V1_arg0, V1_v0]))
theorem V2_v1_1 (c : Dev nD) : V2 m c main_v1_1 = csq0 (tile (Ein m c)) (tile (Lcol m c)) :=
  (W2_arr m c 3).trans ((final0_3 (V1 m) c).trans (by
    show csq0 (tile (V1 m c main_arg0)) (tile (V1 m c main_v0)) = _
    rw [V1_arg0, V1_v0]))
theorem V2_arg1 (c : Dev nD) : V2 m c main_arg1 = m ((c : Thread nD τ).loc main_arg1) :=
  (W2_of_ne m c main_arg1 (by decide)).trans (V1_arg1 m c)

/-! ## After region 1 -/

theorem V3_v2 (c : Dev nD) : V3 m c main_v2
    = out1 (tile (Ein m c)) (tile (Lcol m c)) (cen0 (tile (Ein m c)) (tile (Lcol m c))) (csq0 (tile (Ein m c)) (tile (Lcol m c))) :=
  (W3_arr m c 4).trans ((final1_4 (V2 m) c).trans (by
    show out1 (tile (V2 m c main_arg0)) (tile (V2 m c main_v0)) (V2 m c main_v1_0) (V2 m c main_v1_1) = _
    rw [V2_arg0, V2_v0, V2_v1_0, V2_v1_1]))
theorem V3_arg0 (c : Dev nD) : V3 m c main_arg0 = Ein m c :=
  (W3_arr m c 0).trans (((dat1 (V2 m) c).arrAt_in 0 rfl _).trans ((A_eq1 (V2 m) c 0).trans (V2_arg0 m c)))
theorem V3_arg1 (c : Dev nD) : V3 m c main_arg1 = m ((c : Thread nD τ).loc main_arg1) :=
  (W3_of_ne m c main_arg1 (by decide)).trans (V2_arg1 m c)

/-! ## After the last reshape -/

theorem W4_v3 (c : Dev nD) : W4 m c (Proc.devRef .tc main_v3)
    = resultF (m ((c : Thread nD τ).loc main_arg0)) (m ((c : Thread nD τ).loc main_arg1)) := by
  show StableHlo.after hostOps2 (W3 m c) (Proc.devRef .tc main_v3) = _
  after_results
  rw [show W3 m c (Proc.devRef .tc main_v2) = _ from V3_v2 m c]
  rfl
theorem W4_arg0 (c : Dev nD) : W4 m c (Proc.devRef .tc main_arg0) = m ((c : Thread nD τ).loc main_arg0) := by
  show StableHlo.after hostOps2 (W3 m c) (Proc.devRef .tc main_arg0) = _
  after_results
  exact V3_arg0 m c
theorem W4_arg1 (c : Dev nD) : W4 m c (Proc.devRef .tc main_arg1) = m ((c : Thread nD τ).loc main_arg1) := by
  show StableHlo.after hostOps2 (W3 m c) (Proc.devRef .tc main_arg1) = _
  after_results
  exact V3_arg1 m c

/-! ## The run, read -/

/-- THE RUN, READ: every weakly fair execution terminates, the result buffer holds `resultF` of the launch arguments,
    and the arguments are unchanged. -/
theorem run_value : θ_run defs (onTc (τ := τ) (main (F := F))) ⟨m, fun _ => 0, ρ⟩ (fun r => ∀ c : Dev nD,
      r.2.mem ((c.tc : Thread nD τ).loc main_v3) = resultF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v3 (by decide))).trans (W4_v3 m c),
     (h c _ (mem_uc main_arg0 (by decide))).trans (W4_arg0 m c),
     (h c _ (mem_uc main_arg1 (by decide))).trans (W4_arg1 m c)⟩) (run_all m ρ)

end Cert.Kernel.Hand

end
-- ==== Proof.PreDecode.lean ====
/-
  WHAT THE PRECONDITION SAYS OF THE LABELS.  The stated precondition is the conjunction of "every embedding is finite"
  and "every label, read as a signed integer, is at least 0 and less than 256", each an all-quantifier printed as a
  reduction by `and` from the constant 1.  When the whole predicate is 1, the second reduction is 1, so each of its
  operand's entries is 1, and such an entry is the conjunction of two signed comparisons of the label word with the
  constants 0 and 256.
-/
import proofs.«421815_j46883863003641_1_alg».proof.Proof.Gen.Pre_finite_inputs
import Idealize.ShloMosaic.Lib.ReduceAll
import Idealize.ShloMosaic.Lib.ValueIdx

namespace Cert.PreDecode

open Idealize.ShloMosaic Idealize.ShloMosaic.ValueIdx Cert.Pre_finite_inputs Cert.Pre_finite_inputs.Gen

instance : Subsingleton S_.Idx := ⟨fun a b => funext fun d => d.elim0⟩

/-- Under the precondition every label word, read signed, lies in `[0, 256)`. -/
theorem label_range {F : FTy → Type} [FloatOps F] (x0 : FVec F S8192x2048 .f32) (x1 : IVec S8192 32)
    (h : Cert.Pre_finite_inputs.fn (F := F) x0 x1 = fun _ => 1#1) (n : Fin 8192) :
    0 ≤ (x1 (ix1 n)).toInt ∧ (x1 (ix1 n)).toInt < 256 := by
  have h0 := congrFun h ix0
  dsimp only [Cert.Pre_finite_inputs.fn] at h0
  obtain ⟨-, h2⟩ := IntOp.andi_eq_one.1 h0
  have h3 := Host.reduce_andi_all _ _ _ _ _ h2 (ix1 n)
  obtain ⟨hge, hlt⟩ := IntOp.andi_eq_one.1 h3
  have hge' := IntOp.cmpi_sge.1 hge
  have hlt' := IntOp.cmpi_slt.1 hlt
  exact ⟨hge', hlt'⟩

end Cert.PreDecode
-- ==== Proof.lean ====
/-
  THE CERTIFICATE: a two-kernel centroid triplet loss against its one-program reference.

  The three frames.  The kernels' program (at the word level and idealized) is a reshape, two kernel regions and a
  reshape; each region's body is run case by case on the grid point, its carried accumulators named by a fold over the
  row tiles, and the program's run reads every buffer at the end: the arguments are unchanged.  The reference's frame is
  its run with the result dropped.  The idealization rewrote nothing, so `preserves` has nothing to state.
  The equivalence.  On the extended reals the first kernel's fold over the 8 tiles gives the per-class sums and
  counts of the whole table, hence the reference's centroids and squared norms; the second kernel's fold gives the sum
  of the rows' losses, where a row's positive term, a one-hot weighted sum of its distances, is the distance at its own
  label because the precondition puts every label in the class range; and the final scaling by the word of 1/8192 is
  the reference's division by 8192.
-/
import proofs.«421815_j46883863003641_1_alg».proof.Defs
import proofs.«421815_j46883863003641_1_alg».proof.Proof.Bridge
import proofs.«421815_j46883863003641_1_alg».proof.Proof.KResult
import proofs.«421815_j46883863003641_1_alg».proof.Proof.PreDecode

noncomputable section

namespace Cert.Proof

open Idealize.ShloMosaic Idealize.SL.Sem

/-- The word-level program runs and leaves its arguments unchanged. -/
theorem frame_k : Cert.frame_Kernel := fun m ρ _ =>
  (θ_run Cert.Kernel.defs _ _).mono (fun _ h c => ⟨(h c).2.1, (h c).2.2⟩) (Cert.Kernel.Hand.run_value (F := Bits) m ρ)

/-- So does the idealized program. -/
theorem frame_ki : Cert.frame_KernelIdeal := fun m ρ _ =>
  (θ_run Cert.KernelIdeal.defs _ _).mono (fun _ h c => ⟨(h c).2.1, (h c).2.2⟩) (Cert.KernelIdeal.Hand.run_value (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the arguments and under the precondition, both programs end with
    the same result: the kernels' program's fold over the tiles, which the reference's term equals for labels in the
    class range. -/
theorem algebraic : Cert.algebraic_KernelIdeal_ReferenceIdeal := by
  intro m ρ m' ρ' hpre hagree
  refine ⟨fun c => Cert.KernelIdeal.Hand.resultF (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value (F := Ideal) m ρ, ?_⟩
  refine (θ_run Cert.ReferenceIdeal.defs _ _).mono (fun _ h c => ⟨(h c).1.trans ?_, (h c).2.1, (h c).2.2⟩)
    (Cert.ReferenceIdeal.ValueP.run (F := Ideal) m' ρ')
  rw [Cert.ReferenceIdeal.ReadP.val_main_v43_eq, (hagree c).1, (hagree c).2]
  exact Cert.Bridge.reference_result _ _ (fun n => Cert.PreDecode.label_range _ _ (hpre c) n)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
